-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x15 : Shape := ⟨2, ![16384, 15]⟩
abbrev S65536x512 : Shape := ⟨2, ![65536, 512]⟩
abbrev S256x128 : Shape := ⟨2, ![256, 128]⟩
abbrev S1024x512 : Shape := ⟨2, ![1024, 512]⟩
abbrev S512x1024 : Shape := ⟨2, ![512, 1024]⟩
abbrev S512 : Shape := ⟨1, ![512]⟩
abbrev S512x512 : Shape := ⟨2, ![512, 512]⟩
abbrev S512x640 : Shape := ⟨2, ![512, 640]⟩
abbrev S1024 : Shape := ⟨1, ![1024]⟩
abbrev S1x512 : Shape := ⟨2, ![1, 512]⟩
abbrev S1 : Shape := ⟨1, ![1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S1024x512 : S_.BroadcastsInDim S1024x512 (![] : Fin 0 → Fin S1024x512.rank)
  reducesTo_S1024x512_S_d0_1 : S1024x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x640 : S_.BroadcastsInDim S512x640 (![] : Fin 0 → Fin S512x640.rank)
  reducesTo_S512x640_S_d0_1 : S512x640.ReducesTo [0, 1] S_
  bcast_S_S1024 : S_.BroadcastsInDim S1024 (![] : Fin 0 → Fin S1024.rank)
  reducesTo_S1024_S_d0 : S1024.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg24 : FVec F S1x512 .f32) (main_arg25 : FVec F S1 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S1x512 .f32 := Host.absf main_arg24
  let main_cst_34 : FVec F S_ .f32 := constant S_ .f32 0x7F800000#32
  let main_v90 : FVec F S1x512 .f32 := broadcastInDim S1x512 ![] bcast_S_S1x512 main_cst_34
  let main_v91 : IVec S1x512 1 := cmpf .olt main_v89 main_v90
  let main_c_35 : IVec S_ 1 := constantI S_ 1 1#1
  let main_v92 : IVec S_ 1 := (fun x v => Host.reduce IntOp.andi x v reducesTo_S1x512_S_d0_1 h_S_) main_v91 main_c_35
  let main_v93 : IVec S_ 1 := andi main_v88 main_v92
  let main_v94 : FVec F S1 .f32 := Host.absf main_arg25
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg20 : FVec F S512x1024 .f32) (main_arg21 : FVec F S512 .f32) (main_arg22 : FVec F S512x640 .f32) (main_arg23 : FVec F S512 .f32) (main_arg24 : FVec F S1x512 .f32) (main_arg25 : FVec F S1 .f32) (main_v63 : IVec S_ 1) (main_v67 : IVec S_ 1) : IVec S_ 1 :=
  let main_v68 : IVec S_ 1 := andi main_v63 main_v67
  let main_v69 : FVec F S512x1024 .f32 := Host.absf main_arg20
  let main_cst_26 : FVec F S_ .f32 := constant S_ .f32 0x7F800000#32
  let main_v70 : FVec F S512x1024 .f32 := broadcastInDim S512x1024 ![] bcast_S_S512x1024 main_cst_26
  let main_v71 : IVec S512x1024 1 := cmpf .olt main_v69 main_v70
  let main_c_27 : IVec S_ 1 := constantI S_ 1 1#1
  let main_v72 : IVec S_ 1 := (fun x v => Host.reduce IntOp.andi x v reducesTo_S512x1024_S_d0_1 h_S_) main_v71 main_c_27
  let main_v73 : IVec S_ 1 := andi main_v68 main_v72
  let main_v74 : FVec F S512 .f32 := Host.absf main_arg21
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x640 .f32 := Host.absf main_arg22
  let main_cst_30 : FVec F S_ .f32 := constant S_ .f32 0x7F800000#32
  let main_v80 : FVec F S512x640 .f32 := broadcastInDim S512x640 ![] bcast_S_S512x640 main_cst_30
  let main_v81 : IVec S512x640 1 := cmpf .olt main_v79 main_v80
  let main_c_31 : IVec S_ 1 := constantI S_ 1 1#1
  let main_v82 : IVec S_ 1 := (fun x v => Host.reduce IntOp.andi x v reducesTo_S512x640_S_d0_1 h_S_) main_v81 main_c_31
  let main_v83 : IVec S_ 1 := andi main_v78 main_v82
  let main_v84 : FVec F S512 .f32 := Host.absf main_arg23
  let main_cst_32 : FVec F S_ .f32 := constant S_ .f32 0x7F800000#32
  fn_part5 (F := F) main_arg24 main_arg25 main_v83 main_v84 main_cst_32

def fn_part3 {F : FTy → Type} [FloatOps F] (main_arg17 : FVec F S512 .f32) (main_arg18 : FVec F S1024x512 .f32) (main_arg19 : FVec F S1024 .f32) (main_arg20 : FVec F S512x1024 .f32) (main_arg21 : FVec F S512 .f32) (main_arg22 : FVec F S512x640 .f32) (main_arg23 : FVec F S512 .f32) (main_arg24 : FVec F S1x512 .f32) (main_arg25 : FVec F S1 .f32) (main_v48 : IVec S_ 1) (main_v49 : FVec F S512x640 .f32) (main_v50 : FVec F S512x640 .f32) : IVec S_ 1 :=
  let main_v51 : IVec S512x640 1 := cmpf .olt main_v49 main_v50
  let main_c_19 : IVec S_ 1 := constantI S_ 1 1#1
  let main_v52 : IVec S_ 1 := (fun x v => Host.reduce IntOp.andi x v reducesTo_S512x640_S_d0_1 h_S_) main_v51 main_c_19
  let main_v53 : IVec S_ 1 := andi main_v48 main_v52
  let main_v54 : FVec F S512 .f32 := Host.absf main_arg17
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S1024x512 .f32 := Host.absf main_arg18
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S1024 .f32 := Host.absf main_arg19
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg20 main_arg21 main_arg22 main_arg23 main_arg24 main_arg25 main_v63 main_v67

def fn_part2 {F : FTy → Type} [FloatOps F] (main_arg13 : FVec F S512x512 .f32) (main_arg14 : FVec F S512x1024 .f32) (main_arg15 : FVec F S512 .f32) (main_arg16 : FVec F S512x640 .f32) (main_arg17 : FVec F S512 .f32) (main_arg18 : FVec F S1024x512 .f32) (main_arg19 : FVec F S1024 .f32) (main_arg20 : FVec F S512x1024 .f32) (main_arg21 : FVec F S512 .f32) (main_arg22 : FVec F S512x640 .f32) (main_arg23 : FVec F S512 .f32) (main_arg24 : FVec F S1x512 .f32) (main_arg25 : FVec F S1 .f32) (main_v33 : IVec S_ 1) : IVec S_ 1 :=
  let main_v34 : FVec F S512x512 .f32 := Host.absf main_arg13
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x1024 .f32 := Host.absf main_arg14
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S512 .f32 := Host.absf main_arg15
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x640 .f32 := Host.absf main_arg16
  let main_cst_18 : FVec F S_ .f32 := constant S_ .f32 0x7F800000#32
  let main_v50 : FVec F S512x640 .f32 := broadcastInDim S512x640 ![] bcast_S_S512x640 main_cst_18
  fn_part3 (F := F) main_arg17 main_arg18 main_arg19 main_arg20 main_arg21 main_arg22 main_arg23 main_arg24 main_arg25 main_v48 main_v49 main_v50

def fn_part1 {F : FTy → Type} [FloatOps F] (main_arg10 : FVec F S512 .f32) (main_arg11 : FVec F S512x512 .f32) (main_arg12 : FVec F S512 .f32) (main_arg13 : FVec F S512x512 .f32) (main_arg14 : FVec F S512x1024 .f32) (main_arg15 : FVec F S512 .f32) (main_arg16 : FVec F S512x640 .f32) (main_arg17 : FVec F S512 .f32) (main_arg18 : FVec F S1024x512 .f32) (main_arg19 : FVec F S1024 .f32) (main_arg20 : FVec F S512x1024 .f32) (main_arg21 : FVec F S512 .f32) (main_arg22 : FVec F S512x640 .f32) (main_arg23 : FVec F S512 .f32) (main_arg24 : FVec F S1x512 .f32) (main_arg25 : FVec F S1 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg10
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg11
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg12
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_v33

def fn {F : FTy → Type} [FloatOps F] (main_arg0 : IVec S16384 32) (main_arg1 : IVec S16384 32) (main_arg2 : IVec S16384x15 32) (main_arg3 : IVec S16384x15 32) (main_arg4 : IVec S16384x15 32) (main_arg5 : IVec S16384x15 32) (main_arg6 : FVec F S65536x512 .f32) (main_arg7 : FVec F S256x128 .f32) (main_arg8 : FVec F S1024x512 .f32) (main_arg9 : FVec F S512x1024 .f32) (main_arg10 : FVec F S512 .f32) (main_arg11 : FVec F S512x512 .f32) (main_arg12 : FVec F S512 .f32) (main_arg13 : FVec F S512x512 .f32) (main_arg14 : FVec F S512x1024 .f32) (main_arg15 : FVec F S512 .f32) (main_arg16 : FVec F S512x640 .f32) (main_arg17 : FVec F S512 .f32) (main_arg18 : FVec F S1024x512 .f32) (main_arg19 : FVec F S1024 .f32) (main_arg20 : FVec F S512x1024 .f32) (main_arg21 : FVec F S512 .f32) (main_arg22 : FVec F S512x640 .f32) (main_arg23 : FVec F S512 .f32) (main_arg24 : FVec F S1x512 .f32) (main_arg25 : FVec F S1 .f32) : IVec S_ 1 :=
  let main_v0 : FVec F S65536x512 .f32 := Host.absf main_arg6
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256x128 .f32 := Host.absf main_arg7
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S1024x512 .f32 := Host.absf main_arg8
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512x1024 .f32 := Host.absf main_arg9
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S16384 : Shape := ⟨1, ![16384]⟩
abbrev S16384x15 : Shape := ⟨2, ![16384, 15]⟩
abbrev S65536x512 : Shape := ⟨2, ![65536, 512]⟩
abbrev S256x128 : Shape := ⟨2, ![256, 128]⟩
abbrev S1024x512 : Shape := ⟨2, ![1024, 512]⟩
abbrev S512x1024 : Shape := ⟨2, ![512, 1024]⟩
abbrev S512 : Shape := ⟨1, ![512]⟩
abbrev S512x512 : Shape := ⟨2, ![512, 512]⟩
abbrev S512x640 : Shape := ⟨2, ![512, 640]⟩
abbrev S1024 : Shape := ⟨1, ![1024]⟩
abbrev S1x512 : Shape := ⟨2, ![1, 512]⟩
abbrev S1 : Shape := ⟨1, ![1]⟩
abbrev S_ : Shape := ⟨0, ![]⟩
abbrev S16384x1 : Shape := ⟨2, ![16384, 1]⟩
abbrev S16384x512 : Shape := ⟨2, ![16384, 512]⟩
abbrev S16384x128 : Shape := ⟨2, ![16384, 128]⟩
abbrev S15x16384 : Shape := ⟨2, ![15, 16384]⟩
abbrev S15x16384x1 : Shape := ⟨3, ![15, 16384, 1]⟩
abbrev S15x16384x512 : Shape := ⟨3, ![15, 16384, 512]⟩
abbrev S512x128 : Shape := ⟨2, ![512, 128]⟩
abbrev S128x512 : Shape := ⟨2, ![128, 512]⟩
abbrev S1x1024 : Shape := ⟨2, ![1, 1024]⟩
abbrev S1x1 : Shape := ⟨2, ![1, 1]⟩
abbrev S16384x1025 : Shape := ⟨2, ![16384, 1025]⟩
abbrev S256x512 : Shape := ⟨2, ![256, 512]⟩
abbrev S15x256x512 : Shape := ⟨3, ![15, 256, 512]⟩
abbrev S256x1025 : Shape := ⟨2, ![256, 1025]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩

abbrev nBuf : Space → Nat
  | .hbm => 123
  | .vmem => 32
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x15, .i32⟩
  | .hbm, ⟨3, _⟩ => ⟨S16384x15, .i32⟩
  | .hbm, ⟨4, _⟩ => ⟨S16384x15, .i32⟩
  | .hbm, ⟨5, _⟩ => ⟨S16384x15, .i32⟩
  | .hbm, ⟨6, _⟩ => ⟨S65536x512, .f32⟩
  | .hbm, ⟨7, _⟩ => ⟨S256x128, .f32⟩
  | .hbm, ⟨8, _⟩ => ⟨S1024x512, .f32⟩
  | .hbm, ⟨9, _⟩ => ⟨S512x1024, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512x1024, .f32⟩
  | .hbm, ⟨15, _⟩ => ⟨S512, .f32⟩
  | .hbm, ⟨16, _⟩ => ⟨S512x640, .f32⟩
  | .hbm, ⟨17, _⟩ => ⟨S512, .f32⟩
  | .hbm, ⟨18, _⟩ => ⟨S1024x512, .f32⟩
  | .hbm, ⟨19, _⟩ => ⟨S1024, .f32⟩
  | .hbm, ⟨20, _⟩ => ⟨S512x1024, .f32⟩
  | .hbm, ⟨21, _⟩ => ⟨S512, .f32⟩
  | .hbm, ⟨22, _⟩ => ⟨S512x640, .f32⟩
  | .hbm, ⟨23, _⟩ => ⟨S512, .f32⟩
  | .hbm, ⟨24, _⟩ => ⟨S1x512, .f32⟩
  | .hbm, ⟨25, _⟩ => ⟨S1, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x512, .f32⟩
  | .hbm, ⟨35, _⟩ => ⟨S16384x512, .bf16⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S16384x1, .i32⟩
  | .hbm, ⟨44, _⟩ => ⟨S16384x128, .f32⟩
  | .hbm, ⟨45, _⟩ => ⟨S16384x128, .bf16⟩
  | .hbm, ⟨46, _⟩ => ⟨S15x16384, .i32⟩
  | .hbm, ⟨47, _⟩ => ⟨S15x16384, .i32⟩
  | .hbm, ⟨48, _⟩ => ⟨S15x16384, .f32⟩
  | .hbm, ⟨49, _⟩ => ⟨S15x16384x1, .f32⟩
  | .hbm, ⟨50, _⟩ => ⟨S_, .i32⟩
  | .hbm, ⟨51, _⟩ => ⟨S15x16384, .i32⟩
  | .hbm, ⟨52, _⟩ => ⟨S15x16384, .i1⟩
  | .hbm, ⟨53, _⟩ => ⟨S_, .i32⟩
  | .hbm, ⟨54, _⟩ => ⟨S15x16384, .i32⟩
  | .hbm, ⟨55, _⟩ => ⟨S15x16384, .i32⟩
  | .hbm, ⟨56, _⟩ => ⟨S15x16384, .i32⟩
  | .hbm, ⟨57, _⟩ => ⟨S15x16384x1, .i32⟩
  | .hbm, ⟨58, _⟩ => ⟨S15x16384x512, .f32⟩
  | .hbm, ⟨59, _⟩ => ⟨S15x16384x512, .f32⟩
  | .hbm, ⟨60, _⟩ => ⟨S15x16384x512, .f32⟩
  | .hbm, ⟨61, _⟩ => ⟨S15x16384x512, .bf16⟩
  | .hbm, ⟨62, _⟩ => ⟨S15x16384, .i32⟩
  | .hbm, ⟨63, _⟩ => ⟨S15x16384, .i32⟩
  | .hbm, ⟨64, _⟩ => ⟨S15x16384, .f32⟩
  | .hbm, ⟨65, _⟩ => ⟨S15x16384x1, .f32⟩
  | .hbm, ⟨66, _⟩ => ⟨S_, .i32⟩
  | .hbm, ⟨67, _⟩ => ⟨S15x16384, .i32⟩
  | .hbm, ⟨68, _⟩ => ⟨S15x16384, .i1⟩
  | .hbm, ⟨69, _⟩ => ⟨S_, .i32⟩
  | .hbm, ⟨70, _⟩ => ⟨S15x16384, .i32⟩
  | .hbm, ⟨71, _⟩ => ⟨S15x16384, .i32⟩
  | .hbm, ⟨72, _⟩ => ⟨S15x16384, .i32⟩
  | .hbm, ⟨73, _⟩ => ⟨S15x16384x1, .i32⟩
  | .hbm, ⟨74, _⟩ => ⟨S15x16384x512, .f32⟩
  | .hbm, ⟨75, _⟩ => ⟨S15x16384x512, .f32⟩
  | .hbm, ⟨76, _⟩ => ⟨S15x16384x512, .f32⟩
  | .hbm, ⟨77, _⟩ => ⟨S15x16384x512, .bf16⟩
  | .hbm, ⟨78, _⟩ => ⟨S512x512, .f32⟩
  | .hbm, ⟨79, _⟩ => ⟨S512x512, .f32⟩
  | .hbm, ⟨80, _⟩ => ⟨S512x512, .bf16⟩
  | .hbm, ⟨81, _⟩ => ⟨S512x512, .f32⟩
  | .hbm, ⟨82, _⟩ => ⟨S512x512, .f32⟩
  | .hbm, ⟨83, _⟩ => ⟨S512x512, .bf16⟩
  | .hbm, ⟨84, _⟩ => ⟨S512x512, .f32⟩
  | .hbm, ⟨85, _⟩ => ⟨S512x512, .bf16⟩
  | .hbm, ⟨86, _⟩ => ⟨S512x512, .f32⟩
  | .hbm, ⟨87, _⟩ => ⟨S512x512, .bf16⟩
  | .hbm, ⟨88, _⟩ => ⟨S512x512, .f32⟩
  | .hbm, ⟨89, _⟩ => ⟨S512x512, .f32⟩
  | .hbm, ⟨90, _⟩ => ⟨S512x512, .bf16⟩
  | .hbm, ⟨91, _⟩ => ⟨S512x512, .f32⟩
  | .hbm, ⟨92, _⟩ => ⟨S512x512, .f32⟩
  | .hbm, ⟨93, _⟩ => ⟨S512x512, .bf16⟩
  | .hbm, ⟨94, _⟩ => ⟨S512x512, .f32⟩
  | .hbm, ⟨95, _⟩ => ⟨S512x512, .f32⟩
  | .hbm, ⟨96, _⟩ => ⟨S512x512, .bf16⟩
  | .hbm, ⟨97, _⟩ => ⟨S512x128, .f32⟩
  | .hbm, ⟨98, _⟩ => ⟨S128x512, .f32⟩
  | .hbm, ⟨99, _⟩ => ⟨S128x512, .bf16⟩
  | .hbm, ⟨100, _⟩ => ⟨S512x1024, .f32⟩
  | .hbm, ⟨101, _⟩ => ⟨S512x1024, .bf16⟩
  | .hbm, ⟨102, _⟩ => ⟨S512x512, .f32⟩
  | .hbm, ⟨103, _⟩ => ⟨S512x512, .f32⟩
  | .hbm, ⟨104, _⟩ => ⟨S512x512, .bf16⟩
  | .hbm, ⟨105, _⟩ => ⟨S512x512, .f32⟩
  | .hbm, ⟨106, _⟩ => ⟨S512x512, .f32⟩
  | .hbm, ⟨107, _⟩ => ⟨S512x512, .bf16⟩
  | .hbm, ⟨108, _⟩ => ⟨S512x512, .f32⟩
  | .hbm, ⟨109, _⟩ => ⟨S512x512, .f32⟩
  | .hbm, ⟨110, _⟩ => ⟨S512x512, .bf16⟩
  | .hbm, ⟨111, _⟩ => ⟨S512x128, .f32⟩
  | .hbm, ⟨112, _⟩ => ⟨S128x512, .f32⟩
  | .hbm, ⟨113, _⟩ => ⟨S128x512, .bf16⟩
  | .hbm, ⟨114, _⟩ => ⟨S1x512, .f32⟩
  | .hbm, ⟨115, _⟩ => ⟨S1x512, .f32⟩
  | .hbm, ⟨116, _⟩ => ⟨S1x512, .f32⟩
  | .hbm, ⟨117, _⟩ => ⟨S1x512, .f32⟩
  | .hbm, ⟨118, _⟩ => ⟨S1x1024, .f32⟩
  | .hbm, ⟨119, _⟩ => ⟨S1x512, .f32⟩
  | .hbm, ⟨120, _⟩ => ⟨S1x512, .f32⟩
  | .hbm, ⟨121, _⟩ => ⟨S1x1, .f32⟩
  | .hbm, ⟨122, _⟩ => ⟨S16384x1025, .f32⟩
  | .local _ .vmem, ⟨0, _⟩ => ⟨S256x512, .bf16⟩
  | .local _ .vmem, ⟨1, _⟩ => ⟨S256x512, .bf16⟩
  | .local _ .vmem, ⟨2, _⟩ => ⟨S15x256x512, .bf16⟩
  | .local _ .vmem, ⟨3, _⟩ => ⟨S15x256x512, .bf16⟩
  | .local _ .vmem, ⟨4, _⟩ => ⟨S15x256x512, .bf16⟩
  | .local _ .vmem, ⟨5, _⟩ => ⟨S15x256x512, .bf16⟩
  | .local _ .vmem, ⟨6, _⟩ => ⟨S256x128, .bf16⟩
  | .local _ .vmem, ⟨7, _⟩ => ⟨S256x128, .bf16⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1x512, .f32⟩
  | .local _ .vmem, ⟨17, _⟩ => ⟨S512x512, .bf16⟩
  | .local _ .vmem, ⟨18, _⟩ => ⟨S128x512, .bf16⟩
  | .local _ .vmem, ⟨19, _⟩ => ⟨S1x512, .f32⟩
  | .local _ .vmem, ⟨20, _⟩ => ⟨S512x1024, .bf16⟩
  | .local _ .vmem, ⟨21, _⟩ => ⟨S1x1024, .f32⟩
  | .local _ .vmem, ⟨22, _⟩ => ⟨S512x512, .bf16⟩
  | .local _ .vmem, ⟨23, _⟩ => ⟨S512x512, .bf16⟩
  | .local _ .vmem, ⟨24, _⟩ => ⟨S1x512, .f32⟩
  | .local _ .vmem, ⟨25, _⟩ => ⟨S512x512, .bf16⟩
  | .local _ .vmem, ⟨26, _⟩ => ⟨S128x512, .bf16⟩
  | .local _ .vmem, ⟨27, _⟩ => ⟨S1x512, .f32⟩
  | .local _ .vmem, ⟨28, _⟩ => ⟨S1x512, .f32⟩
  | .local _ .vmem, ⟨29, _⟩ => ⟨S1x1, .f32⟩
  | .local _ .vmem, ⟨30, _⟩ => ⟨S256x1025, .f32⟩
  | .local _ .vmem, ⟨31, _⟩ => ⟨S256x1025, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c_1 : Ref sig .tc := ⟨.hbm, 36, rfl⟩
abbrev main_v8 : Ref sig .tc := ⟨.hbm, 37, rfl⟩
abbrev main_v9 : Ref sig .tc := ⟨.hbm, 38, rfl⟩
abbrev main_c_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_5 : Ref sig .tc := ⟨.hbm, 66, rfl⟩
abbrev main_v34 : Ref sig .tc := ⟨.hbm, 67, rfl⟩
abbrev main_v35 : Ref sig .tc := ⟨.hbm, 68, rfl⟩
abbrev main_c_6 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg26_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem26_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S15x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S15x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x512 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S256x1025 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bitsLt_bf16_f32 : FTy.bits .bf16 < FTy.bits .f32
  transposes_S16384x15_S15x16384_1_0 : S16384x15.Transposes [1, 0] S15x16384
  bcast_S15x16384_S15x16384x1_0_1 : S15x16384.BroadcastsInDim S15x16384x1 (![0, 1] : Fin 2 → Fin S15x16384x1.rank)
  bcast_S_S15x16384 : S_.BroadcastsInDim S15x16384 (![] : Fin 0 → Fin S15x16384.rank)
  bcast_S15x16384x1_S15x16384x512_0_1_2 : S15x16384x1.BroadcastsInDim S15x16384x512 (![0, 1, 2] : Fin 3 → Fin S15x16384x512.rank)
  slices_S512x1024_S512x512_0_0 : S512x1024.Slices ![0, 0] S512x512
  transposes_S512x512_S512x512_1_0 : S512x512.Transposes [1, 0] S512x512
  slices_S512x1024_S512x512_0_512 : S512x1024.Slices ![0, 512] S512x512
  slices_S512x640_S512x512_0_0 : S512x640.Slices ![0, 0] S512x512
  slices_S512x640_S512x128_0_512 : S512x640.Slices ![0, 512] S512x128
  transposes_S512x128_S128x512_1_0 : S512x128.Transposes [1, 0] S128x512
  transposes_S1024x512_S512x1024_1_0 : S1024x512.Transposes [1, 0] S512x1024
  shapeCasts_S512_S1x512 : S512.ShapeCasts S1x512
  shapeCasts_S1024_S1x1024 : S1024.ShapeCasts S1x1024
  shapeCasts_S1_S1x1 : S1.ShapeCasts S1x1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S15x256x512_S1x256x512_0_0_0 : ∀ a, (![0, 0, 0] : Fin 3 → Nat) a + S1x256x512.size a ≤ S15x256x512.size a
  h_S1x256x512 : 0 < S1x256x512.numel
  shapeCasts_S1x256x512_S256x512 : S1x256x512.ShapeCasts S256x512
  inb_S15x256x512_S1x256x512_1_0_0 : ∀ a, (![1, 0, 0] : Fin 3 → Nat) a + S1x256x512.size a ≤ S15x256x512.size a
  inb_S15x256x512_S1x256x512_2_0_0 : ∀ a, (![2, 0, 0] : Fin 3 → Nat) a + S1x256x512.size a ≤ S15x256x512.size a
  inb_S15x256x512_S1x256x512_3_0_0 : ∀ a, (![3, 0, 0] : Fin 3 → Nat) a + S1x256x512.size a ≤ S15x256x512.size a
  inb_S15x256x512_S1x256x512_4_0_0 : ∀ a, (![4, 0, 0] : Fin 3 → Nat) a + S1x256x512.size a ≤ S15x256x512.size a
  inb_S15x256x512_S1x256x512_5_0_0 : ∀ a, (![5, 0, 0] : Fin 3 → Nat) a + S1x256x512.size a ≤ S15x256x512.size a
  inb_S15x256x512_S1x256x512_6_0_0 : ∀ a, (![6, 0, 0] : Fin 3 → Nat) a + S1x256x512.size a ≤ S15x256x512.size a
  inb_S15x256x512_S1x256x512_7_0_0 : ∀ a, (![7, 0, 0] : Fin 3 → Nat) a + S1x256x512.size a ≤ S15x256x512.size a
  inb_S15x256x512_S1x256x512_8_0_0 : ∀ a, (![8, 0, 0] : Fin 3 → Nat) a + S1x256x512.size a ≤ S15x256x512.size a
  inb_S15x256x512_S1x256x512_9_0_0 : ∀ a, (![9, 0, 0] : Fin 3 → Nat) a + S1x256x512.size a ≤ S15x256x512.size a
  inb_S15x256x512_S1x256x512_10_0_0 : ∀ a, (![10, 0, 0] : Fin 3 → Nat) a + S1x256x512.size a ≤ S15x256x512.size a
  inb_S15x256x512_S1x256x512_11_0_0 : ∀ a, (![11, 0, 0] : Fin 3 → Nat) a + S1x256x512.size a ≤ S15x256x512.size a
  inb_S15x256x512_S1x256x512_12_0_0 : ∀ a, (![12, 0, 0] : Fin 3 → Nat) a + S1x256x512.size a ≤ S15x256x512.size a
  inb_S15x256x512_S1x256x512_13_0_0 : ∀ a, (![13, 0, 0] : Fin 3 → Nat) a + S1x256x512.size a ≤ S15x256x512.size a
  inb_S15x256x512_S1x256x512_14_0_0 : ∀ a, (![14, 0, 0] : Fin 3 → Nat) a + S1x256x512.size a ≤ S15x256x512.size a
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x512_S256 : S256x512.Reduces [1] S256
  shapeCasts_S256_S256x1 : S256.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1025_S256x1024_0_0 : ∀ a, (![0, 0] : Fin 2 → Nat) a + S256x1024.size a ≤ S256x1025.size a
  h_S256x1024 : 0 < S256x1024.numel
  inb_S256x1025_S256x1_0_1024 : ∀ a, (![0, 1024] : Fin 2 → Nat) a + S256x1.size a ≤ S256x1025.size a
  h_S256x1 : 0 < S256x1.numel
  gather_S1024x512_S16384x1_S16384x512_1_0_n_n_0_1_1512_wf : GatherDims.WF S1024x512 S16384x1 S16384x512 [1] [0] [] [0] [] 1 ![1, 512]
  gather_S256x128_S16384x1_S16384x128_1_0_n_n_0_1_1128_wf : GatherDims.WF S256x128 S16384x1 S16384x128 [1] [0] [] [0] [] 1 ![1, 128]
  gather_S65536x512_S15x16384x1_S15x16384x512_2_0_n_n_0_2_1512_wf : GatherDims.WF S65536x512 S15x16384x1 S15x16384x512 [2] [0] [] [0] [] 2 ![1, 512]
  dot_S256x512_S512x512_S256x512_1_0_0_1_n_n_wf : DotDims.WF S256x512 S512x512 S256x512 [1] [0] [0] [1] [] []
  dot_S256x128_S128x512_S256x512_1_0_0_1_n_n_wf : DotDims.WF S256x128 S128x512 S256x512 [1] [0] [0] [1] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .bf16 = 32 ∨ (Rect.block (s := S16384x512) S256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S15x256x512.size a ≤ S15x16384x512.size a
  hwx0_1 : ∀ i : grid0.Coords, EltTy.bits .bf16 = 32 ∨ (Rect.block (s := S15x16384x512) S15x256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S15x256x512.size a ≤ S15x16384x512.size a
  hwx0_2 : ∀ i : grid0.Coords, EltTy.bits .bf16 = 32 ∨ (Rect.block (s := S15x16384x512) S15x256x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S16384x128.size a
  hwx0_3 : ∀ i : grid0.Coords, EltTy.bits .bf16 = 32 ∨ (Rect.block (s := S16384x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .bf16 = 32 ∨ (Rect.block (s := S512x512) S512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .bf16 = 32 ∨ (Rect.block (s := S512x512) S512x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x512.size a ≤ S128x512.size a
  hwx0_14 : ∀ i : grid0.Coords, EltTy.bits .bf16 = 32 ∨ (Rect.block (s := S128x512) S128x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x512.size a ≤ S1x512.size a
  hwx0_15 : ∀ i : grid0.Coords, EltTy.bits .f32 = 32 ∨ (Rect.block (s := S1x512) S1x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x1024.size a ≤ S512x1024.size a
  hwx0_16 : ∀ i : grid0.Coords, EltTy.bits .bf16 = 32 ∨ (Rect.block (s := S512x1024) S512x1024.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1024.size a ≤ S1x1024.size a
  hwx0_17 : ∀ i : grid0.Coords, EltTy.bits .f32 = 32 ∨ (Rect.block (s := S1x1024) S1x1024.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x512.size a ≤ S512x512.size a
  hwx0_18 : ∀ i : grid0.Coords, EltTy.bits .bf16 = 32 ∨ (Rect.block (s := S512x512) S512x512.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S512x512.size a
  hwx0_19 : ∀ i : grid0.Coords, EltTy.bits .bf16 = 32 ∨ (Rect.block (s := S512x512) S512x512.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x512.size a ≤ S1x512.size a
  hwx0_20 : ∀ i : grid0.Coords, EltTy.bits .f32 = 32 ∨ (Rect.block (s := S1x512) S1x512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512x512.size a ≤ S512x512.size a
  hwx0_21 : ∀ i : grid0.Coords, EltTy.bits .bf16 = 32 ∨ (Rect.block (s := S512x512) S512x512.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128x512.size a ≤ S128x512.size a
  hwx0_22 : ∀ i : grid0.Coords, EltTy.bits .bf16 = 32 ∨ (Rect.block (s := S128x512) S128x512.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x512.size a ≤ S1x512.size a
  hwx0_23 : ∀ i : grid0.Coords, EltTy.bits .f32 = 32 ∨ (Rect.block (s := S1x512) S1x512.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x512.size a ≤ S1x512.size a
  hwx0_24 : ∀ i : grid0.Coords, EltTy.bits .f32 = 32 ∨ (Rect.block (s := S1x512) S1x512.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x1.size a ≤ S1x1.size a
  hwx0_25 : ∀ i : grid0.Coords, EltTy.bits .f32 = 32 ∨ (Rect.block (s := S1x1) S1x1.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S256x1025.size a ≤ S16384x1025.size a
  hwx0_26 : ∀ i : grid0.Coords, EltTy.bits .f32 = 32 ∨ (Rect.block (s := S16384x1025) S256x1025.size (cc0_transform_26 i) (hinb0_26 i)).WholeWords (EltTy.packing .f32)

variable [Facts₀]

def gather_S1024x512_S16384x1_S16384x512_1_0_n_n_0_1_1512 : GatherDims S1024x512 S16384x1 S16384x512 where
  offsetDims := [1]
  collapsedSliceDims := [0]
  operandBatchingDims := []
  startIndicesBatchingDims := []
  startIndexMap := [0]
  indexVectorDim := 1
  sliceSizes := ![1, 512]
  wf := gather_S1024x512_S16384x1_S16384x512_1_0_n_n_0_1_1512_wf
def gather_S256x128_S16384x1_S16384x128_1_0_n_n_0_1_1128 : GatherDims S256x128 S16384x1 S16384x128 where
  offsetDims := [1]
  collapsedSliceDims := [0]
  operandBatchingDims := []
  startIndicesBatchingDims := []
  startIndexMap := [0]
  indexVectorDim := 1
  sliceSizes := ![1, 128]
  wf := gather_S256x128_S16384x1_S16384x128_1_0_n_n_0_1_1128_wf
def gather_S65536x512_S15x16384x1_S15x16384x512_2_0_n_n_0_2_1512 : GatherDims S65536x512 S15x16384x1 S15x16384x512 where
  offsetDims := [2]
  collapsedSliceDims := [0]
  operandBatchingDims := []
  startIndicesBatchingDims := []
  startIndexMap := [0]
  indexVectorDim := 2
  sliceSizes := ![1, 512]
  wf := gather_S65536x512_S15x16384x1_S15x16384x512_2_0_n_n_0_2_1512_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_v7) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S15x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S15x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v80) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v51) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v81) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v53) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v56) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v59) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v82) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v62) S512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v65) S128x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v83) S1x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v67) S512x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v84) S1x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v70) S512x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v73) S512x512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v85) S1x512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v76) S512x512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v79) S128x512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v86) S1x512.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S1x512.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v87) S1x1.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v88) S256x1025.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S16384 : Shape := ⟨1, ![16384]⟩
abbrev S16384x15 : Shape := ⟨2, ![16384, 15]⟩
abbrev S65536x512 : Shape := ⟨2, ![65536, 512]⟩
abbrev S256x128 : Shape := ⟨2, ![256, 128]⟩
abbrev S1024x512 : Shape := ⟨2, ![1024, 512]⟩
abbrev S512x1024 : Shape := ⟨2, ![512, 1024]⟩
abbrev S512 : Shape := ⟨1, ![512]⟩
abbrev S512x512 : Shape := ⟨2, ![512, 512]⟩
abbrev S512x640 : Shape := ⟨2, ![512, 640]⟩
abbrev S1024 : Shape := ⟨1, ![1024]⟩
abbrev S1x512 : Shape := ⟨2, ![1, 512]⟩
abbrev S1 : Shape := ⟨1, ![1]⟩
abbrev S_ : Shape := ⟨0, ![]⟩
abbrev S16384x1 : Shape := ⟨2, ![16384, 1]⟩
abbrev S16384x512 : Shape := ⟨2, ![16384, 512]⟩
abbrev S16384x15x1 : Shape := ⟨3, ![16384, 15, 1]⟩
abbrev S16384x15x512 : Shape := ⟨3, ![16384, 15, 512]⟩
abbrev S16384x1024 : Shape := ⟨2, ![16384, 1024]⟩
abbrev S16384x1x512 : Shape := ⟨3, ![16384, 1, 512]⟩
abbrev S16384x128 : Shape := ⟨2, ![16384, 128]⟩
abbrev S16384x640 : Shape := ⟨2, ![16384, 640]⟩
abbrev S640x512 : Shape := ⟨2, ![640, 512]⟩
abbrev S1x1024 : Shape := ⟨2, ![1, 1024]⟩
abbrev S512x1 : Shape := ⟨2, ![512, 1]⟩
abbrev S1x1 : Shape := ⟨2, ![1, 1]⟩
abbrev S16384x1025 : Shape := ⟨2, ![16384, 1025]⟩

abbrev nBuf : Space → Nat
  | .hbm => 159
  | .vmem => 0
  | .smem => 0
  | _ => 0

abbrev hbmTy0_0 (i : Nat) : BufTy := match i % 128 with
  | 0 => ⟨S16384, .i32⟩
  | 1 => ⟨S16384, .i32⟩
  | 2 => ⟨S16384x15, .i32⟩
  | 3 => ⟨S16384x15, .i32⟩
  | 4 => ⟨S16384x15, .i32⟩
  | 5 => ⟨S16384x15, .i32⟩
  | 6 => ⟨S65536x512, .f32⟩
  | 7 => ⟨S256x128, .f32⟩
  | 8 => ⟨S1024x512, .f32⟩
  | 9 => ⟨S512x1024, .f32⟩
  | 10 => ⟨S512, .f32⟩
  | 11 => ⟨S512x512, .f32⟩
  | 12 => ⟨S512, .f32⟩
  | 13 => ⟨S512x512, .f32⟩
  | 14 => ⟨S512x1024, .f32⟩
  | 15 => ⟨S512, .f32⟩
  | 16 => ⟨S512x640, .f32⟩
  | 17 => ⟨S512, .f32⟩
  | 18 => ⟨S1024x512, .f32⟩
  | 19 => ⟨S1024, .f32⟩
  | 20 => ⟨S512x1024, .f32⟩
  | 21 => ⟨S512, .f32⟩
  | 22 => ⟨S512x640, .f32⟩
  | 23 => ⟨S512, .f32⟩
  | 24 => ⟨S1x512, .f32⟩
  | 25 => ⟨S1, .f32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S16384x1, .i32⟩
  | 34 => ⟨S16384x512, .f32⟩
  | 35 => ⟨S_, .i32⟩
  | 36 => ⟨S16384x15, .i32⟩
  | 37 => ⟨S16384x15, .i1⟩
  | 38 => ⟨S_, .i32⟩
  | 39 => ⟨S16384x15, .i32⟩
  | 40 => ⟨S16384x15, .i32⟩
  | 41 => ⟨S16384x15, .i32⟩
  | 42 => ⟨S16384x15x1, .i32⟩
  | 43 => ⟨S16384x15x512, .f32⟩
  | 44 => ⟨S16384x15x1, .i32⟩
  | 45 => ⟨S16384x15x1, .f32⟩
  | 46 => ⟨S16384x15x512, .f32⟩
  | 47 => ⟨S16384x15x512, .f32⟩
  | 48 => ⟨S_, .i32⟩
  | 49 => ⟨S16384x15, .i32⟩
  | 50 => ⟨S16384x15, .i1⟩
  | 51 => ⟨S_, .i32⟩
  | 52 => ⟨S16384x15, .i32⟩
  | 53 => ⟨S16384x15, .i32⟩
  | 54 => ⟨S16384x15, .i32⟩
  | 55 => ⟨S16384x15x1, .i32⟩
  | 56 => ⟨S16384x15x512, .f32⟩
  | 57 => ⟨S16384x15x1, .i32⟩
  | 58 => ⟨S16384x15x1, .f32⟩
  | 59 => ⟨S16384x15x512, .f32⟩
  | 60 => ⟨S16384x15x512, .f32⟩
  | 61 => ⟨S_, .f32⟩
  | 62 => ⟨S16384x512, .f32⟩
  | 63 => ⟨S16384x1024, .f32⟩
  | 64 => ⟨S1024x512, .f32⟩
  | 65 => ⟨S16384x512, .f32⟩
  | 66 => ⟨S1x512, .f32⟩
  | 67 => ⟨S16384x512, .f32⟩
  | 68 => ⟨S16384x512, .f32⟩
  | 69 => ⟨S16384x512, .f32⟩
  | 70 => ⟨S16384x512, .f32⟩
  | 71 => ⟨S_, .f32⟩
  | 72 => ⟨S16384x512, .f32⟩
  | 73 => ⟨S16384x512, .f32⟩
  | 74 => ⟨S_, .f32⟩
  | 75 => ⟨S16384x512, .f32⟩
  | 76 => ⟨S16384x512, .f32⟩
  | 77 => ⟨S512x512, .f32⟩
  | 78 => ⟨S16384x512, .f32⟩
  | 79 => ⟨S1x512, .f32⟩
  | 80 => ⟨S16384x512, .f32⟩
  | 81 => ⟨S16384x512, .f32⟩
  | 82 => ⟨S16384x1x512, .f32⟩
  | 83 => ⟨S16384x15x512, .f32⟩
  | 84 => ⟨S16384x15x512, .f32⟩
  | 85 => ⟨S16384x15x512, .f32⟩
  | 86 => ⟨S16384x15x512, .f32⟩
  | 87 => ⟨S16384x15x512, .f32⟩
  | 88 => ⟨S_, .f32⟩
  | 89 => ⟨S16384x15x512, .f32⟩
  | 90 => ⟨S16384x15x512, .f32⟩
  | 91 => ⟨S_, .f32⟩
  | 92 => ⟨S16384x15x512, .f32⟩
  | 93 => ⟨S16384x15x512, .f32⟩
  | 94 => ⟨S16384x15x512, .f32⟩
  | 95 => ⟨S_, .f32⟩
  | 96 => ⟨S16384x512, .f32⟩
  | 97 => ⟨S16384x1024, .f32⟩
  | 98 => ⟨S1024x512, .f32⟩
  | 99 => ⟨S16384x512, .f32⟩
  | 100 => ⟨S1x512, .f32⟩
  | 101 => ⟨S16384x512, .f32⟩
  | 102 => ⟨S16384x512, .f32⟩
  | 103 => ⟨S16384x512, .f32⟩
  | 104 => ⟨S_, .f32⟩
  | 105 => ⟨S16384x512, .f32⟩
  | 106 => ⟨S16384x512, .f32⟩
  | 107 => ⟨S16384x512, .f32⟩
  | 108 => ⟨S16384x512, .f32⟩
  | 109 => ⟨S16384x512, .f32⟩
  | 110 => ⟨S_, .f32⟩
  | 111 => ⟨S16384x512, .f32⟩
  | 112 => ⟨S_, .i32⟩
  | 113 => ⟨S16384, .i32⟩
  | 114 => ⟨S16384, .i1⟩
  | 115 => ⟨S_, .i32⟩
  | 116 => ⟨S16384, .i32⟩
  | 117 => ⟨S16384, .i32⟩
  | 118 => ⟨S16384, .i32⟩
  | 119 => ⟨S16384x1, .i32⟩
  | 120 => ⟨S16384x128, .f32⟩
  | 121 => ⟨S16384x640, .f32⟩
  | 122 => ⟨S640x512, .f32⟩
  | 123 => ⟨S16384x512, .f32⟩
  | 124 => ⟨S1x512, .f32⟩
  | 125 => ⟨S16384x512, .f32⟩
  | 126 => ⟨S16384x512, .f32⟩
  | 127 => ⟨S_, .f32⟩
  | _ => ⟨S16384, .i32⟩

abbrev hbmTy0_1 (i : Nat) : BufTy := match i % 128 with
  | 0 => ⟨S16384x512, .f32⟩
  | 1 => ⟨S16384x512, .f32⟩
  | 2 => ⟨S512x1024, .f32⟩
  | 3 => ⟨S16384x1024, .f32⟩
  | 4 => ⟨S1x1024, .f32⟩
  | 5 => ⟨S16384x1024, .f32⟩
  | 6 => ⟨S16384x1024, .f32⟩
  | 7 => ⟨S16384x1024, .f32⟩
  | 8 => ⟨S1024x512, .f32⟩
  | 9 => ⟨S16384x512, .f32⟩
  | 10 => ⟨S1x512, .f32⟩
  | 11 => ⟨S16384x512, .f32⟩
  | 12 => ⟨S16384x512, .f32⟩
  | 13 => ⟨S_, .f32⟩
  | 14 => ⟨S16384x512, .f32⟩
  | 15 => ⟨S16384x512, .f32⟩
  | 16 => ⟨S16384x640, .f32⟩
  | 17 => ⟨S640x512, .f32⟩
  | 18 => ⟨S16384x512, .f32⟩
  | 19 => ⟨S1x512, .f32⟩
  | 20 => ⟨S16384x512, .f32⟩
  | 21 => ⟨S16384x512, .f32⟩
  | 22 => ⟨S_, .f32⟩
  | 23 => ⟨S16384x512, .f32⟩
  | 24 => ⟨S16384x512, .f32⟩
  | 25 => ⟨S512x1, .f32⟩
  | 26 => ⟨S16384x1, .f32⟩
  | 27 => ⟨S1x1, .f32⟩
  | 28 => ⟨S16384x1, .f32⟩
  | 29 => ⟨S16384x1, .f32⟩
  | 30 => ⟨S16384x1025, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_1 : Ref sig .tc := ⟨.hbm, 35, rfl⟩
abbrev main_v7 : Ref sig .tc := ⟨.hbm, 36, rfl⟩
abbrev main_v8 : Ref sig .tc := ⟨.hbm, 37, rfl⟩
abbrev main_c_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_5 : Ref sig .tc := ⟨.hbm, 71, rfl⟩
abbrev main_v38 : Ref sig .tc := ⟨.hbm, 72, rfl⟩
abbrev main_v39 : Ref sig .tc := ⟨.hbm, 73, rfl⟩
abbrev main_cst_6 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_7 : Ref sig .tc := ⟨.hbm, 88, rfl⟩
abbrev main_v53 : Ref sig .tc := ⟨.hbm, 89, rfl⟩
abbrev main_v54 : Ref sig .tc := ⟨.hbm, 90, rfl⟩
abbrev main_cst_8 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_9 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_10 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_11 : Ref sig .tc := ⟨.hbm, 110, rfl⟩
abbrev main_v71 : Ref sig .tc := ⟨.hbm, 111, rfl⟩
abbrev main_c_12 : Ref sig .tc := ⟨.hbm, 112, rfl⟩
abbrev main_v72 : Ref sig .tc := ⟨.hbm, 113, rfl⟩
abbrev main_v73 : Ref sig .tc := ⟨.hbm, 114, rfl⟩
abbrev main_c_13 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_call0_cst : Ref sig .tc := ⟨.hbm, 127, rfl⟩
abbrev main_call0_v0 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_call1_cst : Ref sig .tc := ⟨.hbm, 141, rfl⟩
abbrev main_call1_v0 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_call2_cst : Ref sig .tc := ⟨.hbm, 150, rfl⟩
abbrev main_call2_v0 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x15 : S_.BroadcastsInDim S16384x15 (![] : Fin 0 → Fin S16384x15.rank)
  bcast_S16384x15_S16384x15x1_0_1 : S16384x15.BroadcastsInDim S16384x15x1 (![0, 1] : Fin 2 → Fin S16384x15x1.rank)
  bcast_S16384x15x1_S16384x15x512_0_1_2 : S16384x15x1.BroadcastsInDim S16384x15x512 (![0, 1, 2] : Fin 3 → Fin S16384x15x512.rank)
  reducesTo_S16384x15x512_S16384x512_d1 : S16384x15x512.ReducesTo [1] S16384x512
  h_S_ : 0 < S_.numel
  concatenates_S16384x512_S16384x512_S16384x1024_d1 : Shape.Concatenates [S16384x512, S16384x512] S16384x1024 1
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S512x512_S512x512_1_0 : S512x512.Transposes [1, 0] S512x512
  bcast_S16384x512_S16384x1x512_0_2 : S16384x512.BroadcastsInDim S16384x1x512 (![0, 2] : Fin 2 → Fin S16384x1x512.rank)
  bcast_S16384x1x512_S16384x15x512_0_1_2 : S16384x1x512.BroadcastsInDim S16384x15x512 (![0, 1, 2] : Fin 3 → Fin S16384x15x512.rank)
  bcast_S_S16384x15x512 : S_.BroadcastsInDim S16384x15x512 (![] : Fin 0 → Fin S16384x15x512.rank)
  concatenates_S16384x512_S16384x128_S16384x640_d1 : Shape.Concatenates [S16384x512, S16384x128] S16384x640 1
  transposes_S512x640_S640x512_1_0 : S512x640.Transposes [1, 0] S640x512
  transposes_S1024x512_S512x1024_1_0 : S1024x512.Transposes [1, 0] S512x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  transposes_S1x512_S512x1_1_0 : S1x512.Transposes [1, 0] S512x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  concatenates_S16384x1024_S16384x1_S16384x1025_d1 : Shape.Concatenates [S16384x1024, S16384x1] S16384x1025 1
  gather_S1024x512_S16384x1_S16384x512_1_0_n_n_0_1_1512_wf : GatherDims.WF S1024x512 S16384x1 S16384x512 [1] [0] [] [0] [] 1 ![1, 512]
  gather_S65536x512_S16384x15x1_S16384x15x512_2_0_n_n_0_2_1512_wf : GatherDims.WF S65536x512 S16384x15x1 S16384x15x512 [2] [0] [] [0] [] 2 ![1, 512]
  dot_S16384x1024_S1024x512_S16384x512_1_0_0_1_n_n_wf : DotDims.WF S16384x1024 S1024x512 S16384x512 [1] [0] [0] [1] [] []
  dot_S16384x512_S512x512_S16384x512_1_0_0_1_n_n_wf : DotDims.WF S16384x512 S512x512 S16384x512 [1] [0] [0] [1] [] []
  dot_S16384x15x512_S512x512_S16384x15x512_2_1_01_0_n_n_wf : DotDims.WF S16384x15x512 S512x512 S16384x15x512 [2] [1] [0, 1] [0] [] []
  gather_S256x128_S16384x1_S16384x128_1_0_n_n_0_1_1128_wf : GatherDims.WF S256x128 S16384x1 S16384x128 [1] [0] [] [0] [] 1 ![1, 128]
  dot_S16384x640_S640x512_S16384x512_1_0_0_1_n_n_wf : DotDims.WF S16384x640 S640x512 S16384x512 [1] [0] [0] [1] [] []
  dot_S16384x512_S512x1024_S16384x1024_1_0_0_1_n_n_wf : DotDims.WF S16384x512 S512x1024 S16384x1024 [1] [0] [0] [1] [] []
  dot_S16384x512_S512x1_S16384x1_1_0_0_1_n_n_wf : DotDims.WF S16384x512 S512x1 S16384x1 [1] [0] [0] [1] [] []

variable [Facts₀]

def gather_S1024x512_S16384x1_S16384x512_1_0_n_n_0_1_1512 : GatherDims S1024x512 S16384x1 S16384x512 where
  offsetDims := [1]
  collapsedSliceDims := [0]
  operandBatchingDims := []
  startIndicesBatchingDims := []
  startIndexMap := [0]
  indexVectorDim := 1
  sliceSizes := ![1, 512]
  wf := gather_S1024x512_S16384x1_S16384x512_1_0_n_n_0_1_1512_wf
def gather_S65536x512_S16384x15x1_S16384x15x512_2_0_n_n_0_2_1512 : GatherDims S65536x512 S16384x15x1 S16384x15x512 where
  offsetDims := [2]
  collapsedSliceDims := [0]
  operandBatchingDims := []
  startIndicesBatchingDims := []
  startIndexMap := [0]
  indexVectorDim := 2
  sliceSizes := ![1, 512]
  wf := gather_S65536x512_S16384x15x1_S16384x15x512_2_0_n_n_0_2_1512_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x15x512_S512x512_S16384x15x512_2_1_01_0_n_n : DotDims S16384x15x512 S512x512 S16384x15x512 where
  lhsContracting := [2]
  rhsContracting := [1]
  lhsNonContracting := [0, 1]
  rhsNonContracting := [0]
  lhsBatch := []
  rhsBatch := []
  wf := dot_S16384x15x512_S512x512_S16384x15x512_2_1_01_0_n_n_wf
def gather_S256x128_S16384x1_S16384x128_1_0_n_n_0_1_1128 : GatherDims S256x128 S16384x1 S16384x128 where
  offsetDims := [1]
  collapsedSliceDims := [0]
  operandBatchingDims := []
  startIndicesBatchingDims := []
  startIndexMap := [0]
  indexVectorDim := 1
  sliceSizes := ![1, 128]
  wf := gather_S256x128_S16384x1_S16384x128_1_0_n_n_0_1_1128_wf
def dot_S16384x640_S640x512_S16384x512_1_0_0_1_n_n : DotDims S16384x640 S640x512 S16384x512 where
  lhsContracting := [1]
  rhsContracting := [0]
  lhsNonContracting := [0]
  rhsNonContracting := [1]
  lhsBatch := []
  rhsBatch := []
  wf := dot_S16384x640_S640x512_S16384x512_1_0_0_1_n_n_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf

class Facts : Prop extends Facts₀ where

variable [Facts]
-- ==== Proof.Spec.lean ====
/-
  One row of the tree-GRU message update with its word and stop heads, as a function on the extended reals of the
  row's inputs (the node's embedding, its context vector, its fifteen masked neighbour messages and its fifteen
  masked child messages) and of the weights; and the whole result array as that row function applied row by row to
  rows gathered from the argument arrays.
-/
import Idealize.ShloMosaic.PureOps.Ideal
import Idealize.ShloMosaic.Lib.ValueIdx

noncomputable section

open scoped BigOperators

namespace Cert.TreeGru

open Idealize.ShloMosaic Idealize.ShloMosaic.ValueIdx

/-- The weights as the products read them: a matrix entry `M h g` multiplies input coordinate `h` into output
    coordinate `g`. `zx zh zb`: the update gate on the embedding, on the summed messages, its bias. `rx rb ru`:
    the reset gate on the embedding, its bias, on one message. `hx hh hb`: the candidate on the embedding, on the
    gated sum, its bias. `wh wl wb`, `ow ob`: the word head's hidden layer on the new message and on the
    context, and its output layer. `ix io ib`: the stop head's input layer on the embedding and on the summed child
    messages. `uh ul ub`, `so sb`: the stop head's hidden layer and its one output. -/
structure Weights where
  zx : Fin 512 → Fin 512 → EReal
  zh : Fin 512 → Fin 512 → EReal
  zb : Fin 512 → EReal
  rx : Fin 512 → Fin 512 → EReal
  rb : Fin 512 → EReal
  ru : Fin 512 → Fin 512 → EReal
  hx : Fin 512 → Fin 512 → EReal
  hh : Fin 512 → Fin 512 → EReal
  hb : Fin 512 → EReal
  wh : Fin 512 → Fin 512 → EReal
  wl : Fin 128 → Fin 512 → EReal
  wb : Fin 512 → EReal
  ow : Fin 512 → Fin 1024 → EReal
  ob : Fin 1024 → EReal
  ix : Fin 512 → Fin 512 → EReal
  io : Fin 512 → Fin 512 → EReal
  ib : Fin 512 → EReal
  uh : Fin 512 → Fin 512 → EReal
  ul : Fin 128 → Fin 512 → EReal
  ub : Fin 512 → EReal
  so : Fin 512 → EReal
  sb : EReal

/-- A row times a matrix: coordinate `g` of `v · M`. -/
def vecMat {n m : Nat} (v : Fin n → EReal) (M : Fin n → Fin m → EReal) (g : Fin m) : EReal := ∑ h, v h * M h g

/-- The f32 patterns of 1.0 and of +0.0, as both programs spell them. -/
def one : EReal := Ideal.ofBits .f32 0x3F800000#32
def zero : EReal := Ideal.ofBits .f32 0x00000000#32

/-- The sum of fifteen rows, coordinate by coordinate. -/
def sumRows (r : Fin 15 → Fin 512 → EReal) (h : Fin 512) : EReal := ∑ k, r k h

section row

variable (P : Weights) (x : Fin 512 → EReal) (cx : Fin 128 → EReal) (hn on : Fin 15 → Fin 512 → EReal)

/-- The part of the reset gate's argument that depends on the embedding only. -/
def resetX (g : Fin 512) : EReal := vecMat x P.rx g + P.rb g

/-- The reset gate of neighbour `k`. -/
def gate (k : Fin 15) (g : Fin 512) : EReal := Ideal.logistic (resetX P x g + vecMat (hn k) P.ru g)

/-- The sum of the gated neighbour messages. -/
def sumGated (g : Fin 512) : EReal := ∑ k, gate P x hn k g * hn k g

/-- The update gate. -/
def update (g : Fin 512) : EReal :=
  Ideal.logistic ((vecMat x P.zx g + vecMat (sumRows hn) P.zh g) + P.zb g)

/-- The candidate message. -/
def cand (g : Fin 512) : EReal :=
  Ideal.tanh ((vecMat x P.hx g + vecMat (sumGated P x hn) P.hh g) + P.hb g)

/-- The new message: the update gate mixes the summed messages and the candidate. -/
def newH (g : Fin 512) : EReal := (one - update P x hn g) * sumRows hn g + update P x hn g * cand P x hn g

/-- The word head's hidden layer. -/
def wordHid (g : Fin 512) : EReal := max ((vecMat (newH P x hn) P.wh g + vecMat cx P.wl g) + P.wb g) zero

/-- The word scores. -/
def word (v : Fin 1024) : EReal := vecMat (wordHid P x cx hn) P.ow v + P.ob v

/-- The stop head's input layer, on the embedding and the summed child messages. -/
def stopIn (g : Fin 512) : EReal := max ((vecMat x P.ix g + vecMat (sumRows on) P.io g) + P.ib g) zero

/-- The stop head's hidden layer. -/
def stopHid (g : Fin 512) : EReal := max ((vecMat (stopIn P x on) P.uh g + vecMat cx P.ul g) + P.ub g) zero

/-- The stop score. -/
def stop : EReal := (∑ g, stopHid P x cx on g * P.so g) + P.sb

/-- The row of the result: 1024 word scores, then the stop score. -/
def rowOut (j : Fin 1025) : EReal := if h : j.val < 1024 then word P x cx hn ⟨j.val, h⟩ else stop P x cx on

end row

/-! ## The rows and the weights out of the argument arrays -/

/-- A row number as jnp's indexing reads it: a negative one counts from the end, and the gather clamps the result
    into the table. -/
def rowOf (N : Nat) (hN : 0 < N) (v : BitVec 32) : Fin N :=
  ⟨min (Scalar.select (IntOp.cmpi .slt v 0#32) (IntOp.addi v (BitVec.ofNat 32 N)) v).toInt.toNat (N - 1), by omega⟩

abbrev I1 : Shape := ⟨1, ![16384]⟩
abbrev I2 : Shape := ⟨2, ![16384, 15]⟩

/-- The row of table `a` (of width `C`) that entry `n` of the row numbers `ids` names. -/
def takeRow {N C : Nat} (hN : 0 < N) (ids : IVec I1 32) (a : (⟨2, ![N, C]⟩ : Shape).Idx → EReal) (n : Fin 16384) (h : Fin C) : EReal :=
  a (ix2 (rowOf N hN (ids (ix1 n))) h)

/-- The fifteen masked messages of node `n`: message `k` is the row of `a` that `ids (n, k)` names, times the
    mask entry `(n, k)` read as a number. -/
def maskedRows (ids mask : IVec I2 32) (a : (⟨2, ![65536, 512]⟩ : Shape).Idx → EReal) (n : Fin 16384) (k : Fin 15) (h : Fin 512) : EReal :=
  a (ix2 (rowOf 65536 (by decide) (ids (ix2 n k))) h) * (((mask (ix2 n k)).toInt : ℝ) : EReal)

/-- The weights out of the argument arrays: each linear layer's matrix is stored output-major, and a layer on a
    concatenation `[u, v]` stores `u`'s columns first. -/
def weightsOf
    (a9 : (⟨2, ![512, 1024]⟩ : Shape).Idx → EReal) (a10 : (⟨1, ![512]⟩ : Shape).Idx → EReal)
    (a11 : (⟨2, ![512, 512]⟩ : Shape).Idx → EReal) (a12 : (⟨1, ![512]⟩ : Shape).Idx → EReal)
    (a13 : (⟨2, ![512, 512]⟩ : Shape).Idx → EReal)
    (a14 : (⟨2, ![512, 1024]⟩ : Shape).Idx → EReal) (a15 : (⟨1, ![512]⟩ : Shape).Idx → EReal)
    (a16 : (⟨2, ![512, 640]⟩ : Shape).Idx → EReal) (a17 : (⟨1, ![512]⟩ : Shape).Idx → EReal)
    (a18 : (⟨2, ![1024, 512]⟩ : Shape).Idx → EReal) (a19 : (⟨1, ![1024]⟩ : Shape).Idx → EReal)
    (a20 : (⟨2, ![512, 1024]⟩ : Shape).Idx → EReal) (a21 : (⟨1, ![512]⟩ : Shape).Idx → EReal)
    (a22 : (⟨2, ![512, 640]⟩ : Shape).Idx → EReal) (a23 : (⟨1, ![512]⟩ : Shape).Idx → EReal)
    (a24 : (⟨2, ![1, 512]⟩ : Shape).Idx → EReal) (a25 : (⟨1, ![1]⟩ : Shape).Idx → EReal) : Weights where
  zx h g := a9 (ix2 g (⟨h.val, by omega⟩ : Fin 1024))
  zh h g := a9 (ix2 g (⟨512 + h.val, by omega⟩ : Fin 1024))
  zb g := a10 (ix1 g)
  rx h g := a11 (ix2 g h)
  rb g := a12 (ix1 g)
  ru h g := a13 (ix2 g h)
  hx h g := a14 (ix2 g (⟨h.val, by omega⟩ : Fin 1024))
  hh h g := a14 (ix2 g (⟨512 + h.val, by omega⟩ : Fin 1024))
  hb g := a15 (ix1 g)
  wh h g := a16 (ix2 g (⟨h.val, by omega⟩ : Fin 640))
  wl l g := a16 (ix2 g (⟨512 + l.val, by omega⟩ : Fin 640))
  wb g := a17 (ix1 g)
  ow g v := a18 (ix2 v g)
  ob v := a19 (ix1 v)
  ix h g := a20 (ix2 g (⟨h.val, by omega⟩ : Fin 1024))
  io h g := a20 (ix2 g (⟨512 + h.val, by omega⟩ : Fin 1024))
  ib g := a21 (ix1 g)
  uh h g := a22 (ix2 g (⟨h.val, by omega⟩ : Fin 640))
  ul l g := a22 (ix2 g (⟨512 + l.val, by omega⟩ : Fin 640))
  ub g := a23 (ix1 g)
  so g := a24 (ix2 (0 : Fin 1) g)
  sb := a25 (ix1 (0 : Fin 1))

/-- The whole result: row `n` is the row function of node `n`'s gathered inputs. -/
def result (a0 a1 : IVec I1 32) (a2 a3 a4 a5 : IVec I2 32)
    (a6 : (⟨2, ![65536, 512]⟩ : Shape).Idx → EReal) (a7 : (⟨2, ![256, 128]⟩ : Shape).Idx → EReal)
    (a8 : (⟨2, ![1024, 512]⟩ : Shape).Idx → EReal)
    (a9 : (⟨2, ![512, 1024]⟩ : Shape).Idx → EReal) (a10 : (⟨1, ![512]⟩ : Shape).Idx → EReal)
    (a11 : (⟨2, ![512, 512]⟩ : Shape).Idx → EReal) (a12 : (⟨1, ![512]⟩ : Shape).Idx → EReal)
    (a13 : (⟨2, ![512, 512]⟩ : Shape).Idx → EReal)
    (a14 : (⟨2, ![512, 1024]⟩ : Shape).Idx → EReal) (a15 : (⟨1, ![512]⟩ : Shape).Idx → EReal)
    (a16 : (⟨2, ![512, 640]⟩ : Shape).Idx → EReal) (a17 : (⟨1, ![512]⟩ : Shape).Idx → EReal)
    (a18 : (⟨2, ![1024, 512]⟩ : Shape).Idx → EReal) (a19 : (⟨1, ![1024]⟩ : Shape).Idx → EReal)
    (a20 : (⟨2, ![512, 1024]⟩ : Shape).Idx → EReal) (a21 : (⟨1, ![512]⟩ : Shape).Idx → EReal)
    (a22 : (⟨2, ![512, 640]⟩ : Shape).Idx → EReal) (a23 : (⟨1, ![512]⟩ : Shape).Idx → EReal)
    (a24 : (⟨2, ![1, 512]⟩ : Shape).Idx → EReal) (a25 : (⟨1, ![1]⟩ : Shape).Idx → EReal)
    (n : Fin 16384) (j : Fin 1025) : EReal :=
  rowOut (weightsOf a9 a10 a11 a12 a13 a14 a15 a16 a17 a18 a19 a20 a21 a22 a23 a24 a25)
    (takeRow (by decide) a0 a8 n) (takeRow (by decide) a1 a7 n) (maskedRows a2 a3 a6 n) (maskedRows a4 a5 a6 n) j

end Cert.TreeGru

end
-- ==== Proof.KBlock.lean ====
/-
  The weights as one grid point's loaded blocks hold them: the kernel's weight windows are already input-major
  (the host transposed and split them), so a block entry (h, g) is the weight from input coordinate h to output
  coordinate g, and a bias is a one-row block.
-/
import proofs.«136730_j35158602285573_1_alg».proof.Proof.Gen.KernelIdeal.Skeleton
import proofs.«136730_j35158602285573_1_alg».proof.Proof.Spec

noncomputable section

namespace Cert.TreeGru

open Cert.KernelIdeal Idealize.ShloMosaic Idealize.ShloMosaic.ValueIdx

/-- The specification's weights out of the twenty-two weight blocks of a grid point. -/
def blockWeights (x4 x5 : Vec Ideal S512x512 .bf16) (x6 : Vec Ideal S1x512 .f32) (x7 : Vec Ideal S512x512 .bf16) (x8 : Vec Ideal S1x512 .f32)
    (x9 x10 x11 : Vec Ideal S512x512 .bf16) (x12 : Vec Ideal S1x512 .f32) (x13 : Vec Ideal S512x512 .bf16)
    (x14 : Vec Ideal S128x512 .bf16) (x15 : Vec Ideal S1x512 .f32) (x16 : Vec Ideal S512x1024 .bf16) (x17 : Vec Ideal S1x1024 .f32)
    (x18 x19 : Vec Ideal S512x512 .bf16) (x20 : Vec Ideal S1x512 .f32) (x21 : Vec Ideal S512x512 .bf16)
    (x22 : Vec Ideal S128x512 .bf16) (x23 x24 : Vec Ideal S1x512 .f32) (x25 : Vec Ideal S1x1 .f32) : Weights where
  zx h g := x4 (ix2 h g)
  zh h g := x5 (ix2 h g)
  zb g := x6 (ix2 (0 : Fin 1) g)
  rx h g := x7 (ix2 h g)
  rb g := x8 (ix2 (0 : Fin 1) g)
  ru h g := x9 (ix2 h g)
  hx h g := x10 (ix2 h g)
  hh h g := x11 (ix2 h g)
  hb g := x12 (ix2 (0 : Fin 1) g)
  wh h g := x13 (ix2 h g)
  wl l g := x14 (ix2 l g)
  wb g := x15 (ix2 (0 : Fin 1) g)
  ow g v := x16 (ix2 g v)
  ob v := x17 (ix2 (0 : Fin 1) v)
  ix h g := x18 (ix2 h g)
  io h g := x19 (ix2 h g)
  ib g := x20 (ix2 (0 : Fin 1) g)
  uh h g := x21 (ix2 h g)
  ul l g := x22 (ix2 l g)
  ub g := x23 (ix2 (0 : Fin 1) g)
  so g := x24 (ix2 (0 : Fin 1) g)
  sb := x25 (ix2 (0 : Fin 1) (0 : Fin 1))

/-- Row `p` of fifteen [1, 256, 512] slabs, as fifteen rows. -/
def slabRows (s : Fin 15 → Vec Ideal S1x256x512 .bf16) (p : Fin 256) (k : Fin 15) (h : Fin 512) : EReal :=
  s k (ix3 (0 : Fin 1) p h)

end Cert.TreeGru

end
-- ==== Proof.SpecSums.lean ====
/-
  Fifteen terms added one after the other onto the f32 zero are their sum: the form in which an unrolled
  accumulation loop spells the specification's sums over the fifteen messages.
-/
import proofs.«136730_j35158602285573_1_alg».proof.Proof.Spec
import Idealize.ShloMosaic.PureOps.Ideal.Laws

noncomputable section

open scoped BigOperators

namespace Cert.TreeGru

open Idealize.ShloMosaic

/-- Fifteen terms added in order onto the f32 zero. -/
def acc15 (f : Fin 15 → EReal) : EReal :=
  ((((((((((((((zero + f 0) + f 1) + f 2) + f 3) + f 4) + f 5) + f 6) + f 7) + f 8) + f 9) + f 10) + f 11) + f 12) + f 13) + f 14

/-- The f32 zero is the extended real zero, so the running sum is the sum. -/
theorem acc15_eq_sum (f : Fin 15 → EReal) : acc15 f = ∑ k, f k := by
  unfold acc15 zero
  rw [Ideal.ofBits_zero_f32, zero_add]
  simp only [Fin.sum_univ_castSucc, Finset.univ_eq_empty, Finset.sum_empty, zero_add]
  rfl

/-- The summed rows as the running sum. -/
theorem sumRows_eq_acc (r : Fin 15 → Fin 512 → EReal) (h : Fin 512) : sumRows r h = acc15 fun k => r k h :=
  (acc15_eq_sum _).symm

/-- The gated sum as the running sum. -/
theorem sumGated_eq_acc (P : Weights) (x : Fin 512 → EReal) (hn : Fin 15 → Fin 512 → EReal) (g : Fin 512) :
    sumGated P x hn g = acc15 fun k => gate P x hn k g * hn k g :=
  (acc15_eq_sum _).symm

end Cert.TreeGru

end
-- ==== Proof.KOps.lean ====
/-
  The kernel body's vector operations read at an index of a 256-row block, on the extended reals: its three matrix
  products as sums over the contracted coordinate, the slab [1, 256, 512] read as a [256, 512] block, a one-row bias
  spread over the rows, the lane sum of the last layer, and the column it is stored as.
-/
import proofs.«136730_j35158602285573_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.TreeGru.KOps

open Cert.KernelIdeal Cert.KernelIdeal.Facts₀ Cert.KernelIdeal.Facts Idealize.ShloMosaic Idealize.ShloMosaic.ValueIdx

/-! ## The three products' operand indices, axis by axis

Each product contracts the left operand's columns with the right operand's rows and has no batch axis: at result index
`(r, c)` and contraction coordinate `k` the left operand is read at `(r, k)` and the right one at `(k, c)`. -/

/-- The left operand's index of `dot_S256x512_S512x512_S256x512_1_0_0_1_n_n` keeps the result's row. -/
theorem lhs512_0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
/-- … and has the contracted coordinate as its column. -/
theorem lhs512_1 (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
/-- The right operand's index has the contracted coordinate as its row … -/
theorem rhs512_0 (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
/-- … and keeps the result's column. -/
theorem rhs512_1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- The left operand's index of `dot_S256x128_S128x512_S256x512_1_0_0_1_n_n` keeps the result's row. -/
theorem lhs128_0 (i : S256x512.Idx) (q : dot_S256x128_S128x512_S256x512_1_0_0_1_n_n.contr.Idx) :
    (dot_S256x128_S128x512_S256x512_1_0_0_1_n_n.lhsIdx i q 0).val = (i 0).val := by
  unfold DotDims.lhsIdx
  rw [dif_neg (show ¬(0 : Fin S256x128.rank) ∈ dot_S256x128_S128x512_S256x512_1_0_0_1_n_n.lhsBatch by decide), dif_pos (show (0 : Fin S256x128.rank) ∈ dot_S256x128_S128x512_S256x512_1_0_0_1_n_n.lhsNonContracting by decide)]
  rfl
/-- … and has the contracted coordinate as its column. -/
theorem lhs128_1 (i : S256x512.Idx) (q : dot_S256x128_S128x512_S256x512_1_0_0_1_n_n.contr.Idx) :
    (dot_S256x128_S128x512_S256x512_1_0_0_1_n_n.lhsIdx i q 1).val = (q ⟨0, by decide⟩).val :=
  dot_S256x128_S128x512_S256x512_1_0_0_1_n_n.lhsIdx_val_of_single rfl i q
/-- The right operand's index has the contracted coordinate as its row … -/
theorem rhs128_0 (i : S256x512.Idx) (q : dot_S256x128_S128x512_S256x512_1_0_0_1_n_n.contr.Idx) :
    (dot_S256x128_S128x512_S256x512_1_0_0_1_n_n.rhsIdx i q 0).val = (q ⟨0, by decide⟩).val :=
  dot_S256x128_S128x512_S256x512_1_0_0_1_n_n.rhsIdx_val_of_single rfl i q
/-- … and keeps the result's column. -/
theorem rhs128_1 (i : S256x512.Idx) (q : dot_S256x128_S128x512_S256x512_1_0_0_1_n_n.contr.Idx) :
    (dot_S256x128_S128x512_S256x512_1_0_0_1_n_n.rhsIdx i q 1).val = (i 1).val := by
  unfold DotDims.rhsIdx
  rw [dif_neg (show ¬(1 : Fin S128x512.rank) ∈ dot_S256x128_S128x512_S256x512_1_0_0_1_n_n.rhsBatch by decide), dif_pos (show (1 : Fin S128x512.rank) ∈ dot_S256x128_S128x512_S256x512_1_0_0_1_n_n.rhsNonContracting by decide)]
  rfl

/-- The left operand's index of `dot_S256x512_S512x1024_S256x1024_1_0_0_1_n_n` keeps the result's row. -/
theorem lhs1024_0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
/-- … and has the contracted coordinate as its column. -/
theorem lhs1024_1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
/-- The right operand's index has the contracted coordinate as its row … -/
theorem rhs1024_0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
/-- … and keeps the result's column. -/
theorem rhs1024_1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl

/-! ## The operations at an index -/

/-- A [256, 512] block times a [512, 512] matrix into the zero accumulator. -/
theorem mm512 (a : FVec Ideal S256x512 .bf16) (b : FVec Ideal S512x512 .bf16) (p : Fin 256) (g : Fin 512) :
    matmul dot_S256x512_S512x512_S256x512_1_0_0_1_n_n none a b (constant (F := Ideal) S256x512 .f32 0x00000000#32) (ix2 p g)
      = ∑ h : Fin 512, a (ix2 p h) * b (ix2 h g) := by
  refine (Ideal.matmul_constant_zero_apply dot_S256x512_S512x512_S256x512_1_0_0_1_n_n none a b (ix2 p g)).trans ?_
  rw [← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 p g) ((contrEquiv1 dot_S256x512_S512x512_S256x512_1_0_0_1_n_n 512 rfl rfl).symm k) = ix2 p k := funext fun x => Fin.ext (by
    match x with
    | ⟨0, _⟩ => exact lhs512_0 _ _
    | ⟨1, _⟩ => exact (lhs512_1 _ _).trans hk)
  have er : dot_S256x512_S512x512_S256x512_1_0_0_1_n_n.rhsIdx (ix2 p g) ((contrEquiv1 dot_S256x512_S512x512_S256x512_1_0_0_1_n_n 512 rfl rfl).symm k) = ix2 k g := funext fun x => Fin.ext (by
    match x with
    | ⟨0, _⟩ => exact (rhs512_0 _ _).trans hk
    | ⟨1, _⟩ => exact rhs512_1 _ _)
  rw [el, er]

/-- A [256, 128] block times a [128, 512] matrix into the zero accumulator. -/
theorem mm128 (a : FVec Ideal S256x128 .bf16) (b : FVec Ideal S128x512 .bf16) (p : Fin 256) (g : Fin 512) :
    matmul dot_S256x128_S128x512_S256x512_1_0_0_1_n_n none a b (constant (F := Ideal) S256x512 .f32 0x00000000#32) (ix2 p g)
      = ∑ l : Fin 128, a (ix2 p l) * b (ix2 l g) := by
  refine (Ideal.matmul_constant_zero_apply dot_S256x128_S128x512_S256x512_1_0_0_1_n_n none a b (ix2 p g)).trans ?_
  rw [← Equiv.sum_comp (contrEquiv1 dot_S256x128_S128x512_S256x512_1_0_0_1_n_n 128 rfl rfl).symm]
  refine Finset.sum_congr rfl fun k _ => ?_
  have hk := contrEquiv1_symm_val dot_S256x128_S128x512_S256x512_1_0_0_1_n_n 128 rfl rfl k
  have el : dot_S256x128_S128x512_S256x512_1_0_0_1_n_n.lhsIdx (ix2 p g) ((contrEquiv1 dot_S256x128_S128x512_S256x512_1_0_0_1_n_n 128 rfl rfl).symm k) = ix2 p k := funext fun x => Fin.ext (by
    match x with
    | ⟨0, _⟩ => exact lhs128_0 _ _
    | ⟨1, _⟩ => exact (lhs128_1 _ _).trans hk)
  have er : dot_S256x128_S128x512_S256x512_1_0_0_1_n_n.rhsIdx (ix2 p g) ((contrEquiv1 dot_S256x128_S128x512_S256x512_1_0_0_1_n_n 128 rfl rfl).symm k) = ix2 k g := funext fun x => Fin.ext (by
    match x with
    | ⟨0, _⟩ => exact (rhs128_0 _ _).trans hk
    | ⟨1, _⟩ => exact rhs128_1 _ _)
  rw [el, er]

/-- A [256, 512] block times a [512, 1024] matrix into the zero accumulator. -/
theorem mm1024 (a : FVec Ideal S256x512 .bf16) (b : FVec Ideal S512x1024 .bf16) (p : Fin 256) (v : Fin 1024) :
    matmul dot_S256x512_S512x1024_S256x1024_1_0_0_1_n_n none a b (constant (F := Ideal) S256x1024 .f32 0x00000000#32) (ix2 p v)
      = ∑ g : Fin 512, a (ix2 p g) * b (ix2 g v) := by
  refine (Ideal.matmul_constant_zero_apply dot_S256x512_S512x1024_S256x1024_1_0_0_1_n_n none a b (ix2 p v)).trans ?_
  rw [← Equiv.sum_comp (contrEquiv1 dot_S256x512_S512x1024_S256x1024_1_0_0_1_n_n 512 rfl rfl).symm]
  refine Finset.sum_congr rfl fun k _ => ?_
  have hk := contrEquiv1_symm_val dot_S256x512_S512x1024_S256x1024_1_0_0_1_n_n 512 rfl rfl k
  have el : dot_S256x512_S512x1024_S256x1024_1_0_0_1_n_n.lhsIdx (ix2 p v) ((contrEquiv1 dot_S256x512_S512x1024_S256x1024_1_0_0_1_n_n 512 rfl rfl).symm k) = ix2 p k := funext fun x => Fin.ext (by
    match x with
    | ⟨0, _⟩ => exact lhs1024_0 _ _
    | ⟨1, _⟩ => exact (lhs1024_1 _ _).trans hk)
  have er : dot_S256x512_S512x1024_S256x1024_1_0_0_1_n_n.rhsIdx (ix2 p v) ((contrEquiv1 dot_S256x512_S512x1024_S256x1024_1_0_0_1_n_n 512 rfl rfl).symm k) = ix2 k v := funext fun x => Fin.ext (by
    match x with
    | ⟨0, _⟩ => exact (rhs1024_0 _ _).trans hk
    | ⟨1, _⟩ => exact rhs1024_1 _ _)
  rw [el, er]

/-- One message's [1, 256, 512] slab read as a [256, 512] block. -/
theorem slab_apply {φ : FTy} (s : FVec Ideal S1x256x512 φ) (p : Fin 256) (h : Fin 512) :
    shapeCast S256x512 s shapeCasts_S1x256x512_S256x512 (ix2 p h) = s (ix3 (0 : Fin 1) p h) := by
  exact shapeCast_1ab_ab_apply s shapeCasts_S1x256x512_S256x512 p h

/-- A one-row [1, 512] bias spread over the 256 rows. -/
theorem rowBias512 (b : FVec Ideal S1x512 .f32) (p : Fin 256) (g : Fin 512) :
    broadcastTo S256x512 b broadcasts_S1x512_S256x512 (ix2 p g) = b (ix2 (0 : Fin 1) g) := by
  exact broadcastTo_1b_ab_apply b broadcasts_S1x512_S256x512 p g

/-- A one-row [1, 1024] bias spread over the 256 rows. -/
theorem rowBias1024 (b : FVec Ideal S1x1024 .f32) (p : Fin 256) (v : Fin 1024) :
    broadcastTo S256x1024 b broadcasts_S1x1024_S256x1024 (ix2 p v) = b (ix2 (0 : Fin 1) v) := by
  exact broadcastTo_1b_ab_apply b broadcasts_S1x1024_S256x1024 p v

/-- The [1, 1] bias spread down the column. -/
theorem colBias (b : FVec Ideal S1x1 .f32) (p : Fin 256) :
    broadcastTo S256x1 b broadcasts_S1x1_S256x1 (ix2 p (0 : Fin 1)) = b (ix2 (0 : Fin 1) (0 : Fin 1)) := by
  exact broadcastTo_1b_ab_apply b broadcasts_S1x1_S256x1 p (0 : Fin 1)

/-- The sum over the 512 lanes of a [256, 512] block, at row `p`. -/
theorem laneSum (v : FVec Ideal S256x512 .f32) (p : Fin 256) :
    multiReduction .add [1] S256 v 0x00000000#32 reduces_S256x512_S256 (.inl rfl) rfl (ix1 p) = ∑ g : Fin 512, v (ix2 p g) := by
  refine (Ideal.multiReduction_add_single v 0x00000000#32 reduces_S256x512_S256 _ _ (ix1 p)).trans ?_
  -- the index the reduction reads at lane `k` of row `p` is `(p, k)`
  refine Finset.sum_congr rfl fun k _ => congrArg v (funext fun x => Fin.ext ?_)
  match x with
  | ⟨0, _⟩ => rfl
  | ⟨1, _⟩ => rfl

/-- The [256] vector of row sums stored as a [256, 1] column. -/
theorem colCast (v : FVec Ideal S256 .f32) (p : Fin 256) :
    shapeCast S256x1 v shapeCasts_S256_S256x1 (ix2 p (0 : Fin 1)) = v (ix1 p) := by
  refine shapeCast_apply v shapeCasts_S256_S256x1 _ _ ?_
  -- both row-major positions are `p`: the column's is `p * 1 + 0`
  rw [Shape.rowMajor_val_one, Shape.rowMajor_val_two]
  show p.val = p.val * 1 + 0
  rw [Nat.mul_one, Nat.add_zero]

end Cert.TreeGru.KOps

end
-- ==== Proof.KWord.lean ====
/-
  The value the kernel body stores into the first 1024 columns of its output block, as the body's vector operations
  compose it from the loaded blocks, read at row `p` and column `v`: the specification's word score `v` of the row
  function at row `p` of the blocks.
-/
import proofs.«136730_j35158602285573_1_alg».proof.Proof.Gen.KernelIdeal.Skeleton
import proofs.«136730_j35158602285573_1_alg».proof.Proof.Spec
import proofs.«136730_j35158602285573_1_alg».proof.Proof.SpecSums
import proofs.«136730_j35158602285573_1_alg».proof.Proof.KBlock
import proofs.«136730_j35158602285573_1_alg».proof.Proof.KOps

noncomputable section

open scoped BigOperators

namespace Cert.TreeGru.KBody

open Cert.KernelIdeal Cert.KernelIdeal.Gen Cert.KernelIdeal.Facts₀ Cert.KernelIdeal.Facts Idealize.ShloMosaic Idealize.ShloMosaic.ValueIdx Cert.TreeGru

/-! ### Pointwise operations read at an index, and the two f32 literals -/

theorem logistic_apply {s : Shape} {φ : FTy} (a : FVec Ideal s φ) (i : s.Idx) : logistic a i = Ideal.logistic (a i) := rfl

theorem tanh_apply {s : Shape} {φ : FTy} (a : FVec Ideal s φ) (i : s.Idx) : tanh a i = Ideal.tanh (a i) := rfl

theorem lit_zero : (Scalar.ofBits .f32 0x00000000#32 : Ideal .f32) = zero := rfl

theorem lit_one : (Scalar.ofBits .f32 0x3F800000#32 : Ideal .f32) = one := rfl

/-! ### The blocks that a same-shape cast leaves as they are -/

theorem pay1_eq (a : Vec Ideal S256x512 .bf16) : k0_pay1 a = a := by
  unfold k0_pay1; exact shapeCast_self _ _

theorem pay2_eq (a : Vec Ideal S256x128 .bf16) : k0_pay2 a = a := by
  unfold k0_pay2; exact shapeCast_self _ _

theorem pay38_eq (a : Vec Ideal S512x512 .bf16) : k0_pay38 a = a := by
  unfold k0_pay38; exact shapeCast_self _ _

theorem pay51_eq (a : Vec Ideal S512x512 .bf16) : k0_pay51 a = a := by
  unfold k0_pay51; exact shapeCast_self _ _

theorem pay50_apply (a : FVec Ideal S256x512 .f32) (i : S256x512.Idx) : k0_pay50 a i = a i := rfl

/-! ### The plain running sum of the messages

Each message's slab is read as a block and widened to f32; at (p, h) that is entry (0, p, h) of the slab. -/

theorem pay8_apply (sa sb : Vec Ideal S1x256x512 .bf16) (p : Fin 256) (h : Fin 512) :
    k0_pay8 sa sb (ix2 p h) = (zero + sa (ix3 (0 : Fin 1) p h)) + sb (ix3 (0 : Fin 1) p h) := by
  simp only [k0_pay8, k0_pay5, k0_pay4, k0_pay7, k0_pay6, addf_apply, broadcast_apply, extf_apply, KOps.slab_apply, lit_zero]

theorem pay19_apply (a : FVec Ideal S256x512 .f32) (sa sb sc sd : Vec Ideal S1x256x512 .bf16) (p : Fin 256) (h : Fin 512) :
    k0_pay19 a sa sb sc sd (ix2 p h)
      = (((a (ix2 p h) + sa (ix3 (0 : Fin 1) p h)) + sb (ix3 (0 : Fin 1) p h)) + sc (ix3 (0 : Fin 1) p h)) + sd (ix3 (0 : Fin 1) p h) := by
  simp only [k0_pay19, k0_pay11, k0_pay10, k0_pay13, k0_pay12, k0_pay15, k0_pay14, k0_pay18, k0_pay17, addf_apply, extf_apply,
    KOps.slab_apply]

theorem pay26_apply (a : FVec Ideal S256x512 .f32) (sa sb sc : Vec Ideal S1x256x512 .bf16) (p : Fin 256) (h : Fin 512) :
    k0_pay26 a sa sb sc (ix2 p h)
      = ((a (ix2 p h) + sa (ix3 (0 : Fin 1) p h)) + sb (ix3 (0 : Fin 1) p h)) + sc (ix3 (0 : Fin 1) p h) := by
  simp only [k0_pay26, k0_pay21, k0_pay20, k0_pay23, k0_pay22, k0_pay25, k0_pay24, addf_apply, extf_apply, KOps.slab_apply]

theorem pay37_apply (a : FVec Ideal S256x512 .f32) (sa sb sc sd : Vec Ideal S1x256x512 .bf16) (p : Fin 256) (h : Fin 512) :
    k0_pay37 a sa sb sc sd (ix2 p h)
      = (((a (ix2 p h) + sa (ix3 (0 : Fin 1) p h)) + sb (ix3 (0 : Fin 1) p h)) + sc (ix3 (0 : Fin 1) p h)) + sd (ix3 (0 : Fin 1) p h) := by
  simp only [k0_pay37, k0_pay29, k0_pay28, k0_pay31, k0_pay30, k0_pay33, k0_pay32, k0_pay36, k0_pay35, addf_apply, extf_apply,
    KOps.slab_apply]

theorem pay43_apply (a : FVec Ideal S256x512 .f32) (sa sb : Vec Ideal S1x256x512 .bf16) (p : Fin 256) (h : Fin 512) :
    k0_pay43 a sa sb (ix2 p h) = (a (ix2 p h) + sa (ix3 (0 : Fin 1) p h)) + sb (ix3 (0 : Fin 1) p h) := by
  simp only [k0_pay43, k0_pay40, k0_pay39, k0_pay42, k0_pay41, addf_apply, extf_apply, KOps.slab_apply]

/-- The body's sum of the fifteen messages is the specification's, row by row. -/
theorem sum_apply (s0 s1 s2 s3 s4 s5 s6 s7 s8 s9 s10 s11 s12 s13 s14 : Vec Ideal S1x256x512 .bf16) (p : Fin 256) (h : Fin 512) :
    k0_pay43 (k0_pay37 (k0_pay26 (k0_pay19 (k0_pay8 s0 s1) s2 s3 s4 s5) s6 s7 s8) s9 s10 s11 s12) s13 s14 (ix2 p h)
      = sumRows (slabRows ![s0, s1, s2, s3, s4, s5, s6, s7, s8, s9, s10, s11, s12, s13, s14] p) h := by
  rw [pay43_apply, pay37_apply, pay26_apply, pay19_apply, pay8_apply, sumRows_eq_acc]
  rfl

/-! ### The reset gate's part on the embedding, and the gated running sum -/

theorem pay3_apply (a : Vec Ideal S256x512 .bf16) (W : Vec Ideal S512x512 .bf16) (b : Vec Ideal S1x512 .f32) (p : Fin 256) (g : Fin 512) :
    k0_pay3 a W b (ix2 p g) = (∑ h : Fin 512, a (ix2 p h) * W (ix2 h g)) + b (ix2 (0 : Fin 1) g) := by
  simp only [k0_pay3, k0_pay1, shapeCast_self, addf_apply, KOps.mm512, KOps.rowBias512]

/-- One message's gated term at (p, g): the reset gate of the message (on the argument `r` from the embedding) times
    the message. -/
def gterm (r : EReal) (s : Vec Ideal S1x256x512 .bf16) (U : Vec Ideal S512x512 .bf16) (p : Fin 256) (g : Fin 512) : EReal :=
  Ideal.logistic (r + ∑ h : Fin 512, s (ix3 (0 : Fin 1) p h) * U (ix2 h g)) * s (ix3 (0 : Fin 1) p g)

theorem pay9_apply (a : Vec Ideal S256x512 .bf16) (W : Vec Ideal S512x512 .bf16) (b : Vec Ideal S1x512 .f32)
    (sa : Vec Ideal S1x256x512 .bf16) (Ua : Vec Ideal S512x512 .bf16) (sb : Vec Ideal S1x256x512 .bf16) (Ub : Vec Ideal S512x512 .bf16)
    (p : Fin 256) (g : Fin 512) :
    k0_pay9 a W b sa Ua sb Ub (ix2 p g)
      = (zero + gterm (k0_pay3 a W b (ix2 p g)) sa Ua p g) + gterm (k0_pay3 a W b (ix2 p g)) sb Ub p g := by
  simp only [k0_pay9, k0_pay5, k0_pay4, k0_pay7, k0_pay6, gterm, shapeCast_self, addf_apply, mulf_apply, logistic_apply,
    broadcast_apply, extf_apply, KOps.mm512, KOps.slab_apply, lit_zero]

theorem pay16_apply (r acc : FVec Ideal S256x512 .f32)
    (sa : Vec Ideal S1x256x512 .bf16) (Ua : Vec Ideal S512x512 .bf16) (sb : Vec Ideal S1x256x512 .bf16) (Ub : Vec Ideal S512x512 .bf16)
    (sc : Vec Ideal S1x256x512 .bf16) (Uc : Vec Ideal S512x512 .bf16) (p : Fin 256) (g : Fin 512) :
    k0_pay16 r acc sa Ua sb Ub sc Uc (ix2 p g)
      = ((acc (ix2 p g) + gterm (r (ix2 p g)) sa Ua p g) + gterm (r (ix2 p g)) sb Ub p g) + gterm (r (ix2 p g)) sc Uc p g := by
  simp only [k0_pay16, k0_pay11, k0_pay10, k0_pay13, k0_pay12, k0_pay15, k0_pay14, gterm, shapeCast_self, addf_apply, mulf_apply,
    logistic_apply, extf_apply, KOps.mm512, KOps.slab_apply]

theorem pay27_apply (r acc : FVec Ideal S256x512 .f32) (s : Vec Ideal S1x256x512 .bf16) (U : Vec Ideal S512x512 .bf16)
    (sa : Vec Ideal S1x256x512 .bf16) (Ua : Vec Ideal S512x512 .bf16) (sb : Vec Ideal S1x256x512 .bf16) (Ub : Vec Ideal S512x512 .bf16)
    (sc : Vec Ideal S1x256x512 .bf16) (Uc : Vec Ideal S512x512 .bf16) (p : Fin 256) (g : Fin 512) :
    k0_pay27 r acc (k0_pay17 s) (k0_pay18 s) U sa Ua sb Ub sc Uc (ix2 p g)
      = (((acc (ix2 p g) + gterm (r (ix2 p g)) s U p g) + gterm (r (ix2 p g)) sa Ua p g) + gterm (r (ix2 p g)) sb Ub p g)
          + gterm (r (ix2 p g)) sc Uc p g := by
  simp only [k0_pay27, k0_pay18, k0_pay17, k0_pay21, k0_pay20, k0_pay23, k0_pay22, k0_pay25, k0_pay24, gterm, shapeCast_self,
    addf_apply, mulf_apply, logistic_apply, extf_apply, KOps.mm512, KOps.slab_apply]

theorem pay34_apply (r acc : FVec Ideal S256x512 .f32)
    (sa : Vec Ideal S1x256x512 .bf16) (Ua : Vec Ideal S512x512 .bf16) (sb : Vec Ideal S1x256x512 .bf16) (Ub : Vec Ideal S512x512 .bf16)
    (sc : Vec Ideal S1x256x512 .bf16) (Uc : Vec Ideal S512x512 .bf16) (p : Fin 256) (g : Fin 512) :
    k0_pay34 r acc sa Ua sb Ub sc Uc (ix2 p g)
      = ((acc (ix2 p g) + gterm (r (ix2 p g)) sa Ua p g) + gterm (r (ix2 p g)) sb Ub p g) + gterm (r (ix2 p g)) sc Uc p g := by
  simp only [k0_pay34, k0_pay29, k0_pay28, k0_pay31, k0_pay30, k0_pay33, k0_pay32, gterm, shapeCast_self, addf_apply, mulf_apply,
    logistic_apply, extf_apply, KOps.mm512, KOps.slab_apply]

theorem pay44_apply (r acc : FVec Ideal S256x512 .f32) (s : Vec Ideal S1x256x512 .bf16) (U : Vec Ideal S512x512 .bf16)
    (sa : Vec Ideal S1x256x512 .bf16) (Ua : Vec Ideal S512x512 .bf16) (sb : Vec Ideal S1x256x512 .bf16) (Ub : Vec Ideal S512x512 .bf16)
    (p : Fin 256) (g : Fin 512) :
    k0_pay44 r acc (k0_pay35 s) (k0_pay36 s) (k0_pay38 U) sa Ua sb Ub (ix2 p g)
      = ((acc (ix2 p g) + gterm (r (ix2 p g)) s U p g) + gterm (r (ix2 p g)) sa Ua p g) + gterm (r (ix2 p g)) sb Ub p g := by
  simp only [k0_pay44, k0_pay36, k0_pay35, k0_pay38, k0_pay40, k0_pay39, k0_pay42, k0_pay41, gterm, shapeCast_self, addf_apply,
    mulf_apply, logistic_apply, extf_apply, KOps.mm512, KOps.slab_apply]

/-! ### The update gate, the candidate's part on the embedding, and the word head -/

theorem pay48_apply (a : FVec Ideal S256x512 .bf16) (m : FVec Ideal S256x512 .f32) (Wx Wh : Vec Ideal S512x512 .bf16)
    (b : Vec Ideal S1x512 .f32) (p : Fin 256) (g : Fin 512) :
    k0_pay48 a m Wx Wh b (ix2 p g)
      = Ideal.logistic (((∑ h : Fin 512, a (ix2 p h) * Wx (ix2 h g)) + ∑ h : Fin 512, m (ix2 p h) * Wh (ix2 h g)) + b (ix2 (0 : Fin 1) g)) := by
  simp only [k0_pay48, shapeCast_self, addf_apply, logistic_apply, truncf_apply, KOps.mm512, KOps.rowBias512]

theorem pay49_apply (a : FVec Ideal S256x512 .bf16) (W : Vec Ideal S512x512 .bf16) (p : Fin 256) (g : Fin 512) :
    k0_pay49 a W (ix2 p g) = ∑ h : Fin 512, a (ix2 p h) * W (ix2 h g) := by
  simp only [k0_pay49, shapeCast_self, KOps.mm512]

/-- The word scores from the blocks that enter the last stage: `m` the summed messages, `z` the update gate, `c` the
    candidate's part on the embedding, `q` the gated sum, `cx` the context block. -/
theorem pay52_apply (cx : FVec Ideal S256x128 .bf16) (m z c : FVec Ideal S256x512 .f32) (q : FVec Ideal S256x512 .bf16)
    (Wq : FVec Ideal S512x512 .bf16) (bc : Vec Ideal S1x512 .f32) (Wn : Vec Ideal S512x512 .bf16) (Wl : Vec Ideal S128x512 .bf16)
    (bw : Vec Ideal S1x512 .f32) (Wo : Vec Ideal S512x1024 .bf16) (bo : Vec Ideal S1x1024 .f32) (p : Fin 256) (v : Fin 1024) :
    k0_pay52 cx m z c q Wq (constant (F := Ideal) S256x512 .f32 0x00000000#32) bc Wn Wl bw Wo bo (ix2 p v)
      = (∑ g : Fin 512,
            max (((∑ h : Fin 512,
                      ((one - z (ix2 p h)) * m (ix2 p h)
                        + z (ix2 p h) * Ideal.tanh ((c (ix2 p h) + ∑ h' : Fin 512, q (ix2 p h') * Wq (ix2 h' h)) + bc (ix2 (0 : Fin 1) h)))
                        * Wn (ix2 h g))
                    + ∑ l : Fin 128, cx (ix2 p l) * Wl (ix2 l g)) + bw (ix2 (0 : Fin 1) g)) zero
              * Wo (ix2 g v))
          + bo (ix2 (0 : Fin 1) v) := by
  simp only [k0_pay52, shapeCast_self, addf_apply, subf_apply, mulf_apply, maximumf_apply, tanh_apply, truncf_apply, broadcast_apply,
    KOps.mm512, KOps.mm128, KOps.mm1024, KOps.rowBias512, KOps.rowBias1024, lit_zero, lit_one]

variable (x0 : Vec Ideal S256x512 .bf16) (x3 : Vec Ideal S256x128 .bf16)
  (x4 x5 : Vec Ideal S512x512 .bf16) (x6 : Vec Ideal S1x512 .f32) (x7 : Vec Ideal S512x512 .bf16) (x8 : Vec Ideal S1x512 .f32)
  (x9 x10 x11 : Vec Ideal S512x512 .bf16) (x12 : Vec Ideal S1x512 .f32) (x13 : Vec Ideal S512x512 .bf16)
  (x14 : Vec Ideal S128x512 .bf16) (x15 : Vec Ideal S1x512 .f32) (x16 : Vec Ideal S512x1024 .bf16) (x17 : Vec Ideal S1x1024 .f32)
  (x18 x19 : Vec Ideal S512x512 .bf16) (x20 : Vec Ideal S1x512 .f32) (x21 : Vec Ideal S512x512 .bf16)
  (x22 : Vec Ideal S128x512 .bf16) (x23 x24 : Vec Ideal S1x512 .f32) (x25 : Vec Ideal S1x1 .f32)
  (s0 s1 s2 s3 s4 s5 s6 s7 s8 s9 s10 s11 s12 s13 s14 : Vec Ideal S1x256x512 .bf16)

/-- The reset gate's argument from the embedding is the specification's. -/
theorem r1_apply (p : Fin 256) (g : Fin 512) :
    k0_pay3 x0 x7 x8 (ix2 p g)
      = resetX (blockWeights x4 x5 x6 x7 x8 x9 x10 x11 x12 x13 x14 x15 x16 x17 x18 x19 x20 x21 x22 x23 x24 x25) (fun h => x0 (ix2 p h)) g :=
  pay3_apply x0 x7 x8 p g

/-- The body's gated sum of the fifteen messages is the specification's, row by row. -/
theorem gated_apply (p : Fin 256) (g : Fin 512) :
    k0_pay44 (k0_pay3 x0 x7 x8) (k0_pay34 (k0_pay3 x0 x7 x8) (k0_pay27 (k0_pay3 x0 x7 x8) (k0_pay16 (k0_pay3 x0 x7 x8) (k0_pay9 x0 x7 x8 s0 x9 s1 x9) s2 x9 s3 x9 s4 x9) (k0_pay17 s5) (k0_pay18 s5) x9 s6 x9 s7 x9 s8 x9) s9 x9 s10 x9 s11 x9) (k0_pay35 s12) (k0_pay36 s12) (k0_pay38 x9) s13 x9 s14 x9 (ix2 p g)
      = sumGated (blockWeights x4 x5 x6 x7 x8 x9 x10 x11 x12 x13 x14 x15 x16 x17 x18 x19 x20 x21 x22 x23 x24 x25) (fun h => x0 (ix2 p h))
          (slabRows ![s0, s1, s2, s3, s4, s5, s6, s7, s8, s9, s10, s11, s12, s13, s14] p) g := by
  rw [pay44_apply, pay34_apply, pay27_apply, pay16_apply, pay9_apply,
    r1_apply x0 x4 x5 x6 x7 x8 x9 x10 x11 x12 x13 x14 x15 x16 x17 x18 x19 x20 x21 x22 x23 x24 x25 p g, sumGated_eq_acc]
  rfl

/-- The body's update gate is the specification's, row by row. -/
theorem update_apply (p : Fin 256) (g : Fin 512) :
    k0_pay48 x0 (k0_pay43 (k0_pay37 (k0_pay26 (k0_pay19 (k0_pay8 s0 s1) s2 s3 s4 s5) s6 s7 s8) s9 s10 s11 s12) s13 s14) x4 x5 x6 (ix2 p g)
      = update (blockWeights x4 x5 x6 x7 x8 x9 x10 x11 x12 x13 x14 x15 x16 x17 x18 x19 x20 x21 x22 x23 x24 x25) (fun h => x0 (ix2 p h))
          (slabRows ![s0, s1, s2, s3, s4, s5, s6, s7, s8, s9, s10, s11, s12, s13, s14] p) g := by
  rw [pay48_apply]
  simp only [sum_apply]
  rfl

/-- The word scores the body stores, read at (p, v). -/
theorem word_piece (p : Fin 256) (v : Fin 1024) :
    (k0_pay52 (k0_pay2 x3) (k0_pay43 (k0_pay37 (k0_pay26 (k0_pay19 (k0_pay8 s0 s1) s2 s3 s4 s5) s6 s7 s8) s9 s10 s11 s12) s13 s14) (k0_pay48 (k0_pay1 x0) (k0_pay43 (k0_pay37 (k0_pay26 (k0_pay19 (k0_pay8 s0 s1) s2 s3 s4 s5) s6 s7 s8) s9 s10 s11 s12) s13 s14) x4 x5 x6) (k0_pay49 (k0_pay1 x0) x10) (k0_pay50 (k0_pay44 (k0_pay3 x0 x7 x8) (k0_pay34 (k0_pay3 x0 x7 x8) (k0_pay27 (k0_pay3 x0 x7 x8) (k0_pay16 (k0_pay3 x0 x7 x8) (k0_pay9 x0 x7 x8 s0 x9 s1 x9) s2 x9 s3 x9 s4 x9) (k0_pay17 s5) (k0_pay18 s5) x9 s6 x9 s7 x9 s8 x9) s9 x9 s10 x9 s11 x9) (k0_pay35 s12) (k0_pay36 s12) (k0_pay38 x9) s13 x9 s14 x9)) (k0_pay51 x11) (constant S256x512 FTy.f32 0#32) x12 x13 x14 x15 x16 x17 : FVec Ideal S256x1024 .f32) (ix2 p v)
      = word (blockWeights x4 x5 x6 x7 x8 x9 x10 x11 x12 x13 x14 x15 x16 x17 x18 x19 x20 x21 x22 x23 x24 x25) (fun h => x0 (ix2 p h)) (fun l => x3 (ix2 p l)) (slabRows ![s0, s1, s2, s3, s4, s5, s6, s7, s8, s9, s10, s11, s12, s13, s14] p) v := by
  refine (pay52_apply _ _ _ _ _ _ _ _ _ _ _ _ p v).trans ?_
  simp only [pay2_eq, pay51_eq, pay50_apply, pay49_apply, pay1_eq, sum_apply,
    update_apply x0 x4 x5 x6 x7 x8 x9 x10 x11 x12 x13 x14 x15 x16 x17 x18 x19 x20 x21 x22 x23 x24 x25,
    gated_apply x0 x4 x5 x6 x7 x8 x9 x10 x11 x12 x13 x14 x15 x16 x17 x18 x19 x20 x21 x22 x23 x24 x25]
  rfl

end Cert.TreeGru.KBody

end
-- ==== Proof.KStop.lean ====
/-
  The value the kernel body stores into the last column of its output block, as the body's vector operations
  compose it from the loaded blocks, read at row `p`: the specification's stop score of the row function at row
  `p` of the blocks.
-/
import proofs.«136730_j35158602285573_1_alg».proof.Proof.Gen.KernelIdeal.Skeleton
import proofs.«136730_j35158602285573_1_alg».proof.Proof.Spec
import proofs.«136730_j35158602285573_1_alg».proof.Proof.SpecSums
import proofs.«136730_j35158602285573_1_alg».proof.Proof.KBlock
import proofs.«136730_j35158602285573_1_alg».proof.Proof.KOps
import Idealize.ShloMosaic.Lib.ValueIdx
import Idealize.ShloMosaic.Lib.Pipeline.Value

noncomputable section

open scoped BigOperators

namespace Cert.TreeGru.KBody

open Cert.KernelIdeal Cert.KernelIdeal.Gen Cert.KernelIdeal.Facts₀ Cert.KernelIdeal.Facts Idealize.ShloMosaic Idealize.ShloMosaic.ValueIdx Cert.TreeGru

/-! ## Each stage of the body's stop head read at an index -/

/-- The embedding block's same-shape cast is the block. -/
theorem pay1_apply (x : Vec Ideal S256x512 .bf16) (p : Fin 256) (h : Fin 512) :
    k0_pay1 x (ix2 p h) = x (ix2 p h) := by
  unfold k0_pay1
  exact congrFun (shapeCast_self x _) (ix2 p h)

/-- The context block's same-shape cast is the block. -/
theorem pay2_apply (c : Vec Ideal S256x128 .bf16) (p : Fin 256) (l : Fin 128) :
    k0_pay2 c (ix2 p l) = c (ix2 p l) := by
  unfold k0_pay2
  exact congrFun (shapeCast_self c _) (ix2 p l)

/-- The cast of the summed block to bf16 is the identity on the extended reals. -/
theorem pay54_apply (a : FVec Ideal S256x512 .f32) (p : Fin 256) (h : Fin 512) :
    k0_pay54 a (ix2 p h) = a (ix2 p h) := by
  unfold k0_pay54
  rfl

/-- The first two child slabs added onto the f32 zero, read at (p, h). -/
theorem pay45_apply (s0 s1 : Vec Ideal S1x256x512 .bf16) (p : Fin 256) (h : Fin 512) :
    k0_pay45 s0 s1 (ix2 p h) = (zero + s0 (ix3 (0 : Fin 1) p h)) + s1 (ix3 (0 : Fin 1) p h) := by
  unfold k0_pay45
  exact congrArg₂ (· + ·) (congrArg₂ (· + ·) rfl (KOps.slab_apply s0 p h)) (KOps.slab_apply s1 p h)

/-- Nine more child slabs added in order onto a running sum, read at (p, h). -/
theorem pay46_apply (a : FVec Ideal S256x512 .f32) (s2 s3 s4 s5 s6 s7 s8 s9 s10 : Vec Ideal S1x256x512 .bf16) (p : Fin 256) (h : Fin 512) :
    k0_pay46 a s2 s3 s4 s5 s6 s7 s8 s9 s10 (ix2 p h)
      = (((((((((a (ix2 p h) + s2 (ix3 (0 : Fin 1) p h)) + s3 (ix3 (0 : Fin 1) p h)) + s4 (ix3 (0 : Fin 1) p h)) + s5 (ix3 (0 : Fin 1) p h)) + s6 (ix3 (0 : Fin 1) p h)) + s7 (ix3 (0 : Fin 1) p h)) + s8 (ix3 (0 : Fin 1) p h)) + s9 (ix3 (0 : Fin 1) p h)) + s10 (ix3 (0 : Fin 1) p h)) := by
  unfold k0_pay46
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl (KOps.slab_apply s2 p h)) (KOps.slab_apply s3 p h)) (KOps.slab_apply s4 p h)) (KOps.slab_apply s5 p h)) (KOps.slab_apply s6 p h)) (KOps.slab_apply s7 p h)) (KOps.slab_apply s8 p h)) (KOps.slab_apply s9 p h)) (KOps.slab_apply s10 p h))

/-- The last four child slabs added in order onto a running sum, read at (p, h). -/
theorem pay47_apply (a : FVec Ideal S256x512 .f32) (s11 s12 s13 s14 : Vec Ideal S1x256x512 .bf16) (p : Fin 256) (h : Fin 512) :
    k0_pay47 a s11 s12 s13 s14 (ix2 p h)
      = ((((a (ix2 p h) + s11 (ix3 (0 : Fin 1) p h)) + s12 (ix3 (0 : Fin 1) p h)) + s13 (ix3 (0 : Fin 1) p h)) + s14 (ix3 (0 : Fin 1) p h)) := by
  unfold k0_pay47
  exact (congrArg₂ (· + ·) (congrArg₂ (· + ·) (congrArg₂ (· + ·) (congrArg₂ (· + ·) rfl (KOps.slab_apply s11 p h)) (KOps.slab_apply s12 p h)) (KOps.slab_apply s13 p h)) (KOps.slab_apply s14 p h))

/-- A block times a [512, 512] weight block, read at (p, g): the sum over the contracted coordinate. -/
theorem pay53_apply (a : FVec Ideal S256x512 .bf16) (w : Vec Ideal S512x512 .bf16) (p : Fin 256) (g : Fin 512) :
    k0_pay53 a w (ix2 p g) = ∑ h : Fin 512, a (ix2 p h) * w (ix2 h g) := by
  unfold k0_pay53
  refine (KOps.mm512 a _ p g).trans ?_
  exact Finset.sum_congr rfl fun h _ => congrArg (a (ix2 p h) * ·) (congrFun (shapeCast_self w _) (ix2 h g))

/-- The fifteen child slabs added in order onto the f32 zero, read at (p, h): the summed child rows. -/
theorem childSum_apply (o0 o1 o2 o3 o4 o5 o6 o7 o8 o9 o10 o11 o12 o13 o14 : Vec Ideal S1x256x512 .bf16) (p : Fin 256) (h : Fin 512) :
    k0_pay54 (k0_pay47 (k0_pay46 (k0_pay45 o0 o1) o2 o3 o4 o5 o6 o7 o8 o9 o10) o11 o12 o13 o14) (ix2 p h)
      = sumRows (slabRows ![o0, o1, o2, o3, o4, o5, o6, o7, o8, o9, o10, o11, o12, o13, o14] p) h := by
  refine (pay54_apply _ p h).trans ?_
  refine (pay47_apply _ o11 o12 o13 o14 p h).trans ?_
  refine (congrArg (fun t => ((((t + o11 (ix3 (0 : Fin 1) p h)) + o12 (ix3 (0 : Fin 1) p h)) + o13 (ix3 (0 : Fin 1) p h)) + o14 (ix3 (0 : Fin 1) p h)))
    (pay46_apply _ o2 o3 o4 o5 o6 o7 o8 o9 o10 p h)).trans ?_
  refine (congrArg (fun t => (((((((((((((t + o2 (ix3 (0 : Fin 1) p h)) + o3 (ix3 (0 : Fin 1) p h)) + o4 (ix3 (0 : Fin 1) p h)) + o5 (ix3 (0 : Fin 1) p h)) + o6 (ix3 (0 : Fin 1) p h)) + o7 (ix3 (0 : Fin 1) p h)) + o8 (ix3 (0 : Fin 1) p h)) + o9 (ix3 (0 : Fin 1) p h)) + o10 (ix3 (0 : Fin 1) p h)) + o11 (ix3 (0 : Fin 1) p h)) + o12 (ix3 (0 : Fin 1) p h)) + o13 (ix3 (0 : Fin 1) p h)) + o14 (ix3 (0 : Fin 1) p h)))
    (pay45_apply o0 o1 p h)).trans ?_
  exact (sumRows_eq_acc (slabRows ![o0, o1, o2, o3, o4, o5, o6, o7, o8, o9, o10, o11, o12, o13, o14] p) h).symm

/-- The stop head as the body composes it, read at row p: both relu layers, the output row, the lane sum and the
    [1, 1] bias, over abstract inputs (the x-part of the input layer `a`, the summed child block `o`, the context
    block `c`). -/
theorem pay55_apply (c : FVec Ideal S256x128 .bf16) (a : FVec Ideal S256x512 .f32) (o : FVec Ideal S256x512 .bf16)
    (w19 : Vec Ideal S512x512 .bf16) (b20 : Vec Ideal S1x512 .f32) (w21 : Vec Ideal S512x512 .bf16)
    (w22 : Vec Ideal S128x512 .bf16) (b23 b24 : Vec Ideal S1x512 .f32) (b25 : Vec Ideal S1x1 .f32) (p : Fin 256) :
    k0_pay55 c a o w19 b20 w21 w22 b23 b24 b25 (ix2 p (0 : Fin 1))
      = (∑ g : Fin 512,
          max (((∑ h : Fin 512,
                  max ((a (ix2 p h) + ∑ h' : Fin 512, o (ix2 p h') * w19 (ix2 h' h)) + b20 (ix2 (0 : Fin 1) h)) zero
                    * w21 (ix2 h g))
                + ∑ l : Fin 128, c (ix2 p l) * w22 (ix2 l g)) + b23 (ix2 (0 : Fin 1) g)) zero
            * b24 (ix2 (0 : Fin 1) g))
        + b25 (ix2 (0 : Fin 1) (0 : Fin 1)) := by
  unfold k0_pay55
  refine congrArg₂ (· + ·) ?_ ?_
  · refine (KOps.colCast _ p).trans ?_
    refine (KOps.laneSum _ p).trans ?_
    refine Finset.sum_congr rfl fun g _ => ?_
    refine congrArg₂ (· * ·) ?_ (KOps.rowBias512 b24 p g)
    refine congrArg₂ max ?_ rfl
    refine congrArg₂ (· + ·) (congrArg₂ (· + ·) ?_ ?_) ?_
    · refine (KOps.mm512 _ _ p g).trans ?_
      refine Finset.sum_congr rfl fun h _ => ?_
      refine congrArg₂ (· * ·) ?_ (congrFun (shapeCast_self w21 _) (ix2 h g))
      refine congrArg₂ max ?_ rfl
      refine congrArg₂ (· + ·) (congrArg₂ (· + ·) rfl ?_) ?_
      · refine (KOps.mm512 o _ p h).trans ?_
        exact Finset.sum_congr rfl fun h' _ => congrArg (o (ix2 p h') * ·) (congrFun (shapeCast_self w19 _) (ix2 h' h))
      · refine (KOps.rowBias512 _ p h).trans ?_
        exact congrFun (shapeCast_self b20 _) (ix2 (0 : Fin 1) h)
    · refine (KOps.mm128 c _ p g).trans ?_
      exact Finset.sum_congr rfl fun l _ => congrArg (c (ix2 p l) * ·) (congrFun (shapeCast_self w22 _) (ix2 l g))
    · refine (KOps.rowBias512 _ p g).trans ?_
      exact congrFun (shapeCast_self b23 _) (ix2 (0 : Fin 1) g)
  · refine (KOps.colBias _ p).trans ?_
    exact congrFun (shapeCast_self b25 _) (ix2 (0 : Fin 1) (0 : Fin 1))

/-! ## The composition -/

variable (x0 : Vec Ideal S256x512 .bf16) (x3 : Vec Ideal S256x128 .bf16)
  (x4 x5 : Vec Ideal S512x512 .bf16) (x6 : Vec Ideal S1x512 .f32) (x7 : Vec Ideal S512x512 .bf16) (x8 : Vec Ideal S1x512 .f32)
  (x9 x10 x11 : Vec Ideal S512x512 .bf16) (x12 : Vec Ideal S1x512 .f32) (x13 : Vec Ideal S512x512 .bf16)
  (x14 : Vec Ideal S128x512 .bf16) (x15 : Vec Ideal S1x512 .f32) (x16 : Vec Ideal S512x1024 .bf16) (x17 : Vec Ideal S1x1024 .f32)
  (x18 x19 : Vec Ideal S512x512 .bf16) (x20 : Vec Ideal S1x512 .f32) (x21 : Vec Ideal S512x512 .bf16)
  (x22 : Vec Ideal S128x512 .bf16) (x23 x24 : Vec Ideal S1x512 .f32) (x25 : Vec Ideal S1x1 .f32)
  (o0 o1 o2 o3 o4 o5 o6 o7 o8 o9 o10 o11 o12 o13 o14 : Vec Ideal S1x256x512 .bf16)

/-- The stop score the body stores, read at row p. -/
theorem stop_piece (p : Fin 256) :
    (k0_pay55 (k0_pay2 x3) (k0_pay53 (k0_pay1 x0) x18) (k0_pay54 (k0_pay47 (k0_pay46 (k0_pay45 o0 o1) o2 o3 o4 o5 o6 o7 o8 o9 o10) o11 o12 o13 o14)) x19 x20 x21 x22 x23 x24 x25 : FVec Ideal S256x1 .f32) (ix2 p (0 : Fin 1))
      = stop (blockWeights x4 x5 x6 x7 x8 x9 x10 x11 x12 x13 x14 x15 x16 x17 x18 x19 x20 x21 x22 x23 x24 x25) (fun h => x0 (ix2 p h)) (fun l => x3 (ix2 p l)) (slabRows ![o0, o1, o2, o3, o4, o5, o6, o7, o8, o9, o10, o11, o12, o13, o14] p) := by
  refine (pay55_apply _ _ _ x19 x20 x21 x22 x23 x24 x25 p).trans ?_
  unfold stop
  refine congrArg₂ (· + ·) ?_ rfl
  refine Finset.sum_congr rfl fun g _ => ?_
  refine congrArg₂ (· * ·) ?_ rfl
  unfold stopHid
  refine congrArg₂ max ?_ rfl
  refine congrArg₂ (· + ·) (congrArg₂ (· + ·) ?_ ?_) rfl
  · unfold vecMat
    refine Finset.sum_congr rfl fun h _ => ?_
    refine congrArg₂ (· * ·) ?_ rfl
    unfold stopIn
    refine congrArg₂ max ?_ rfl
    refine congrArg₂ (· + ·) (congrArg₂ (· + ·) ?_ ?_) rfl
    · refine (pay53_apply _ x18 p h).trans ?_
      exact Finset.sum_congr rfl fun h' _ => congrArg (· * x18 (ix2 h' h)) (pay1_apply x0 p h')
    · exact Finset.sum_congr rfl fun h' _ =>
        congrArg (· * x19 (ix2 h' h)) (childSum_apply o0 o1 o2 o3 o4 o5 o6 o7 o8 o9 o10 o11 o12 o13 o14 p h')
  · exact Finset.sum_congr rfl fun l _ => congrArg (· * x22 (ix2 l g)) (pay2_apply x3 p l)

end Cert.TreeGru.KBody

end
-- ==== Proof.KPieces.lean ====
/-
  What the kernel body leaves in its output block, as one function of the blocks it loaded: row `p` of the block is
  the row function (1024 word scores, then the stop score) of row `p` of the embedding block, of the context block
  and of the fifteen neighbour and fifteen child message slabs, under the weights the weight blocks hold. The body
  stores the block in two pieces, the [256, 1024] word scores and the [256, 1] stop column; each piece is that
  function on its rectangle.
-/
import proofs.«136730_j35158602285573_1_alg».proof.Proof.KernelIdealFrame
import proofs.«136730_j35158602285573_1_alg».proof.Proof.KBlock
import proofs.«136730_j35158602285573_1_alg».proof.Proof.KWord
import proofs.«136730_j35158602285573_1_alg».proof.Proof.KStop
import Idealize.ShloMosaic.Lib.Pipeline.Value

set_option maxRecDepth 16384

noncomputable section

namespace Cert.TreeGru.KBody

open Cert.KernelIdeal Cert.KernelIdeal.Gen Cert.KernelIdeal.GenP Cert.KernelIdeal.Facts₀ Cert.KernelIdeal.Facts
open Idealize.ShloMosaic Idealize.ShloMosaic.TcCoe Idealize.ShloMosaic.Tactic Idealize.SL.Sem
open Idealize.ShloMosaic.ValueIdx Cert.TreeGru

/-- Row `p`, column `j` of the output block, from the loaded blocks. -/
def blockRow (x0 : Vec Ideal S256x512 .bf16) (x1 : Vec Ideal S15x256x512 .bf16) (x2 : Vec Ideal S15x256x512 .bf16) (x3 : Vec Ideal S256x128 .bf16) (x4 : Vec Ideal S512x512 .bf16) (x5 : Vec Ideal S512x512 .bf16) (x6 : Vec Ideal S1x512 .f32) (x7 : Vec Ideal S512x512 .bf16) (x8 : Vec Ideal S1x512 .f32) (x9 : Vec Ideal S512x512 .bf16) (x10 : Vec Ideal S512x512 .bf16) (x11 : Vec Ideal S512x512 .bf16) (x12 : Vec Ideal S1x512 .f32) (x13 : Vec Ideal S512x512 .bf16) (x14 : Vec Ideal S128x512 .bf16) (x15 : Vec Ideal S1x512 .f32) (x16 : Vec Ideal S512x1024 .bf16) (x17 : Vec Ideal S1x1024 .f32) (x18 : Vec Ideal S512x512 .bf16) (x19 : Vec Ideal S512x512 .bf16) (x20 : Vec Ideal S1x512 .f32) (x21 : Vec Ideal S512x512 .bf16) (x22 : Vec Ideal S128x512 .bf16) (x23 : Vec Ideal S1x512 .f32) (x24 : Vec Ideal S1x512 .f32) (x25 : Vec Ideal S1x1 .f32) (p : Fin 256) (j : Fin 1025) : EReal :=
  rowOut (blockWeights x4 x5 x6 x7 x8 x9 x10 x11 x12 x13 x14 x15 x16 x17 x18 x19 x20 x21 x22 x23 x24 x25) (fun h => x0 (ix2 p h)) (fun l => x3 (ix2 p l))
    (fun k h => x1 (ix3 k p h)) (fun k h => x2 (ix3 k p h)) j

/-- Message `k`'s slab of a [15, 256, 512] block, read at row `p`. -/
theorem slab_read (X : Vec Ideal S15x256x512 .bf16) (k : Fin 15) (inb : ∀ a, (![k.val, 0, 0] : Fin 3 → Nat) a + S1x256x512.size a ≤ S15x256x512.size a)
    (p : Fin 256) (h : Fin 512) :
    View.ld X (Rect.unit (s := S15x256x512) ![k.val, 0, 0] S1x256x512.size inb) (ix3 (0 : Fin 1) p h) = X (ix3 k p h) := by
  show X _ = X _
  congr 1
  funext a
  apply Fin.ext
  match a with
  | ⟨0, _⟩ => show k.val + 1 * 0 = k.val; omega
  | ⟨1, _⟩ => show 0 + 1 * p.val = p.val; omega
  | ⟨2, _⟩ => show 0 + 1 * h.val = h.val; omega

/-- Fifteen slabs of a [15, 256, 512] block, read at row `p`, are its fifteen rows `p`. -/
theorem slabRows_eq (X : Vec Ideal S15x256x512 .bf16) (p : Fin 256) :
    slabRows ![(View.ld X (Rect.unit (s := S15x256x512) ![0, 0, 0] S1x256x512.size Facts₀.inb_S15x256x512_S1x256x512_0_0_0)),
      (View.ld X (Rect.unit (s := S15x256x512) ![1, 0, 0] S1x256x512.size Facts₀.inb_S15x256x512_S1x256x512_1_0_0)),
      (View.ld X (Rect.unit (s := S15x256x512) ![2, 0, 0] S1x256x512.size Facts₀.inb_S15x256x512_S1x256x512_2_0_0)),
      (View.ld X (Rect.unit (s := S15x256x512) ![3, 0, 0] S1x256x512.size Facts₀.inb_S15x256x512_S1x256x512_3_0_0)),
      (View.ld X (Rect.unit (s := S15x256x512) ![4, 0, 0] S1x256x512.size Facts₀.inb_S15x256x512_S1x256x512_4_0_0)),
      (View.ld X (Rect.unit (s := S15x256x512) ![5, 0, 0] S1x256x512.size Facts₀.inb_S15x256x512_S1x256x512_5_0_0)),
      (View.ld X (Rect.unit (s := S15x256x512) ![6, 0, 0] S1x256x512.size Facts₀.inb_S15x256x512_S1x256x512_6_0_0)),
      (View.ld X (Rect.unit (s := S15x256x512) ![7, 0, 0] S1x256x512.size Facts₀.inb_S15x256x512_S1x256x512_7_0_0)),
      (View.ld X (Rect.unit (s := S15x256x512) ![8, 0, 0] S1x256x512.size Facts₀.inb_S15x256x512_S1x256x512_8_0_0)),
      (View.ld X (Rect.unit (s := S15x256x512) ![9, 0, 0] S1x256x512.size Facts₀.inb_S15x256x512_S1x256x512_9_0_0)),
      (View.ld X (Rect.unit (s := S15x256x512) ![10, 0, 0] S1x256x512.size Facts₀.inb_S15x256x512_S1x256x512_10_0_0)),
      (View.ld X (Rect.unit (s := S15x256x512) ![11, 0, 0] S1x256x512.size Facts₀.inb_S15x256x512_S1x256x512_11_0_0)),
      (View.ld X (Rect.unit (s := S15x256x512) ![12, 0, 0] S1x256x512.size Facts₀.inb_S15x256x512_S1x256x512_12_0_0)),
      (View.ld X (Rect.unit (s := S15x256x512) ![13, 0, 0] S1x256x512.size Facts₀.inb_S15x256x512_S1x256x512_13_0_0)),
      (View.ld X (Rect.unit (s := S15x256x512) ![14, 0, 0] S1x256x512.size Facts₀.inb_S15x256x512_S1x256x512_14_0_0))] p
      = fun k h => X (ix3 k p h) := by
  funext k h
  unfold slabRows
  fin_cases k
  · exact slab_read X (0 : Fin 15) _ p h
  · exact slab_read X (1 : Fin 15) _ p h
  · exact slab_read X (2 : Fin 15) _ p h
  · exact slab_read X (3 : Fin 15) _ p h
  · exact slab_read X (4 : Fin 15) _ p h
  · exact slab_read X (5 : Fin 15) _ p h
  · exact slab_read X (6 : Fin 15) _ p h
  · exact slab_read X (7 : Fin 15) _ p h
  · exact slab_read X (8 : Fin 15) _ p h
  · exact slab_read X (9 : Fin 15) _ p h
  · exact slab_read X (10 : Fin 15) _ p h
  · exact slab_read X (11 : Fin 15) _ p h
  · exact slab_read X (12 : Fin 15) _ p h
  · exact slab_read X (13 : Fin 15) _ p h
  · exact slab_read X (14 : Fin 15) _ p h

set_option maxHeartbeats 8000000 in
/-- WHAT THE BODY LEAVES in its output block: the row function of the loaded blocks, row by row. -/
theorem out_eq (c : Dev nD) (i : grid0.Coords) (arg1 : Memref sig .tc .vmem S256x512 .bf16) (harg1 : arg1.IsWhole) (arg2 : Memref sig .tc .vmem S15x256x512 .bf16) (harg2 : arg2.IsWhole) (arg3 : Memref sig .tc .vmem S15x256x512 .bf16) (harg3 : arg3.IsWhole) (arg4 : Memref sig .tc .vmem S256x128 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x512 .bf16) (harg14 : arg14.IsWhole) (arg15 : Memref sig .tc .vmem S128x512 .bf16) (harg15 : arg15.IsWhole) (arg16 : Memref sig .tc .vmem S1x512 .f32) (harg16 : arg16.IsWhole) (arg17 : Memref sig .tc .vmem S512x1024 .bf16) (harg17 : arg17.IsWhole) (arg18 : Memref sig .tc .vmem S1x1024 .f32) (harg18 : arg18.IsWhole) (arg19 : Memref sig .tc .vmem S512x512 .bf16) (harg19 : arg19.IsWhole) (arg20 : Memref sig .tc .vmem S512x512 .bf16) (harg20 : arg20.IsWhole) (arg21 : Memref sig .tc .vmem S1x512 .f32) (harg21 : arg21.IsWhole) (arg22 : Memref sig .tc .vmem S512x512 .bf16) (harg22 : arg22.IsWhole) (arg23 : Memref sig .tc .vmem S128x512 .bf16) (harg23 : arg23.IsWhole) (arg24 : Memref sig .tc .vmem S1x512 .f32) (harg24 : arg24.IsWhole) (arg25 : Memref sig .tc .vmem S1x512 .f32) (harg25 : arg25.IsWhole) (arg26 : Memref sig .tc .vmem S1x1 .f32) (harg26 : arg26.IsWhole) (arg27 : Memref sig .tc .vmem S256x1025 .f32) (harg27 : arg27.IsWhole) (x0 : Vec Ideal S256x512 .bf16) (x1 : Vec Ideal S15x256x512 .bf16) (x2 : Vec Ideal S15x256x512 .bf16) (x3 : Vec Ideal S256x128 .bf16) (x4 : Vec Ideal S512x512 .bf16) (x5 : Vec Ideal S512x512 .bf16) (x6 : Vec Ideal S1x512 .f32) (x7 : Vec Ideal S512x512 .bf16) (x8 : Vec Ideal S1x512 .f32) (x9 : Vec Ideal S512x512 .bf16) (x10 : Vec Ideal S512x512 .bf16) (x11 : Vec Ideal S512x512 .bf16) (x12 : Vec Ideal S1x512 .f32) (x13 : Vec Ideal S512x512 .bf16) (x14 : Vec Ideal S128x512 .bf16) (x15 : Vec Ideal S1x512 .f32) (x16 : Vec Ideal S512x1024 .bf16) (x17 : Vec Ideal S1x1024 .f32) (x18 : Vec Ideal S512x512 .bf16) (x19 : Vec Ideal S512x512 .bf16) (x20 : Vec Ideal S1x512 .f32) (x21 : Vec Ideal S512x512 .bf16) (x22 : Vec Ideal S128x512 .bf16) (x23 : Vec Ideal S1x512 .f32) (x24 : Vec Ideal S1x512 .f32) (x25 : Vec Ideal S1x1 .f32) :
    out0_A_26 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24 x25 = fun y => blockRow x0 x1 x2 x3 x4 x5 x6 x7 x8 x9 x10 x11 x12 x13 x14 x15 x16 x17 x18 x19 x20 x21 x22 x23 x24 x25 (y 0) (y 1) := by
  unfold out0_A_26
  rw [View.read_writes_eq_canon _ _ _ (cover0_A_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24 x25)]
  funext y
  refine View.canon_apply_of_pieces (fun y => blockRow x0 x1 x2 x3 x4 x5 x6 x7 x8 x9 x10 x11 x12 x13 x14 x15 x16 x17 x18 x19 x20 x21 x22 x23 x24 x25 (y 0) (y 1)) _ ?_ y (cover0_A_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24 x25 y)
  unfold kernelRun0_A
  dsimp only
  sl_unfold_words
  have hz2 : (![0, 0] : Fin 2 → Nat) = fun _ => 0 := funext fun a => by fin_cases a <;> rfl
  refine List.forall_mem_cons.2 ⟨?_, List.forall_mem_cons.2 ⟨?_, fun _ h => absurd h List.not_mem_nil⟩⟩
  · -- the stop column
    intro x
    obtain ⟨p, q, rfl⟩ : ∃ (p : Fin 256) (q : Fin 1), x = ix2 p q := ⟨x 0, x 1, eq_ix2 x⟩
    obtain rfl : q = 0 := Subsingleton.elim _ _
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S256x128) hz2, View.ld_unit_zero (S := S512x512) hz2, View.ld_unit_zero (S := S1x512) hz2, View.ld_unit_zero (S := S128x512) hz2, View.ld_unit_zero (S := S512x1024) hz2, View.ld_unit_zero (S := S1x1024) hz2, View.ld_unit_zero (S := S1x1) hz2]
    refine (stop_piece x0 x3 x4 x5 x6 x7 x8 x9 x10 x11 x12 x13 x14 x15 x16 x17 x18 x19 x20 x21 x22 x23 x24 x25
      (View.ld x2 (Rect.unit (s := S15x256x512) ![0, 0, 0] S1x256x512.size Facts₀.inb_S15x256x512_S1x256x512_0_0_0))
      (View.ld x2 (Rect.unit (s := S15x256x512) ![1, 0, 0] S1x256x512.size Facts₀.inb_S15x256x512_S1x256x512_1_0_0))
      (View.ld x2 (Rect.unit (s := S15x256x512) ![2, 0, 0] S1x256x512.size Facts₀.inb_S15x256x512_S1x256x512_2_0_0))
      (View.ld x2 (Rect.unit (s := S15x256x512) ![3, 0, 0] S1x256x512.size Facts₀.inb_S15x256x512_S1x256x512_3_0_0))
      (View.ld x2 (Rect.unit (s := S15x256x512) ![4, 0, 0] S1x256x512.size Facts₀.inb_S15x256x512_S1x256x512_4_0_0))
      (View.ld x2 (Rect.unit (s := S15x256x512) ![5, 0, 0] S1x256x512.size Facts₀.inb_S15x256x512_S1x256x512_5_0_0))
      (View.ld x2 (Rect.unit (s := S15x256x512) ![6, 0, 0] S1x256x512.size Facts₀.inb_S15x256x512_S1x256x512_6_0_0))
      (View.ld x2 (Rect.unit (s := S15x256x512) ![7, 0, 0] S1x256x512.size Facts₀.inb_S15x256x512_S1x256x512_7_0_0))
      (View.ld x2 (Rect.unit (s := S15x256x512) ![8, 0, 0] S1x256x512.size Facts₀.inb_S15x256x512_S1x256x512_8_0_0))
      (View.ld x2 (Rect.unit (s := S15x256x512) ![9, 0, 0] S1x256x512.size Facts₀.inb_S15x256x512_S1x256x512_9_0_0))
      (View.ld x2 (Rect.unit (s := S15x256x512) ![10, 0, 0] S1x256x512.size Facts₀.inb_S15x256x512_S1x256x512_10_0_0))
      (View.ld x2 (Rect.unit (s := S15x256x512) ![11, 0, 0] S1x256x512.size Facts₀.inb_S15x256x512_S1x256x512_11_0_0))
      (View.ld x2 (Rect.unit (s := S15x256x512) ![12, 0, 0] S1x256x512.size Facts₀.inb_S15x256x512_S1x256x512_12_0_0))
      (View.ld x2 (Rect.unit (s := S15x256x512) ![13, 0, 0] S1x256x512.size Facts₀.inb_S15x256x512_S1x256x512_13_0_0))
      (View.ld x2 (Rect.unit (s := S15x256x512) ![14, 0, 0] S1x256x512.size Facts₀.inb_S15x256x512_S1x256x512_14_0_0)) p).trans ?_
    rw [slabRows_eq]
    have e0 : ((Rect.unit (s := S256x1025) ![0, 1024] ![256, 1] Gen.inb_S256x1025_S256x1_0_1024).emb (ix2 p (0 : Fin 1)) 0 : Fin 256) = p :=
      Fin.ext (by show 0 + 1 * p.val = p.val; omega)
    have e1 : ((Rect.unit (s := S256x1025) ![0, 1024] ![256, 1] Gen.inb_S256x1025_S256x1_0_1024).emb (ix2 p (0 : Fin 1)) 1 : Fin 1025) = (⟨1024, by omega⟩ : Fin 1025) :=
      Fin.ext (by show 1024 + 1 * 0 = 1024; rfl)
    rw [e0, e1]
    unfold blockRow rowOut
    rw [dif_neg (by simp)]
  · -- the word scores
    intro x
    obtain ⟨p, v, rfl⟩ : ∃ (p : Fin 256) (v : Fin 1024), x = ix2 p v := ⟨x 0, x 1, eq_ix2 x⟩
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S256x128) hz2, View.ld_unit_zero (S := S512x512) hz2, View.ld_unit_zero (S := S1x512) hz2, View.ld_unit_zero (S := S128x512) hz2, View.ld_unit_zero (S := S512x1024) hz2, View.ld_unit_zero (S := S1x1024) hz2, View.ld_unit_zero (S := S1x1) hz2]
    refine (word_piece x0 x3 x4 x5 x6 x7 x8 x9 x10 x11 x12 x13 x14 x15 x16 x17 x18 x19 x20 x21 x22 x23 x24 x25
      (View.ld x1 (Rect.unit (s := S15x256x512) ![0, 0, 0] S1x256x512.size Facts₀.inb_S15x256x512_S1x256x512_0_0_0))
      (View.ld x1 (Rect.unit (s := S15x256x512) ![1, 0, 0] S1x256x512.size Facts₀.inb_S15x256x512_S1x256x512_1_0_0))
      (View.ld x1 (Rect.unit (s := S15x256x512) ![2, 0, 0] S1x256x512.size Facts₀.inb_S15x256x512_S1x256x512_2_0_0))
      (View.ld x1 (Rect.unit (s := S15x256x512) ![3, 0, 0] S1x256x512.size Facts₀.inb_S15x256x512_S1x256x512_3_0_0))
      (View.ld x1 (Rect.unit (s := S15x256x512) ![4, 0, 0] S1x256x512.size Facts₀.inb_S15x256x512_S1x256x512_4_0_0))
      (View.ld x1 (Rect.unit (s := S15x256x512) ![5, 0, 0] S1x256x512.size Facts₀.inb_S15x256x512_S1x256x512_5_0_0))
      (View.ld x1 (Rect.unit (s := S15x256x512) ![6, 0, 0] S1x256x512.size Facts₀.inb_S15x256x512_S1x256x512_6_0_0))
      (View.ld x1 (Rect.unit (s := S15x256x512) ![7, 0, 0] S1x256x512.size Facts₀.inb_S15x256x512_S1x256x512_7_0_0))
      (View.ld x1 (Rect.unit (s := S15x256x512) ![8, 0, 0] S1x256x512.size Facts₀.inb_S15x256x512_S1x256x512_8_0_0))
      (View.ld x1 (Rect.unit (s := S15x256x512) ![9, 0, 0] S1x256x512.size Facts₀.inb_S15x256x512_S1x256x512_9_0_0))
      (View.ld x1 (Rect.unit (s := S15x256x512) ![10, 0, 0] S1x256x512.size Facts₀.inb_S15x256x512_S1x256x512_10_0_0))
      (View.ld x1 (Rect.unit (s := S15x256x512) ![11, 0, 0] S1x256x512.size Facts₀.inb_S15x256x512_S1x256x512_11_0_0))
      (View.ld x1 (Rect.unit (s := S15x256x512) ![12, 0, 0] S1x256x512.size Facts₀.inb_S15x256x512_S1x256x512_12_0_0))
      (View.ld x1 (Rect.unit (s := S15x256x512) ![13, 0, 0] S1x256x512.size Facts₀.inb_S15x256x512_S1x256x512_13_0_0))
      (View.ld x1 (Rect.unit (s := S15x256x512) ![14, 0, 0] S1x256x512.size Facts₀.inb_S15x256x512_S1x256x512_14_0_0)) p v).trans ?_
    rw [slabRows_eq]
    have e0 : ((Rect.unit (s := S256x1025) ![0, 0] ![256, 1024] Gen.inb_S256x1025_S256x1024_0_0).emb (ix2 p v) 0 : Fin 256) = p :=
      Fin.ext (by show 0 + 1 * p.val = p.val; omega)
    have e1 : ((Rect.unit (s := S256x1025) ![0, 0] ![256, 1024] Gen.inb_S256x1025_S256x1024_0_0).emb (ix2 p v) 1 : Fin 1025) = (⟨v.val, by omega⟩ : Fin 1025) :=
      Fin.ext (by show 0 + 1 * v.val = v.val; omega)
    rw [e0, e1]
    unfold blockRow rowOut
    rw [dif_pos v.isLt]

end Cert.TreeGru.KBody

end
-- ==== Proof.KBlocksIdx.lean ====
/-
  The kernel's printed index maps, decided over the 64 grid points: the four row windows move with the output
  window along the node axis, every weight window sits at block (0, 0), and the 64 row blocks are all reached.
-/
import proofs.«136730_j35158602285573_1_alg».proof.Proof.Gen.KernelIdeal.Frame.Runs
import proofs.«136730_j35158602285573_1_alg».proof.Proof.Spec
import Idealize.ShloMosaic.Lib.ValueIdx

set_option maxRecDepth 16384

noncomputable section

namespace Cert.KernelIdeal.RowValue

open Cert.KernelIdeal Cert.KernelIdeal.Gen
open Idealize.ShloMosaic Idealize.ShloMosaic.TcCoe Idealize.SL.Sem
open Idealize.ShloMosaic.ValueIdx Cert.TreeGru

/-! ## The printed index maps, decided over the 64 grid points -/

/-- The row windows move with the output window along the node axis and sit at block 0 on every other axis. -/
theorem idx_facts : ∀ t : Fin cfg0.N,
    win0_0.index t (0 : Fin 2) = win0_26.index t (0 : Fin 2) ∧ win0_0.index t (1 : Fin 2) = 0
    ∧ win0_1.index t (0 : Fin 3) = 0 ∧ win0_1.index t (1 : Fin 3) = win0_26.index t (0 : Fin 2) ∧ win0_1.index t (2 : Fin 3) = 0
    ∧ win0_2.index t (0 : Fin 3) = 0 ∧ win0_2.index t (1 : Fin 3) = win0_26.index t (0 : Fin 2) ∧ win0_2.index t (2 : Fin 3) = 0
    ∧ win0_3.index t (0 : Fin 2) = win0_26.index t (0 : Fin 2) ∧ win0_3.index t (1 : Fin 2) = 0
    ∧ win0_26.index t (1 : Fin 2) = 0 ∧ win0_26.index t (0 : Fin 2) ≤ 63 :=
  (by decide +kernel : ∀ t : Fin grid0.N, _)

/-- Each weight window sits at block (0, 0) at every point. -/
theorem widx4 : ∀ t : Fin cfg0.N, win0_4.index t (0 : Fin 2) = 0 ∧ win0_4.index t (1 : Fin 2) = 0 :=
  (by decide +kernel : ∀ t : Fin grid0.N, _)
theorem widx5 : ∀ t : Fin cfg0.N, win0_5.index t (0 : Fin 2) = 0 ∧ win0_5.index t (1 : Fin 2) = 0 :=
  (by decide +kernel : ∀ t : Fin grid0.N, _)
theorem widx6 : ∀ t : Fin cfg0.N, win0_6.index t (0 : Fin 2) = 0 ∧ win0_6.index t (1 : Fin 2) = 0 :=
  (by decide +kernel : ∀ t : Fin grid0.N, _)
theorem widx7 : ∀ t : Fin cfg0.N, win0_7.index t (0 : Fin 2) = 0 ∧ win0_7.index t (1 : Fin 2) = 0 :=
  (by decide +kernel : ∀ t : Fin grid0.N, _)
theorem widx8 : ∀ t : Fin cfg0.N, win0_8.index t (0 : Fin 2) = 0 ∧ win0_8.index t (1 : Fin 2) = 0 :=
  (by decide +kernel : ∀ t : Fin grid0.N, _)
theorem widx9 : ∀ t : Fin cfg0.N, win0_9.index t (0 : Fin 2) = 0 ∧ win0_9.index t (1 : Fin 2) = 0 :=
  (by decide +kernel : ∀ t : Fin grid0.N, _)
theorem widx10 : ∀ t : Fin cfg0.N, win0_10.index t (0 : Fin 2) = 0 ∧ win0_10.index t (1 : Fin 2) = 0 :=
  (by decide +kernel : ∀ t : Fin grid0.N, _)
theorem widx11 : ∀ t : Fin cfg0.N, win0_11.index t (0 : Fin 2) = 0 ∧ win0_11.index t (1 : Fin 2) = 0 :=
  (by decide +kernel : ∀ t : Fin grid0.N, _)
theorem widx12 : ∀ t : Fin cfg0.N, win0_12.index t (0 : Fin 2) = 0 ∧ win0_12.index t (1 : Fin 2) = 0 :=
  (by decide +kernel : ∀ t : Fin grid0.N, _)
theorem widx13 : ∀ t : Fin cfg0.N, win0_13.index t (0 : Fin 2) = 0 ∧ win0_13.index t (1 : Fin 2) = 0 :=
  (by decide +kernel : ∀ t : Fin grid0.N, _)
theorem widx14 : ∀ t : Fin cfg0.N, win0_14.index t (0 : Fin 2) = 0 ∧ win0_14.index t (1 : Fin 2) = 0 :=
  (by decide +kernel : ∀ t : Fin grid0.N, _)
theorem widx15 : ∀ t : Fin cfg0.N, win0_15.index t (0 : Fin 2) = 0 ∧ win0_15.index t (1 : Fin 2) = 0 :=
  (by decide +kernel : ∀ t : Fin grid0.N, _)
theorem widx16 : ∀ t : Fin cfg0.N, win0_16.index t (0 : Fin 2) = 0 ∧ win0_16.index t (1 : Fin 2) = 0 :=
  (by decide +kernel : ∀ t : Fin grid0.N, _)
theorem widx17 : ∀ t : Fin cfg0.N, win0_17.index t (0 : Fin 2) = 0 ∧ win0_17.index t (1 : Fin 2) = 0 :=
  (by decide +kernel : ∀ t : Fin grid0.N, _)
theorem widx18 : ∀ t : Fin cfg0.N, win0_18.index t (0 : Fin 2) = 0 ∧ win0_18.index t (1 : Fin 2) = 0 :=
  (by decide +kernel : ∀ t : Fin grid0.N, _)
theorem widx19 : ∀ t : Fin cfg0.N, win0_19.index t (0 : Fin 2) = 0 ∧ win0_19.index t (1 : Fin 2) = 0 :=
  (by decide +kernel : ∀ t : Fin grid0.N, _)
theorem widx20 : ∀ t : Fin cfg0.N, win0_20.index t (0 : Fin 2) = 0 ∧ win0_20.index t (1 : Fin 2) = 0 :=
  (by decide +kernel : ∀ t : Fin grid0.N, _)
theorem widx21 : ∀ t : Fin cfg0.N, win0_21.index t (0 : Fin 2) = 0 ∧ win0_21.index t (1 : Fin 2) = 0 :=
  (by decide +kernel : ∀ t : Fin grid0.N, _)
theorem widx22 : ∀ t : Fin cfg0.N, win0_22.index t (0 : Fin 2) = 0 ∧ win0_22.index t (1 : Fin 2) = 0 :=
  (by decide +kernel : ∀ t : Fin grid0.N, _)
theorem widx23 : ∀ t : Fin cfg0.N, win0_23.index t (0 : Fin 2) = 0 ∧ win0_23.index t (1 : Fin 2) = 0 :=
  (by decide +kernel : ∀ t : Fin grid0.N, _)
theorem widx24 : ∀ t : Fin cfg0.N, win0_24.index t (0 : Fin 2) = 0 ∧ win0_24.index t (1 : Fin 2) = 0 :=
  (by decide +kernel : ∀ t : Fin grid0.N, _)
theorem widx25 : ∀ t : Fin cfg0.N, win0_25.index t (0 : Fin 2) = 0 ∧ win0_25.index t (1 : Fin 2) = 0 :=
  (by decide +kernel : ∀ t : Fin grid0.N, _)

/-- Every one of the 64 row blocks is some point's. -/
theorem idx_onto : ∀ q0 : Fin 64, ∃ t : Fin cfg0.N, win0_26.index t = ![q0.val, 0] :=
  (by decide +kernel : ∀ q0 : Fin 64, ∃ t : Fin grid0.N, win0_26.index t = ![q0.val, 0])

end Cert.KernelIdeal.RowValue

end
-- ==== Proof.KBlocksRows.lean ====
/-
  One grid point's four row blocks, read off the arrays the host prepared: they are rows 256 t … 256 t + 255 of the
  embedding rows, of the context rows and of the two message arrays.
-/
import proofs.«136730_j35158602285573_1_alg».proof.Proof.Gen.KernelIdeal.Frame.Runs
import proofs.«136730_j35158602285573_1_alg».proof.Proof.Spec
import Idealize.ShloMosaic.Lib.ValueIdx
import proofs.«136730_j35158602285573_1_alg».proof.Proof.KBlocksIdx

set_option maxRecDepth 16384

noncomputable section

namespace Cert.KernelIdeal.RowValue

open Cert.KernelIdeal Cert.KernelIdeal.Gen
open Idealize.ShloMosaic Idealize.ShloMosaic.TcCoe Idealize.SL.Sem
open Idealize.ShloMosaic.ValueIdx Cert.TreeGru

variable (m : (ℓ : Loc nD τ sig) → Buf (Elt Ideal) ℓ)

/-! ## The point's blocks, read off the arrays the host prepared -/

/-- Row `p` of the point's embedding block is row `n` of the embedding rows, `n` the block's first row plus `p`. -/
theorem blk0 (c : Dev nD) (t : Fin cfg0.N) (p : Fin 256) (h : Fin 512) (n : Fin 16384)
    (hn : n.val = win0_26.index t (0 : Fin 2) * 256 + p.val) :
    (iblk m c 0 t : S256x512.Idx → EReal) (ix2 p h) = (V m c main_v7 : S16384x512.Idx → EReal) (ix2 n h) := by
  obtain ⟨e0, e1, -⟩ := idx_facts t
  have hemb : ((cfg0.win 0).blk t).view.emb (ix2 p h) = (ix2 n h) := by
    funext a; apply Fin.ext
    match a with
    | ⟨0, _⟩ => show win0_0.index t (0 : Fin 2) * 256 + 1 * p.val = n.val; omega
    | ⟨1, _⟩ => show win0_0.index t (1 : Fin 2) * 512 + 1 * h.val = h.val; omega
  show V m c main_v7 (((cfg0.win 0).blk t).view.emb (ix2 p h)) = V m c main_v7 (ix2 n h)
  rw [hemb]

/-- Row `p` of the point's context block. -/
theorem blk3 (c : Dev nD) (t : Fin cfg0.N) (p : Fin 256) (l : Fin 128) (n : Fin 16384)
    (hn : n.val = win0_26.index t (0 : Fin 2) * 256 + p.val) :
    (iblk m c 3 t : S256x128.Idx → EReal) (ix2 p l) = (V m c main_v15 : S16384x128.Idx → EReal) (ix2 n l) := by
  obtain ⟨-, -, -, -, -, -, -, -, e0, e1, -⟩ := idx_facts t
  have hemb : ((cfg0.win 3).blk t).view.emb (ix2 p l) = (ix2 n l) := by
    funext a; apply Fin.ext
    match a with
    | ⟨0, _⟩ => show win0_3.index t (0 : Fin 2) * 256 + 1 * p.val = n.val; omega
    | ⟨1, _⟩ => show win0_3.index t (1 : Fin 2) * 128 + 1 * l.val = l.val; omega
  show V m c main_v15 (((cfg0.win 3).blk t).view.emb (ix2 p l)) = V m c main_v15 (ix2 n l)
  rw [hemb]

/-- Message `k`, row `p` of the point's neighbour-message block. -/
theorem blk1 (c : Dev nD) (t : Fin cfg0.N) (k : Fin 15) (p : Fin 256) (h : Fin 512) (n : Fin 16384)
    (hn : n.val = win0_26.index t (0 : Fin 2) * 256 + p.val) :
    (iblk m c 1 t : S15x256x512.Idx → EReal) (ix3 k p h) = (V m c main_v29 : S15x16384x512.Idx → EReal) (ix3 k n h) := by
  obtain ⟨-, -, e0, e1, e2, -⟩ := idx_facts t
  have hemb : ((cfg0.win 1).blk t).view.emb (ix3 k p h) = (ix3 k n h) := by
    funext a; apply Fin.ext
    match a with
    | ⟨0, _⟩ => show win0_1.index t (0 : Fin 3) * 15 + 1 * k.val = k.val; omega
    | ⟨1, _⟩ => show win0_1.index t (1 : Fin 3) * 256 + 1 * p.val = n.val; omega
    | ⟨2, _⟩ => show win0_1.index t (2 : Fin 3) * 512 + 1 * h.val = h.val; omega
  show V m c main_v29 (((cfg0.win 1).blk t).view.emb (ix3 k p h)) = V m c main_v29 (ix3 k n h)
  rw [hemb]

/-- Message `k`, row `p` of the point's child-message block. -/
theorem blk2 (c : Dev nD) (t : Fin cfg0.N) (k : Fin 15) (p : Fin 256) (h : Fin 512) (n : Fin 16384)
    (hn : n.val = win0_26.index t (0 : Fin 2) * 256 + p.val) :
    (iblk m c 2 t : S15x256x512.Idx → EReal) (ix3 k p h) = (V m c main_v43 : S15x16384x512.Idx → EReal) (ix3 k n h) := by
  obtain ⟨-, -, -, -, -, e0, e1, e2, -⟩ := idx_facts t
  have hemb : ((cfg0.win 2).blk t).view.emb (ix3 k p h) = (ix3 k n h) := by
    funext a; apply Fin.ext
    match a with
    | ⟨0, _⟩ => show win0_2.index t (0 : Fin 3) * 15 + 1 * k.val = k.val; omega
    | ⟨1, _⟩ => show win0_2.index t (1 : Fin 3) * 256 + 1 * p.val = n.val; omega
    | ⟨2, _⟩ => show win0_2.index t (2 : Fin 3) * 512 + 1 * h.val = h.val; omega
  show V m c main_v43 (((cfg0.win 2).blk t).view.emb (ix3 k p h)) = V m c main_v43 (ix3 k n h)
  rw [hemb]

end Cert.KernelIdeal.RowValue

end
-- ==== Proof.KHostWeights.lean ====
/-
  The weight arrays the kernel's program prepares on the host before the call (each matrix sliced into the halves
  that act on the two parts of a concatenated input, transposed to input-major, cast to bf16; each bias reshaped
  to one row), read at an index: they are the specification's weights out of the argument arrays.
-/
import proofs.«136730_j35158602285573_1_alg».proof.Proof.Gen.KernelIdeal.Frame.Runs
import proofs.«136730_j35158602285573_1_alg».proof.Proof.Spec
import Idealize.ShloMosaic.Lib.ValueLayout
import Idealize.ShloMosaic.Lib.StableHlo.Run

noncomputable section

open scoped BigOperators

namespace Cert.TreeGru.Host

open Cert.KernelIdeal Cert.KernelIdeal.Gen Idealize.ShloMosaic Idealize.ShloMosaic.TcCoe Idealize.SL.Sem
open Idealize.ShloMosaic.ValueIdx Cert.TreeGru

variable (m : (ℓ : Loc nD τ sig) → Buf (Elt Ideal) ℓ) (c : Dev nD)

/-- The specification's weights out of this memory's argument arrays. -/
abbrev Wm : Weights := (weightsOf (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)))

/-! ## The host preparations read at an index

A weight matrix is stored output-major, `a (g, k)` multiplying input `k` into output `g`. The host cuts the columns
`o ≤ k < o + w` out of it, transposes the cut to input-major and narrows the format; narrowing is the identity on
extended reals, the transpose swaps the two coordinates, and the cut shifts the column by `o`. -/

/-- The narrowed transpose of the column cut at offset `o` of an `[n, K]` array, read at `(h, g)`, is the array at
    `(g, k)` with `k = o + h`. -/
private theorem cast_transpose_slice_apply {n K w : ℕ} (o : ℕ) (a : FVec Ideal ⟨2, ![n, K]⟩ .f32)
    (hs : (⟨2, ![n, K]⟩ : Shape).Slices ![0, o] ⟨2, ![n, w]⟩)
    (ht : (⟨2, ![n, w]⟩ : Shape).Transposes [1, 0] ⟨2, ![w, n]⟩)
    (hb : FTy.bits .bf16 < FTy.bits .f32) (h : Fin w) (g : Fin n) (k : Fin K) (hk : k.val = o + h.val) :
    (truncf .bf16 (transpose ⟨2, ![w, n]⟩ [1, 0] (extractStridedSlice ⟨2, ![n, w]⟩ ![0, o] a hs) ht) hb
      : FVec Ideal ⟨2, ![w, n]⟩ .bf16) (ix2 h g) = a (ix2 g k) :=
  (truncf_apply _ hb _).trans ((transpose_ix2_apply _ ht h g).trans (slice2_axis1_apply o a hs g h k hk))

/-- The narrowed transpose of a whole `[n, K]` array, read at `(h, g)`, is the array at `(g, h)`. -/
private theorem cast_transpose_apply {n K : ℕ} (a : FVec Ideal ⟨2, ![n, K]⟩ .f32)
    (ht : (⟨2, ![n, K]⟩ : Shape).Transposes [1, 0] ⟨2, ![K, n]⟩)
    (hb : FTy.bits .bf16 < FTy.bits .f32) (h : Fin K) (g : Fin n) :
    (truncf .bf16 (transpose ⟨2, ![K, n]⟩ [1, 0] a ht) hb : FVec Ideal ⟨2, ![K, n]⟩ .bf16) (ix2 h g) = a (ix2 g h) :=
  (truncf_apply _ hb _).trans (transpose_ix2_apply a ht h g)

theorem host_zx (h g : Fin 512) :
    (V m c main_v46 : S512x512.Idx → EReal) (ix2 h g) = (Wm m c).zx h g := by
  have e : (V m c main_v46 : S512x512.Idx → EReal)
      = (truncf (F := Ideal) .bf16 (transpose S512x512 [1, 0] (extractStridedSlice S512x512 ![0, 0]
          (m ((c : Thread nD τ).loc main_arg9) : FVec Ideal S512x1024 .f32)
          slices_S512x1024_S512x512_0_0) transposes_S512x512_S512x512_1_0) bitsLt_bf16_f32 : FVec Ideal S512x512 .bf16) := by
    dsimp only [V, hostOps0]; after_results_simp <;> rfl
  rw [e]
  exact cast_transpose_slice_apply 0 _ _ _ _ h g _ (Nat.zero_add _).symm

theorem host_zh (h g : Fin 512) :
    (V m c main_v49 : S512x512.Idx → EReal) (ix2 h g) = (Wm m c).zh h g := by
  have e : (V m c main_v49 : S512x512.Idx → EReal)
      = (truncf (F := Ideal) .bf16 (transpose S512x512 [1, 0] (extractStridedSlice S512x512 ![0, 512]
          (m ((c : Thread nD τ).loc main_arg9) : FVec Ideal S512x1024 .f32)
          slices_S512x1024_S512x512_0_512) transposes_S512x512_S512x512_1_0) bitsLt_bf16_f32 : FVec Ideal S512x512 .bf16) := by
    dsimp only [V, hostOps0]; after_results_simp <;> rfl
  rw [e]
  exact cast_transpose_slice_apply 512 _ _ _ _ h g _ rfl

theorem host_zb (g : Fin 512) :
    (V m c main_v80 : S1x512.Idx → EReal) (ix2 (0 : Fin 1) g) = (Wm m c).zb g := by
  have e : (V m c main_v80 : S1x512.Idx → EReal)
      = shapeCast S1x512 (m ((c : Thread nD τ).loc main_arg10) : FVec Ideal S512 .f32) shapeCasts_S512_S1x512 := by
    dsimp only [V, hostOps0]; after_results_simp <;> rfl
  rw [e]
  exact shapeCast_a_1a_apply _ _ (0 : Fin 1) g

theorem host_rx (h g : Fin 512) :
    (V m c main_v51 : S512x512.Idx → EReal) (ix2 h g) = (Wm m c).rx h g := by
  have e : (V m c main_v51 : S512x512.Idx → EReal)
      = (truncf (F := Ideal) .bf16 (transpose S512x512 [1, 0]
          (m ((c : Thread nD τ).loc main_arg11) : FVec Ideal S512x512 .f32)
          transposes_S512x512_S512x512_1_0) bitsLt_bf16_f32 : FVec Ideal S512x512 .bf16) := by
    dsimp only [V, hostOps0]; after_results_simp <;> rfl
  rw [e]
  exact cast_transpose_apply _ _ _ h g

theorem host_rb (g : Fin 512) :
    (V m c main_v81 : S1x512.Idx → EReal) (ix2 (0 : Fin 1) g) = (Wm m c).rb g := by
  have e : (V m c main_v81 : S1x512.Idx → EReal)
      = shapeCast S1x512 (m ((c : Thread nD τ).loc main_arg12) : FVec Ideal S512 .f32) shapeCasts_S512_S1x512 := by
    dsimp only [V, hostOps0]; after_results_simp <;> rfl
  rw [e]
  exact shapeCast_a_1a_apply _ _ (0 : Fin 1) g

theorem host_ru (h g : Fin 512) :
    (V m c main_v53 : S512x512.Idx → EReal) (ix2 h g) = (Wm m c).ru h g := by
  have e : (V m c main_v53 : S512x512.Idx → EReal)
      = (truncf (F := Ideal) .bf16 (transpose S512x512 [1, 0]
          (m ((c : Thread nD τ).loc main_arg13) : FVec Ideal S512x512 .f32)
          transposes_S512x512_S512x512_1_0) bitsLt_bf16_f32 : FVec Ideal S512x512 .bf16) := by
    dsimp only [V, hostOps0]; after_results_simp <;> rfl
  rw [e]
  exact cast_transpose_apply _ _ _ h g

theorem host_hx (h g : Fin 512) :
    (V m c main_v56 : S512x512.Idx → EReal) (ix2 h g) = (Wm m c).hx h g := by
  have e : (V m c main_v56 : S512x512.Idx → EReal)
      = (truncf (F := Ideal) .bf16 (transpose S512x512 [1, 0] (extractStridedSlice S512x512 ![0, 0]
          (m ((c : Thread nD τ).loc main_arg14) : FVec Ideal S512x1024 .f32)
          slices_S512x1024_S512x512_0_0) transposes_S512x512_S512x512_1_0) bitsLt_bf16_f32 : FVec Ideal S512x512 .bf16) := by
    dsimp only [V, hostOps0]; after_results_simp <;> rfl
  rw [e]
  exact cast_transpose_slice_apply 0 _ _ _ _ h g _ (Nat.zero_add _).symm

theorem host_hh (h g : Fin 512) :
    (V m c main_v59 : S512x512.Idx → EReal) (ix2 h g) = (Wm m c).hh h g := by
  have e : (V m c main_v59 : S512x512.Idx → EReal)
      = (truncf (F := Ideal) .bf16 (transpose S512x512 [1, 0] (extractStridedSlice S512x512 ![0, 512]
          (m ((c : Thread nD τ).loc main_arg14) : FVec Ideal S512x1024 .f32)
          slices_S512x1024_S512x512_0_512) transposes_S512x512_S512x512_1_0) bitsLt_bf16_f32 : FVec Ideal S512x512 .bf16) := by
    dsimp only [V, hostOps0]; after_results_simp <;> rfl
  rw [e]
  exact cast_transpose_slice_apply 512 _ _ _ _ h g _ rfl

theorem host_hb (g : Fin 512) :
    (V m c main_v82 : S1x512.Idx → EReal) (ix2 (0 : Fin 1) g) = (Wm m c).hb g := by
  have e : (V m c main_v82 : S1x512.Idx → EReal)
      = shapeCast S1x512 (m ((c : Thread nD τ).loc main_arg15) : FVec Ideal S512 .f32) shapeCasts_S512_S1x512 := by
    dsimp only [V, hostOps0]; after_results_simp <;> rfl
  rw [e]
  exact shapeCast_a_1a_apply _ _ (0 : Fin 1) g

theorem host_wh (h g : Fin 512) :
    (V m c main_v62 : S512x512.Idx → EReal) (ix2 h g) = (Wm m c).wh h g := by
  have e : (V m c main_v62 : S512x512.Idx → EReal)
      = (truncf (F := Ideal) .bf16 (transpose S512x512 [1, 0] (extractStridedSlice S512x512 ![0, 0]
          (m ((c : Thread nD τ).loc main_arg16) : FVec Ideal S512x640 .f32)
          slices_S512x640_S512x512_0_0) transposes_S512x512_S512x512_1_0) bitsLt_bf16_f32 : FVec Ideal S512x512 .bf16) := by
    dsimp only [V, hostOps0]; after_results_simp <;> rfl
  rw [e]
  exact cast_transpose_slice_apply 0 _ _ _ _ h g _ (Nat.zero_add _).symm

theorem host_wl (l : Fin 128) (g : Fin 512) :
    (V m c main_v65 : S128x512.Idx → EReal) (ix2 l g) = (Wm m c).wl l g := by
  have e : (V m c main_v65 : S128x512.Idx → EReal)
      = (truncf (F := Ideal) .bf16 (transpose S128x512 [1, 0] (extractStridedSlice S512x128 ![0, 512]
          (m ((c : Thread nD τ).loc main_arg16) : FVec Ideal S512x640 .f32)
          slices_S512x640_S512x128_0_512) transposes_S512x128_S128x512_1_0) bitsLt_bf16_f32 : FVec Ideal S128x512 .bf16) := by
    dsimp only [V, hostOps0]; after_results_simp <;> rfl
  rw [e]
  exact cast_transpose_slice_apply 512 _ _ _ _ l g _ rfl

theorem host_wb (g : Fin 512) :
    (V m c main_v83 : S1x512.Idx → EReal) (ix2 (0 : Fin 1) g) = (Wm m c).wb g := by
  have e : (V m c main_v83 : S1x512.Idx → EReal)
      = shapeCast S1x512 (m ((c : Thread nD τ).loc main_arg17) : FVec Ideal S512 .f32) shapeCasts_S512_S1x512 := by
    dsimp only [V, hostOps0]; after_results_simp <;> rfl
  rw [e]
  exact shapeCast_a_1a_apply _ _ (0 : Fin 1) g

theorem host_ow (g : Fin 512) (v : Fin 1024) :
    (V m c main_v67 : S512x1024.Idx → EReal) (ix2 g v) = (Wm m c).ow g v := by
  have e : (V m c main_v67 : S512x1024.Idx → EReal)
      = (truncf (F := Ideal) .bf16 (transpose S512x1024 [1, 0]
          (m ((c : Thread nD τ).loc main_arg18) : FVec Ideal S1024x512 .f32)
          transposes_S1024x512_S512x1024_1_0) bitsLt_bf16_f32 : FVec Ideal S512x1024 .bf16) := by
    dsimp only [V, hostOps0]; after_results_simp <;> rfl
  rw [e]
  exact cast_transpose_apply _ _ _ g v

theorem host_ob (v : Fin 1024) :
    (V m c main_v84 : S1x1024.Idx → EReal) (ix2 (0 : Fin 1) v) = (Wm m c).ob v := by
  have e : (V m c main_v84 : S1x1024.Idx → EReal)
      = shapeCast S1x1024 (m ((c : Thread nD τ).loc main_arg19) : FVec Ideal S1024 .f32) shapeCasts_S1024_S1x1024 := by
    dsimp only [V, hostOps0]; after_results_simp <;> rfl
  rw [e]
  exact shapeCast_a_1a_apply _ _ (0 : Fin 1) v

theorem host_ix (h g : Fin 512) :
    (V m c main_v70 : S512x512.Idx → EReal) (ix2 h g) = (Wm m c).ix h g := by
  have e : (V m c main_v70 : S512x512.Idx → EReal)
      = (truncf (F := Ideal) .bf16 (transpose S512x512 [1, 0] (extractStridedSlice S512x512 ![0, 0]
          (m ((c : Thread nD τ).loc main_arg20) : FVec Ideal S512x1024 .f32)
          slices_S512x1024_S512x512_0_0) transposes_S512x512_S512x512_1_0) bitsLt_bf16_f32 : FVec Ideal S512x512 .bf16) := by
    dsimp only [V, hostOps0]; after_results_simp <;> rfl
  rw [e]
  exact cast_transpose_slice_apply 0 _ _ _ _ h g _ (Nat.zero_add _).symm

theorem host_io (h g : Fin 512) :
    (V m c main_v73 : S512x512.Idx → EReal) (ix2 h g) = (Wm m c).io h g := by
  have e : (V m c main_v73 : S512x512.Idx → EReal)
      = (truncf (F := Ideal) .bf16 (transpose S512x512 [1, 0] (extractStridedSlice S512x512 ![0, 512]
          (m ((c : Thread nD τ).loc main_arg20) : FVec Ideal S512x1024 .f32)
          slices_S512x1024_S512x512_0_512) transposes_S512x512_S512x512_1_0) bitsLt_bf16_f32 : FVec Ideal S512x512 .bf16) := by
    dsimp only [V, hostOps0]; after_results_simp <;> rfl
  rw [e]
  exact cast_transpose_slice_apply 512 _ _ _ _ h g _ rfl

theorem host_ib (g : Fin 512) :
    (V m c main_v85 : S1x512.Idx → EReal) (ix2 (0 : Fin 1) g) = (Wm m c).ib g := by
  have e : (V m c main_v85 : S1x512.Idx → EReal)
      = shapeCast S1x512 (m ((c : Thread nD τ).loc main_arg21) : FVec Ideal S512 .f32) shapeCasts_S512_S1x512 := by
    dsimp only [V, hostOps0]; after_results_simp <;> rfl
  rw [e]
  exact shapeCast_a_1a_apply _ _ (0 : Fin 1) g

theorem host_uh (h g : Fin 512) :
    (V m c main_v76 : S512x512.Idx → EReal) (ix2 h g) = (Wm m c).uh h g := by
  have e : (V m c main_v76 : S512x512.Idx → EReal)
      = (truncf (F := Ideal) .bf16 (transpose S512x512 [1, 0] (extractStridedSlice S512x512 ![0, 0]
          (m ((c : Thread nD τ).loc main_arg22) : FVec Ideal S512x640 .f32)
          slices_S512x640_S512x512_0_0) transposes_S512x512_S512x512_1_0) bitsLt_bf16_f32 : FVec Ideal S512x512 .bf16) := by
    dsimp only [V, hostOps0]; after_results_simp <;> rfl
  rw [e]
  exact cast_transpose_slice_apply 0 _ _ _ _ h g _ (Nat.zero_add _).symm

theorem host_ul (l : Fin 128) (g : Fin 512) :
    (V m c main_v79 : S128x512.Idx → EReal) (ix2 l g) = (Wm m c).ul l g := by
  have e : (V m c main_v79 : S128x512.Idx → EReal)
      = (truncf (F := Ideal) .bf16 (transpose S128x512 [1, 0] (extractStridedSlice S512x128 ![0, 512]
          (m ((c : Thread nD τ).loc main_arg22) : FVec Ideal S512x640 .f32)
          slices_S512x640_S512x128_0_512) transposes_S512x128_S128x512_1_0) bitsLt_bf16_f32 : FVec Ideal S128x512 .bf16) := by
    dsimp only [V, hostOps0]; after_results_simp <;> rfl
  rw [e]
  exact cast_transpose_slice_apply 512 _ _ _ _ l g _ rfl

theorem host_ub (g : Fin 512) :
    (V m c main_v86 : S1x512.Idx → EReal) (ix2 (0 : Fin 1) g) = (Wm m c).ub g := by
  have e : (V m c main_v86 : S1x512.Idx → EReal)
      = shapeCast S1x512 (m ((c : Thread nD τ).loc main_arg23) : FVec Ideal S512 .f32) shapeCasts_S512_S1x512 := by
    dsimp only [V, hostOps0]; after_results_simp <;> rfl
  rw [e]
  exact shapeCast_a_1a_apply _ _ (0 : Fin 1) g

theorem host_so (g : Fin 512) :
    (V m c main_arg24 : S1x512.Idx → EReal) (ix2 (0 : Fin 1) g) = (Wm m c).so g := by
  have e : (V m c main_arg24 : S1x512.Idx → EReal) = m ((c : Thread nD τ).loc main_arg24) := V_main_arg24 m c
  rw [e]
  rfl

theorem host_sb  :
    (V m c main_v87 : S1x1.Idx → EReal) (ix2 (0 : Fin 1) (0 : Fin 1)) = (Wm m c).sb := by
  have e : (V m c main_v87 : S1x1.Idx → EReal)
      = shapeCast S1x1 (m ((c : Thread nD τ).loc main_arg25) : FVec Ideal S1 .f32) shapeCasts_S1_S1x1 := by
    dsimp only [V, hostOps0]; after_results_simp <;> rfl
  rw [e]
  exact shapeCast_a_1a_apply _ _ (0 : Fin 1) (0 : Fin 1)

end Cert.TreeGru.Host

end
-- ==== Proof.KBlocksW1.lean ====
/-
  A weight window's block is its whole array (windows 4 to 11).
-/
import proofs.«136730_j35158602285573_1_alg».proof.Proof.Gen.KernelIdeal.Frame.Runs
import proofs.«136730_j35158602285573_1_alg».proof.Proof.Spec
import Idealize.ShloMosaic.Lib.ValueIdx
import proofs.«136730_j35158602285573_1_alg».proof.Proof.KBlocksIdx

set_option maxRecDepth 16384

noncomputable section

namespace Cert.KernelIdeal.RowValue

open Cert.KernelIdeal Cert.KernelIdeal.Gen
open Idealize.ShloMosaic Idealize.ShloMosaic.TcCoe Idealize.SL.Sem
open Idealize.ShloMosaic.ValueIdx Cert.TreeGru

variable (m : (ℓ : Loc nD τ sig) → Buf (Elt Ideal) ℓ)

theorem wblk4 (c : Dev nD) (t : Fin cfg0.N) : (iblk m c 4 t : S512x512.Idx → EReal) = (V m c main_v46 : S512x512.Idx → EReal) := by
  obtain ⟨e0, e1⟩ := widx4 t
  funext y
  have hemb : ((cfg0.win 4).blk t).view.emb y = y := by
    funext a; apply Fin.ext
    match a with
    | ⟨0, _⟩ => show win0_4.index t (0 : Fin 2) * 512 + 1 * (y 0).val = (y 0).val; omega
    | ⟨1, _⟩ => show win0_4.index t (1 : Fin 2) * 512 + 1 * (y 1).val = (y 1).val; omega
  show V m c main_v46 (((cfg0.win 4).blk t).view.emb y) = V m c main_v46 y
  rw [hemb]

theorem wblk5 (c : Dev nD) (t : Fin cfg0.N) : (iblk m c 5 t : S512x512.Idx → EReal) = (V m c main_v49 : S512x512.Idx → EReal) := by
  obtain ⟨e0, e1⟩ := widx5 t
  funext y
  have hemb : ((cfg0.win 5).blk t).view.emb y = y := by
    funext a; apply Fin.ext
    match a with
    | ⟨0, _⟩ => show win0_5.index t (0 : Fin 2) * 512 + 1 * (y 0).val = (y 0).val; omega
    | ⟨1, _⟩ => show win0_5.index t (1 : Fin 2) * 512 + 1 * (y 1).val = (y 1).val; omega
  show V m c main_v49 (((cfg0.win 5).blk t).view.emb y) = V m c main_v49 y
  rw [hemb]

theorem wblk6 (c : Dev nD) (t : Fin cfg0.N) : (iblk m c 6 t : S1x512.Idx → EReal) = (V m c main_v80 : S1x512.Idx → EReal) := by
  obtain ⟨e0, e1⟩ := widx6 t
  funext y
  have hemb : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 512 + 1 * (y 1).val = (y 1).val; omega
  show V m c main_v80 (((cfg0.win 6).blk t).view.emb y) = V m c main_v80 y
  rw [hemb]

theorem wblk7 (c : Dev nD) (t : Fin cfg0.N) : (iblk m c 7 t : S512x512.Idx → EReal) = (V m c main_v51 : S512x512.Idx → EReal) := by
  obtain ⟨e0, e1⟩ := widx7 t
  funext y
  have hemb : ((cfg0.win 7).blk t).view.emb y = y := by
    funext a; apply Fin.ext
    match a with
    | ⟨0, _⟩ => show win0_7.index t (0 : Fin 2) * 512 + 1 * (y 0).val = (y 0).val; omega
    | ⟨1, _⟩ => show win0_7.index t (1 : Fin 2) * 512 + 1 * (y 1).val = (y 1).val; omega
  show V m c main_v51 (((cfg0.win 7).blk t).view.emb y) = V m c main_v51 y
  rw [hemb]

theorem wblk8 (c : Dev nD) (t : Fin cfg0.N) : (iblk m c 8 t : S1x512.Idx → EReal) = (V m c main_v81 : S1x512.Idx → EReal) := by
  obtain ⟨e0, e1⟩ := widx8 t
  funext y
  have hemb : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 512 + 1 * (y 1).val = (y 1).val; omega
  show V m c main_v81 (((cfg0.win 8).blk t).view.emb y) = V m c main_v81 y
  rw [hemb]

theorem wblk9 (c : Dev nD) (t : Fin cfg0.N) : (iblk m c 9 t : S512x512.Idx → EReal) = (V m c main_v53 : S512x512.Idx → EReal) := by
  obtain ⟨e0, e1⟩ := widx9 t
  funext y
  have hemb : ((cfg0.win 9).blk t).view.emb y = y := by
    funext a; apply Fin.ext
    match a with
    | ⟨0, _⟩ => show win0_9.index t (0 : Fin 2) * 512 + 1 * (y 0).val = (y 0).val; omega
    | ⟨1, _⟩ => show win0_9.index t (1 : Fin 2) * 512 + 1 * (y 1).val = (y 1).val; omega
  show V m c main_v53 (((cfg0.win 9).blk t).view.emb y) = V m c main_v53 y
  rw [hemb]

theorem wblk10 (c : Dev nD) (t : Fin cfg0.N) : (iblk m c 10 t : S512x512.Idx → EReal) = (V m c main_v56 : S512x512.Idx → EReal) := by
  obtain ⟨e0, e1⟩ := widx10 t
  funext y
  have hemb : ((cfg0.win 10).blk t).view.emb y = y := by
    funext a; apply Fin.ext
    match a with
    | ⟨0, _⟩ => show win0_10.index t (0 : Fin 2) * 512 + 1 * (y 0).val = (y 0).val; omega
    | ⟨1, _⟩ => show win0_10.index t (1 : Fin 2) * 512 + 1 * (y 1).val = (y 1).val; omega
  show V m c main_v56 (((cfg0.win 10).blk t).view.emb y) = V m c main_v56 y
  rw [hemb]

theorem wblk11 (c : Dev nD) (t : Fin cfg0.N) : (iblk m c 11 t : S512x512.Idx → EReal) = (V m c main_v59 : S512x512.Idx → EReal) := by
  obtain ⟨e0, e1⟩ := widx11 t
  funext y
  have hemb : ((cfg0.win 11).blk t).view.emb y = y := by
    funext a; apply Fin.ext
    match a with
    | ⟨0, _⟩ => show win0_11.index t (0 : Fin 2) * 512 + 1 * (y 0).val = (y 0).val; omega
    | ⟨1, _⟩ => show win0_11.index t (1 : Fin 2) * 512 + 1 * (y 1).val = (y 1).val; omega
  show V m c main_v59 (((cfg0.win 11).blk t).view.emb y) = V m c main_v59 y
  rw [hemb]

end Cert.KernelIdeal.RowValue

end
-- ==== Proof.KBlocksW2.lean ====
/-
  A weight window's block is its whole array (windows 12 to 19).
-/
import proofs.«136730_j35158602285573_1_alg».proof.Proof.Gen.KernelIdeal.Frame.Runs
import proofs.«136730_j35158602285573_1_alg».proof.Proof.Spec
import Idealize.ShloMosaic.Lib.ValueIdx
import proofs.«136730_j35158602285573_1_alg».proof.Proof.KBlocksIdx

set_option maxRecDepth 16384

noncomputable section

namespace Cert.KernelIdeal.RowValue

open Cert.KernelIdeal Cert.KernelIdeal.Gen
open Idealize.ShloMosaic Idealize.ShloMosaic.TcCoe Idealize.SL.Sem
open Idealize.ShloMosaic.ValueIdx Cert.TreeGru

variable (m : (ℓ : Loc nD τ sig) → Buf (Elt Ideal) ℓ)

theorem wblk12 (c : Dev nD) (t : Fin cfg0.N) : (iblk m c 12 t : S1x512.Idx → EReal) = (V m c main_v82 : S1x512.Idx → EReal) := by
  obtain ⟨e0, e1⟩ := widx12 t
  funext y
  have hemb : ((cfg0.win 12).blk t).view.emb y = y := by
    funext a; apply Fin.ext
    match a with
    | ⟨0, _⟩ => show win0_12.index t (0 : Fin 2) * 1 + 1 * (y 0).val = (y 0).val; omega
    | ⟨1, _⟩ => show win0_12.index t (1 : Fin 2) * 512 + 1 * (y 1).val = (y 1).val; omega
  show V m c main_v82 (((cfg0.win 12).blk t).view.emb y) = V m c main_v82 y
  rw [hemb]

theorem wblk13 (c : Dev nD) (t : Fin cfg0.N) : (iblk m c 13 t : S512x512.Idx → EReal) = (V m c main_v62 : S512x512.Idx → EReal) := by
  obtain ⟨e0, e1⟩ := widx13 t
  funext y
  have hemb : ((cfg0.win 13).blk t).view.emb y = y := by
    funext a; apply Fin.ext
    match a with
    | ⟨0, _⟩ => show win0_13.index t (0 : Fin 2) * 512 + 1 * (y 0).val = (y 0).val; omega
    | ⟨1, _⟩ => show win0_13.index t (1 : Fin 2) * 512 + 1 * (y 1).val = (y 1).val; omega
  show V m c main_v62 (((cfg0.win 13).blk t).view.emb y) = V m c main_v62 y
  rw [hemb]

theorem wblk14 (c : Dev nD) (t : Fin cfg0.N) : (iblk m c 14 t : S128x512.Idx → EReal) = (V m c main_v65 : S128x512.Idx → EReal) := by
  obtain ⟨e0, e1⟩ := widx14 t
  funext y
  have hemb : ((cfg0.win 14).blk t).view.emb y = y := by
    funext a; apply Fin.ext
    match a with
    | ⟨0, _⟩ => show win0_14.index t (0 : Fin 2) * 128 + 1 * (y 0).val = (y 0).val; omega
    | ⟨1, _⟩ => show win0_14.index t (1 : Fin 2) * 512 + 1 * (y 1).val = (y 1).val; omega
  show V m c main_v65 (((cfg0.win 14).blk t).view.emb y) = V m c main_v65 y
  rw [hemb]

theorem wblk15 (c : Dev nD) (t : Fin cfg0.N) : (iblk m c 15 t : S1x512.Idx → EReal) = (V m c main_v83 : S1x512.Idx → EReal) := by
  obtain ⟨e0, e1⟩ := widx15 t
  funext y
  have hemb : ((cfg0.win 15).blk t).view.emb y = y := by
    funext a; apply Fin.ext
    match a with
    | ⟨0, _⟩ => show win0_15.index t (0 : Fin 2) * 1 + 1 * (y 0).val = (y 0).val; omega
    | ⟨1, _⟩ => show win0_15.index t (1 : Fin 2) * 512 + 1 * (y 1).val = (y 1).val; omega
  show V m c main_v83 (((cfg0.win 15).blk t).view.emb y) = V m c main_v83 y
  rw [hemb]

theorem wblk16 (c : Dev nD) (t : Fin cfg0.N) : (iblk m c 16 t : S512x1024.Idx → EReal) = (V m c main_v67 : S512x1024.Idx → EReal) := by
  obtain ⟨e0, e1⟩ := widx16 t
  funext y
  have hemb : ((cfg0.win 16).blk t).view.emb y = y := by
    funext a; apply Fin.ext
    match a with
    | ⟨0, _⟩ => show win0_16.index t (0 : Fin 2) * 512 + 1 * (y 0).val = (y 0).val; omega
    | ⟨1, _⟩ => show win0_16.index t (1 : Fin 2) * 1024 + 1 * (y 1).val = (y 1).val; omega
  show V m c main_v67 (((cfg0.win 16).blk t).view.emb y) = V m c main_v67 y
  rw [hemb]

theorem wblk17 (c : Dev nD) (t : Fin cfg0.N) : (iblk m c 17 t : S1x1024.Idx → EReal) = (V m c main_v84 : S1x1024.Idx → EReal) := by
  obtain ⟨e0, e1⟩ := widx17 t
  funext y
  have hemb : ((cfg0.win 17).blk t).view.emb y = y := by
    funext a; apply Fin.ext
    match a with
    | ⟨0, _⟩ => show win0_17.index t (0 : Fin 2) * 1 + 1 * (y 0).val = (y 0).val; omega
    | ⟨1, _⟩ => show win0_17.index t (1 : Fin 2) * 1024 + 1 * (y 1).val = (y 1).val; omega
  show V m c main_v84 (((cfg0.win 17).blk t).view.emb y) = V m c main_v84 y
  rw [hemb]

theorem wblk18 (c : Dev nD) (t : Fin cfg0.N) : (iblk m c 18 t : S512x512.Idx → EReal) = (V m c main_v70 : S512x512.Idx → EReal) := by
  obtain ⟨e0, e1⟩ := widx18 t
  funext y
  have hemb : ((cfg0.win 18).blk t).view.emb y = y := by
    funext a; apply Fin.ext
    match a with
    | ⟨0, _⟩ => show win0_18.index t (0 : Fin 2) * 512 + 1 * (y 0).val = (y 0).val; omega
    | ⟨1, _⟩ => show win0_18.index t (1 : Fin 2) * 512 + 1 * (y 1).val = (y 1).val; omega
  show V m c main_v70 (((cfg0.win 18).blk t).view.emb y) = V m c main_v70 y
  rw [hemb]

theorem wblk19 (c : Dev nD) (t : Fin cfg0.N) : (iblk m c 19 t : S512x512.Idx → EReal) = (V m c main_v73 : S512x512.Idx → EReal) := by
  obtain ⟨e0, e1⟩ := widx19 t
  funext y
  have hemb : ((cfg0.win 19).blk t).view.emb y = y := by
    funext a; apply Fin.ext
    match a with
    | ⟨0, _⟩ => show win0_19.index t (0 : Fin 2) * 512 + 1 * (y 0).val = (y 0).val; omega
    | ⟨1, _⟩ => show win0_19.index t (1 : Fin 2) * 512 + 1 * (y 1).val = (y 1).val; omega
  show V m c main_v73 (((cfg0.win 19).blk t).view.emb y) = V m c main_v73 y
  rw [hemb]

end Cert.KernelIdeal.RowValue

end
-- ==== Proof.KBlocksW3.lean ====
/-
  A weight window's block is its whole array (windows 20 to 25).
-/
import proofs.«136730_j35158602285573_1_alg».proof.Proof.Gen.KernelIdeal.Frame.Runs
import proofs.«136730_j35158602285573_1_alg».proof.Proof.Spec
import Idealize.ShloMosaic.Lib.ValueIdx
import proofs.«136730_j35158602285573_1_alg».proof.Proof.KBlocksIdx

set_option maxRecDepth 16384

noncomputable section

namespace Cert.KernelIdeal.RowValue

open Cert.KernelIdeal Cert.KernelIdeal.Gen
open Idealize.ShloMosaic Idealize.ShloMosaic.TcCoe Idealize.SL.Sem
open Idealize.ShloMosaic.ValueIdx Cert.TreeGru

variable (m : (ℓ : Loc nD τ sig) → Buf (Elt Ideal) ℓ)

theorem wblk20 (c : Dev nD) (t : Fin cfg0.N) : (iblk m c 20 t : S1x512.Idx → EReal) = (V m c main_v85 : S1x512.Idx → EReal) := by
  obtain ⟨e0, e1⟩ := widx20 t
  funext y
  have hemb : ((cfg0.win 20).blk t).view.emb y = y := by
    funext a; apply Fin.ext
    match a with
    | ⟨0, _⟩ => show win0_20.index t (0 : Fin 2) * 1 + 1 * (y 0).val = (y 0).val; omega
    | ⟨1, _⟩ => show win0_20.index t (1 : Fin 2) * 512 + 1 * (y 1).val = (y 1).val; omega
  show V m c main_v85 (((cfg0.win 20).blk t).view.emb y) = V m c main_v85 y
  rw [hemb]

theorem wblk21 (c : Dev nD) (t : Fin cfg0.N) : (iblk m c 21 t : S512x512.Idx → EReal) = (V m c main_v76 : S512x512.Idx → EReal) := by
  obtain ⟨e0, e1⟩ := widx21 t
  funext y
  have hemb : ((cfg0.win 21).blk t).view.emb y = y := by
    funext a; apply Fin.ext
    match a with
    | ⟨0, _⟩ => show win0_21.index t (0 : Fin 2) * 512 + 1 * (y 0).val = (y 0).val; omega
    | ⟨1, _⟩ => show win0_21.index t (1 : Fin 2) * 512 + 1 * (y 1).val = (y 1).val; omega
  show V m c main_v76 (((cfg0.win 21).blk t).view.emb y) = V m c main_v76 y
  rw [hemb]

theorem wblk22 (c : Dev nD) (t : Fin cfg0.N) : (iblk m c 22 t : S128x512.Idx → EReal) = (V m c main_v79 : S128x512.Idx → EReal) := by
  obtain ⟨e0, e1⟩ := widx22 t
  funext y
  have hemb : ((cfg0.win 22).blk t).view.emb y = y := by
    funext a; apply Fin.ext
    match a with
    | ⟨0, _⟩ => show win0_22.index t (0 : Fin 2) * 128 + 1 * (y 0).val = (y 0).val; omega
    | ⟨1, _⟩ => show win0_22.index t (1 : Fin 2) * 512 + 1 * (y 1).val = (y 1).val; omega
  show V m c main_v79 (((cfg0.win 22).blk t).view.emb y) = V m c main_v79 y
  rw [hemb]

theorem wblk23 (c : Dev nD) (t : Fin cfg0.N) : (iblk m c 23 t : S1x512.Idx → EReal) = (V m c main_v86 : S1x512.Idx → EReal) := by
  obtain ⟨e0, e1⟩ := widx23 t
  funext y
  have hemb : ((cfg0.win 23).blk t).view.emb y = y := by
    funext a; apply Fin.ext
    match a with
    | ⟨0, _⟩ => show win0_23.index t (0 : Fin 2) * 1 + 1 * (y 0).val = (y 0).val; omega
    | ⟨1, _⟩ => show win0_23.index t (1 : Fin 2) * 512 + 1 * (y 1).val = (y 1).val; omega
  show V m c main_v86 (((cfg0.win 23).blk t).view.emb y) = V m c main_v86 y
  rw [hemb]

theorem wblk24 (c : Dev nD) (t : Fin cfg0.N) : (iblk m c 24 t : S1x512.Idx → EReal) = (V m c main_arg24 : S1x512.Idx → EReal) := by
  obtain ⟨e0, e1⟩ := widx24 t
  funext y
  have hemb : ((cfg0.win 24).blk t).view.emb y = y := by
    funext a; apply Fin.ext
    match a with
    | ⟨0, _⟩ => show win0_24.index t (0 : Fin 2) * 1 + 1 * (y 0).val = (y 0).val; omega
    | ⟨1, _⟩ => show win0_24.index t (1 : Fin 2) * 512 + 1 * (y 1).val = (y 1).val; omega
  show V m c main_arg24 (((cfg0.win 24).blk t).view.emb y) = V m c main_arg24 y
  rw [hemb]

theorem wblk25 (c : Dev nD) (t : Fin cfg0.N) : (iblk m c 25 t : S1x1.Idx → EReal) = (V m c main_v87 : S1x1.Idx → EReal) := by
  obtain ⟨e0, e1⟩ := widx25 t
  funext y
  have hemb : ((cfg0.win 25).blk t).view.emb y = y := by
    funext a; apply Fin.ext
    match a with
    | ⟨0, _⟩ => show win0_25.index t (0 : Fin 2) * 1 + 1 * (y 0).val = (y 0).val; omega
    | ⟨1, _⟩ => show win0_25.index t (1 : Fin 2) * 1 + 1 * (y 1).val = (y 1).val; omega
  show V m c main_v87 (((cfg0.win 25).blk t).view.emb y) = V m c main_v87 y
  rw [hemb]

end Cert.KernelIdeal.RowValue

end
-- ==== Proof.KBlocks.lean ====
/-
  The weights one grid point's blocks hold are the specification's weights out of the argument arrays: each weight
  block is its whole array, and each array the host prepared is the weight the specification reads.
-/
import proofs.«136730_j35158602285573_1_alg».proof.Proof.Gen.KernelIdeal.Frame.Runs
import proofs.«136730_j35158602285573_1_alg».proof.Proof.Spec
import Idealize.ShloMosaic.Lib.ValueIdx
import proofs.«136730_j35158602285573_1_alg».proof.Proof.KBlock
import proofs.«136730_j35158602285573_1_alg».proof.Proof.KHostWeights
import proofs.«136730_j35158602285573_1_alg».proof.Proof.KBlocksW1
import proofs.«136730_j35158602285573_1_alg».proof.Proof.KBlocksW2
import proofs.«136730_j35158602285573_1_alg».proof.Proof.KBlocksW3

set_option maxRecDepth 16384

noncomputable section

namespace Cert.KernelIdeal.RowValue

open Cert.KernelIdeal Cert.KernelIdeal.Gen
open Idealize.ShloMosaic Idealize.ShloMosaic.TcCoe Idealize.SL.Sem
open Idealize.ShloMosaic.ValueIdx Cert.TreeGru Cert.TreeGru.Host

variable (m : (ℓ : Loc nD τ sig) → Buf (Elt Ideal) ℓ)

/-- So the weights the point's blocks hold are the specification's weights out of the argument arrays. -/
theorem blockWeights_eq (c : Dev nD) (t : Fin cfg0.N) :
    blockWeights (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) = weightsOf (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  unfold blockWeights weightsOf
  simp only [Weights.mk.injEq]
  refine ⟨?_, ?_, ?_, ?_, ?_, ?_, ?_, ?_, ?_, ?_, ?_, ?_, ?_, ?_, ?_, ?_, ?_, ?_, ?_, ?_, ?_, ?_⟩
  · funext h g; exact (congrFun (wblk4 m c t) (ix2 h g)).trans (host_zx m c h g)
  · funext h g; exact (congrFun (wblk5 m c t) (ix2 h g)).trans (host_zh m c h g)
  · funext g; exact (congrFun (wblk6 m c t) (ix2 (0 : Fin 1) g)).trans (host_zb m c g)
  · funext h g; exact (congrFun (wblk7 m c t) (ix2 h g)).trans (host_rx m c h g)
  · funext g; exact (congrFun (wblk8 m c t) (ix2 (0 : Fin 1) g)).trans (host_rb m c g)
  · funext h g; exact (congrFun (wblk9 m c t) (ix2 h g)).trans (host_ru m c h g)
  · funext h g; exact (congrFun (wblk10 m c t) (ix2 h g)).trans (host_hx m c h g)
  · funext h g; exact (congrFun (wblk11 m c t) (ix2 h g)).trans (host_hh m c h g)
  · funext g; exact (congrFun (wblk12 m c t) (ix2 (0 : Fin 1) g)).trans (host_hb m c g)
  · funext h g; exact (congrFun (wblk13 m c t) (ix2 h g)).trans (host_wh m c h g)
  · funext l g; exact (congrFun (wblk14 m c t) (ix2 l g)).trans (host_wl m c l g)
  · funext g; exact (congrFun (wblk15 m c t) (ix2 (0 : Fin 1) g)).trans (host_wb m c g)
  · funext g v; exact (congrFun (wblk16 m c t) (ix2 g v)).trans (host_ow m c g v)
  · funext v; exact (congrFun (wblk17 m c t) (ix2 (0 : Fin 1) v)).trans (host_ob m c v)
  · funext h g; exact (congrFun (wblk18 m c t) (ix2 h g)).trans (host_ix m c h g)
  · funext h g; exact (congrFun (wblk19 m c t) (ix2 h g)).trans (host_io m c h g)
  · funext g; exact (congrFun (wblk20 m c t) (ix2 (0 : Fin 1) g)).trans (host_ib m c g)
  · funext h g; exact (congrFun (wblk21 m c t) (ix2 h g)).trans (host_uh m c h g)
  · funext l g; exact (congrFun (wblk22 m c t) (ix2 l g)).trans (host_ul m c l g)
  · funext g; exact (congrFun (wblk23 m c t) (ix2 (0 : Fin 1) g)).trans (host_ub m c g)
  · funext g; exact (congrFun (wblk24 m c t) (ix2 (0 : Fin 1) g)).trans (host_so m c g)
  · exact (congrFun (wblk25 m c t) (ix2 (0 : Fin 1) (0 : Fin 1))).trans (host_sb m c)

end Cert.KernelIdeal.RowValue

end
-- ==== Proof.LibRowTakeScatter.lean ====
/-
  Two host operations over a table of rows, read at an index. jnp's `x[idx]` of a table x : [N, C] at a vector of row
  numbers lowers to a `stablehlo.gather` whose start indices are the [E, 1] column of the row numbers: result row e is
  the table's row idx[e], the row number read signed and clamped into [0, N − 1]. A segment sum of rows upd : [E, C]
  into a table x : [N, C] by row numbers idx : [E, 1] lowers to a `stablehlo.scatter` with an add body: at the ideal
  instance result element (i, f) is x (i, f) plus the sum of upd (e, f) over the rows e whose row number, read signed
  and NOT clamped, is i; a row number outside [0, N) contributes nothing.
-/
import Idealize.ShloMosaic.PureOps.Ideal
import Idealize.ShloMosaic.Lib.ValueIdx

noncomputable section

open scoped BigOperators

namespace Cert.Lib.Rows

open Idealize.ShloMosaic Idealize.ShloMosaic.ValueIdx

/-- The gather's dimension numbers for a table [N, C], start indices [E, 1] and result [E, C]: the row axis collapsed
    and named by the start index, the column axis the one offset axis. -/
abbrev rowTakeDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW TAKE READ AT (e, f): the table at row idx[e, 0], read signed and clamped into [0, N − 1], column f. -/
theorem rowTake_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowTakeDims N E C wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (rowTakeDims N E C wf).start (ix2 e f) idx 0 + (rowTakeDims N E C wf).batchCoord (ix2 e f) 0
      + (rowTakeDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N E C wf).startIndexMap from List.mem_singleton.mpr rfl)]
    have hsi : (rowTakeDims N E C wf).siIdx (ix2 e f) ⟨List.idxOf (0 : Fin 2) (rowTakeDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowTakeDims N E C wf).start (ix2 e f) idx 1 + (rowTakeDims N E C wf).batchCoord (ix2 e f) 1
      + (rowTakeDims N E C wf).offCoord (ix2 e f) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept (rowTakeDims N E C wf) 1).mpr
      ⟨show (1 : Fin 2) ∉ ([0] : List (Fin 2)) by decide, List.not_mem_nil⟩)]
    rfl

/-- The scatter's dimension numbers for a table [N, C], scatter indices [E, 1] and updates [E, C]: the row axis
    inserted and named by the scatter index, the column axis the one window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (f' : Fin C)

/-- On the row axis the window starts at the update row's row number, read signed. -/
theorem rowScatter_start0 :
    (rowScatterDims N E C wf).start (ix2 e f') idx 0 = (idx (ix2 e (0 : Fin 1))).toInt := by
  unfold ScatterDims.start
  rw [dif_pos (show (0 : Fin 2) ∈ ([0] : List (Fin 2)) from List.mem_singleton.mpr rfl)]
  have hsi : (rowScatterDims N E C wf).siIdx (ix2 e f') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The row axis is inserted: its window coordinate is 0. -/
theorem rowScatter_window0 : (rowScatterDims N E C wf).window (ix2 e f') 0 = 0 := by
  unfold ScatterDims.window
  rw [dif_neg]
  show (0 : Fin 2) ∉ (List.finRange 2).filter (· ∉ ([0] : List (Fin 2)))
  decide

/-- The column axis is not named by the scatter index: its start is 0. -/
theorem rowScatter_start1 : (rowScatterDims N E C wf).start (ix2 e f') idx 1 = 0 := by
  unfold ScatterDims.start
  rw [dif_neg (show (1 : Fin 2) ∉ ([0] : List (Fin 2)) by decide)]

/-- The column axis is the one window axis: its window coordinate is the update's column. -/
theorem rowScatter_window1 : (rowScatterDims N E C wf).window (ix2 e f') 1 = f'.val := by
  unfold ScatterDims.window
  have hmem : (1 : Fin 2) ∈ (rowScatterDims N E C wf).sKept :=
    show (1 : Fin 2) ∈ (List.finRange 2).filter (· ∉ ([0] : List (Fin 2))) by decide
  rw [dif_pos hmem]
  rfl

/-- Update (e, f') lands on (i, f) exactly when row e's row number, read signed, is i and f' = f. -/
theorem rowScatter_resultIdx_eq (i : Fin N) (f : Fin C) :
    (rowScatterDims N E C wf).resultIdx? (ix2 e f') idx = some (ix2 i f)
      ↔ (idx (ix2 e (0 : Fin 1))).toInt = (i.val : ℤ) ∧ f' = f := by
  have h0 := rowScatter_start0 wf idx e f'
  have hw0 := rowScatter_window0 wf e f'
  have h1 := rowScatter_start1 wf idx e f'
  have hw1 := rowScatter_window1 wf e f'
  unfold ScatterDims.resultIdx?
  constructor
  · intro h
    split at h
    · rename_i hin
      have hg := Option.some.inj h
      have e0 := congrArg (fun g => (g 0).val) hg
      have e1 := congrArg (fun g => (g 1).val) hg
      simp only [h0, hw0, h1, hw1] at e0 e1
      have hin0 := (hin 0).1
      rw [h0, hw0] at hin0
      refine ⟨?_, Fin.ext ?_⟩
      · have : ((ix2 i f : (⟨2, ![N, C]⟩ : Shape).Idx) 0).val = i.val := rfl
        omega
      · have : ((ix2 i f : (⟨2, ![N, C]⟩ : Shape).Idx) 1).val = f.val := rfl
        omega
    · exact absurd h (by simp)
  · rintro ⟨hi, rfl⟩
    have hin : ∀ a, 0 ≤ (rowScatterDims N E C wf).start (ix2 e f') idx a + ((rowScatterDims N E C wf).window (ix2 e f') a : ℤ)
        ∧ (rowScatterDims N E C wf).start (ix2 e f') idx a + ((rowScatterDims N E C wf).window (ix2 e f') a : ℤ)
          < (⟨2, ![N, C]⟩ : Shape).size a := by
      intro a
      match a with
      | ⟨0, _⟩ =>
        show 0 ≤ (rowScatterDims N E C wf).start (ix2 e f') idx 0 + ((rowScatterDims N E C wf).window (ix2 e f') 0 : ℤ)
          ∧ (rowScatterDims N E C wf).start (ix2 e f') idx 0 + ((rowScatterDims N E C wf).window (ix2 e f') 0 : ℤ) < (N : ℤ)
        rw [h0, hw0, hi]; have := i.isLt; omega
      | ⟨1, _⟩ =>
        show 0 ≤ (rowScatterDims N E C wf).start (ix2 e f') idx 1 + ((rowScatterDims N E C wf).window (ix2 e f') 1 : ℤ)
          ∧ (rowScatterDims N E C wf).start (ix2 e f') idx 1 + ((rowScatterDims N E C wf).window (ix2 e f') 1 : ℤ) < (C : ℤ)
        rw [h1, hw1]; have := f'.isLt; omega
    rw [dif_pos hin]
    congr 1
    funext a
    refine Fin.ext ?_
    match a with
    | ⟨0, _⟩ =>
      show ((rowScatterDims N E C wf).start (ix2 e f') idx 0 + ((rowScatterDims N E C wf).window (ix2 e f') 0 : ℤ)).toNat = i.val
      rw [h0, hw0, hi]; omega
    | ⟨1, _⟩ =>
      show ((rowScatterDims N E C wf).start (ix2 e f') idx 1 + ((rowScatterDims N E C wf).window (ix2 e f') 1 : ℤ)).toNat = f'.val
      rw [h1, hw1]; omega

end Scatter

/-- THE ROW SCATTER-ADD READ AT (i, f), at the ideal instance: the table's element plus the sum of the update rows
    whose row number, read signed, is i. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (f : Fin C) :
    Ideal.hostScatterAdd (rowScatterDims N E C wf) x idx upd (ix2 i f)
      = x (ix2 i f) + ∑ e : Fin E, if (idx (ix2 e (0 : Fin 1))).toInt = (i.val : ℤ) then upd (ix2 e f) else 0 := by
  unfold Ideal.hostScatterAdd
  congr 1
  rw [Finset.sum_filter, sum_idx2]
  refine Finset.sum_congr rfl fun e _ => ?_
  simp only [rowScatter_resultIdx_eq wf idx e _ i f]
  by_cases hi : (idx (ix2 e (0 : Fin 1))).toInt = (i.val : ℤ)
  · simp only [hi, true_and]
    rw [Finset.sum_ite_eq' Finset.univ f (fun f' => upd (ix2 e f'))]
    simp
  · simp only [hi, false_and, if_false, Finset.sum_const_zero]

end Cert.Lib.Rows

end
-- ==== Proof.LibRowTake3.lean ====
/-
  jnp's `x[idx]` of a table x : [N, C] at a MATRIX of row numbers idx : [A, B] lowers to a `stablehlo.gather` whose
  start indices are the [A, B, 1] array of the row numbers: result row (a, b) is the table's row idx[a, b], the row
  number read signed and clamped into [0, N − 1]. General in N, A, B, C and the index width.
-/
import Idealize.ShloMosaic.PureOps.Ideal
import Idealize.ShloMosaic.Lib.ValueIdx

noncomputable section

namespace Cert.Lib.Rows3

open Idealize.ShloMosaic Idealize.ShloMosaic.ValueIdx

/-- The gather's dimension numbers for a table [N, C], start indices [A, B, 1] and result [A, B, C]: the row axis
    collapsed and named by the start index, the column axis the one offset axis. -/
abbrev rowTake3Dims (N A B C : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- THE ROW TAKE BY A MATRIX OF ROW NUMBERS READ AT (a, b, f): the table at row idx[a, b, 0], read signed and clamped
    into [0, N − 1], column f. -/
theorem rowTake3_apply {α : Type} {N A B C w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (f : Fin C) :
    Host.gather (rowTake3Dims N A B C wf) x idx (ix3 a b f)
      = x (ix2 ⟨min (idx (ix3 a b (0 : Fin 1))).toInt.toNat (N - 1), by omega⟩ f) := by
  -- the gather reads the table at its operand index: compare the two table indices axis by axis
  unfold Host.gather
  congr 1
  funext c
  refine Fin.ext ?_
  match c with
  | ⟨0, _⟩ =>
    -- the row axis is collapsed and not batching: only the clamped start index is left
    show (rowTake3Dims N A B C wf).start (ix3 a b f) idx 0 + (rowTake3Dims N A B C wf).batchCoord (ix3 a b f) 0
      + (rowTake3Dims N A B C wf).offCoord (ix3 a b f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake3Dims N A B C wf).startIndexMap from List.mem_singleton.mpr rfl)]
    -- the start index of result (a, b, f) is read at (a, b, 0): the two batch coordinates, and component 0 on the
    -- index vector's axis
    have hsi : (rowTake3Dims N A B C wf).siIdx (ix3 a b f) ⟨List.idxOf (0 : Fin 2) (rowTake3Dims N A B C wf).startIndexMap,
        List.idxOf_lt_length_iff.2 (List.mem_singleton.mpr rfl)⟩ = ix3 a b (0 : Fin 1) := by
      funext e; refine Fin.ext ?_
      match e with
      | ⟨0, _⟩ => rfl
      | ⟨1, _⟩ => rfl
      | ⟨2, _⟩ => rfl
    rw [hsi]
    rfl
  | ⟨1, _⟩ =>
    -- the column axis is not named by the start index and not batching: only the offset coordinate f is left
    show (rowTake3Dims N A B C wf).start (ix3 a b f) idx 1 + (rowTake3Dims N A B C wf).batchCoord (ix3 a b f) 1
      + (rowTake3Dims N A B C wf).offCoord (ix3 a b f) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept (rowTake3Dims N A B C wf) 1).mpr
      ⟨show (1 : Fin 2) ∉ ([0] : List (Fin 2)) by decide, List.not_mem_nil⟩)]
    rfl

end Cert.Lib.Rows3

end
-- ==== Proof.KHostRows.lean ====
/-
  The four row arrays the kernel's program prepares on the host before the call, read at an index: the embedding
  rows, the context rows, and the masked neighbour and child messages (stored message-major, [15, 16384, 512]) are
  the rows the specification takes out of the argument arrays.
-/
import proofs.«136730_j35158602285573_1_alg».proof.Proof.Gen.KernelIdeal.Frame.Runs
import proofs.«136730_j35158602285573_1_alg».proof.Proof.Spec
import proofs.«136730_j35158602285573_1_alg».proof.Proof.LibRowTakeScatter
import proofs.«136730_j35158602285573_1_alg».proof.Proof.LibRowTake3
import Idealize.ShloMosaic.Lib.StableHlo.Run
import Idealize.ShloMosaic.Lib.ValueLayout
import Idealize.ShloMosaic.Lib.IdealHost
import Idealize.ShloMosaic.Lib.Pipeline.Value

noncomputable section

open scoped BigOperators

namespace Cert.TreeGru.Host

open Cert.KernelIdeal Cert.KernelIdeal.Gen Idealize.ShloMosaic Idealize.ShloMosaic.TcCoe Idealize.SL.Sem
open Idealize.ShloMosaic.ValueIdx Cert.TreeGru
open Idealize.ShloMosaic.StableHlo

variable (m : (ℓ : Loc nD τ sig) → Buf (Elt Ideal) ℓ) (c : Dev nD)

/-- The row number array of a take from a table of `K` rows, read at (n, 0): node n's row number, a negative one counted
    from the end of the table. -/
theorem idx_row (K : BitVec 32) (ids : IVec S16384 32) (n : Fin 16384) :
    (broadcastInDim S16384x1 ![0] bcast_S16384_S16384x1_0
          (select (cmpi .slt ids (broadcastInDim S16384 ![] bcast_S_S16384 (constantI S_ 32 0#32)))
            (addi ids (broadcastInDim S16384 ![] bcast_S_S16384 (constantI S_ 32 K)))
            ids)) (ix2 n (0 : Fin 1))
      = Scalar.select (IntOp.cmpi .slt (ids (ix1 n)) 0#32) (IntOp.addi (ids (ix1 n)) K) (ids (ix1 n)) := by
  -- the broadcast along the unit axis reads entry n; the comparison, sum and choice are pointwise
  refine (broadcastInDim_apply _ _ _ _ (ix1 n) (fun a => ?_)).trans rfl
  match a with
  | ⟨0, _⟩ => rfl

/-- The row number array of a message take, read at (k, n, 0): the row numbers are transposed first, so this is entry
    (n, k) of the argument, a negative one counted from the end of the 65536-row table. -/
theorem idx_msg (ids : IVec S16384x15 32) (k : Fin 15) (n : Fin 16384) :
    (broadcastInDim S15x16384x1 ![0, 1] bcast_S15x16384_S15x16384x1_0_1
          (select (cmpi .slt (transpose S15x16384 [1, 0] ids transposes_S16384x15_S15x16384_1_0) (broadcastInDim S15x16384 ![] bcast_S_S15x16384 (constantI S_ 32 0#32)))
            (addi (transpose S15x16384 [1, 0] ids transposes_S16384x15_S15x16384_1_0) (broadcastInDim S15x16384 ![] bcast_S_S15x16384 (constantI S_ 32 65536#32)))
            (transpose S15x16384 [1, 0] ids transposes_S16384x15_S15x16384_1_0))) (ix3 k n (0 : Fin 1))
      = Scalar.select (IntOp.cmpi .slt (ids (ix2 n k)) 0#32) (IntOp.addi (ids (ix2 n k)) (BitVec.ofNat 32 65536)) (ids (ix2 n k)) := by
  have ht : (transpose S15x16384 [1, 0] ids transposes_S16384x15_S15x16384_1_0) (ix2 k n) = ids (ix2 n k) := transpose_ix2_apply ids _ k n
  refine (broadcastInDim_apply _ _ _ _ (ix2 k n) (fun a => ?_)).trans ?_
  · match a with
    | ⟨0, _⟩ => rfl
    | ⟨1, _⟩ => rfl
  · show Scalar.select (IntOp.cmpi .slt ((transpose S15x16384 [1, 0] ids transposes_S16384x15_S15x16384_1_0) (ix2 k n)) 0#32)
        (IntOp.addi ((transpose S15x16384 [1, 0] ids transposes_S16384x15_S15x16384_1_0) (ix2 k n)) (BitVec.ofNat 32 65536)) ((transpose S15x16384 [1, 0] ids transposes_S16384x15_S15x16384_1_0) (ix2 k n)) = _
    rw [ht]

/-- The mask factor, read at (k, n, h): entry (n, k) of the mask argument as a number, whatever the column h. -/
theorem mask_msg (mask : IVec S16384x15 32) (k : Fin 15) (n : Fin 16384) (h : Fin 512) :
    ((broadcastInDim S15x16384x512 ![0, 1, 2] bcast_S15x16384x1_S15x16384x512_0_1_2
          (broadcastInDim S15x16384x1 ![0, 1] bcast_S15x16384_S15x16384x1_0_1
            (sitofp .f32 (transpose S15x16384 [1, 0] mask transposes_S16384x15_S15x16384_1_0)))) : FVec Ideal S15x16384x512 .f32) (ix3 k n h)
      = (((mask (ix2 n k)).toInt : ℝ) : EReal) := by
  have ht : (transpose S15x16384 [1, 0] mask transposes_S16384x15_S15x16384_1_0) (ix2 k n) = mask (ix2 n k) := transpose_ix2_apply mask _ k n
  -- the two broadcasts read the unit column, then drop it
  refine (broadcastInDim_apply _ _ _ _ (ix3 k n (0 : Fin 1)) (fun a => ?_)).trans ?_
  · match a with
    | ⟨0, _⟩ => rfl
    | ⟨1, _⟩ => rfl
    | ⟨2, _⟩ => rfl
  refine (broadcastInDim_apply _ _ _ _ (ix2 k n) (fun a => ?_)).trans ?_
  · match a with
    | ⟨0, _⟩ => rfl
    | ⟨1, _⟩ => rfl
  show (FloatOps.sitofp .f32 ((transpose S15x16384 [1, 0] mask transposes_S16384x15_S15x16384_1_0) (ix2 k n)) : Ideal .f32) = _
  rw [ht]
  rfl

set_option maxHeartbeats 4000000 in  -- the host list is some hundred operations long
/-- The embedding row of node `n` (the host's cast to bf16 is the identity on the extended reals). -/
theorem host_x (n : Fin 16384) (h : Fin 512) :
    (V m c main_v7 : S16384x512.Idx → EReal) (ix2 n h) = takeRow (by decide) (m ((c : Thread nD τ).loc main_arg0)) (m ((c : Thread nD τ).loc main_arg8)) n h := by
  -- the array as the host operations' term of the argument arrays
  have e : @Eq (FVec Ideal S16384x512 .bf16) (V m c main_v7)
      (truncf .bf16 (Host.gather gather_S1024x512_S16384x1_S16384x512_1_0_n_n_0_1_1512 (m ((c : Thread nD τ).loc main_arg8))
        (broadcastInDim S16384x1 ![0] bcast_S16384_S16384x1_0
          (select (cmpi .slt (m ((c : Thread nD τ).loc main_arg0)) (broadcastInDim S16384 ![] bcast_S_S16384 (constantI S_ 32 0#32)))
            (addi (m ((c : Thread nD τ).loc main_arg0)) (broadcastInDim S16384 ![] bcast_S_S16384 (constantI S_ 32 1024#32)))
            (m ((c : Thread nD τ).loc main_arg0))))) bitsLt_bf16_f32) := by
    dsimp only [V, hostOps0]; after_results_simp
  refine (congrFun e (ix2 n h)).trans ?_
  -- the cast is the identity; the gather reads the table's row at the clamped row number
  refine (Cert.Lib.Rows.rowTake_apply (N := 1024) (E := 16384) (C := 512) (by decide)
    gather_S1024x512_S16384x1_S16384x512_1_0_n_n_0_1_1512_wf (m ((c : Thread nD τ).loc main_arg8)) _ n h).trans ?_
  refine congrArg (m ((c : Thread nD τ).loc main_arg8)) (congrArg (fun r => ix2 r h) (Fin.ext ?_))
  show min (_ : BitVec 32).toInt.toNat (1024 - 1) = _
  rw [idx_row]
  rfl

set_option maxHeartbeats 4000000 in  -- the host list is some hundred operations long
/-- The context row of node `n`. -/
theorem host_ctx (n : Fin 16384) (l : Fin 128) :
    (V m c main_v15 : S16384x128.Idx → EReal) (ix2 n l) = takeRow (by decide) (m ((c : Thread nD τ).loc main_arg1)) (m ((c : Thread nD τ).loc main_arg7)) n l := by
  -- the array as the host operations' term of the argument arrays
  have e : @Eq (FVec Ideal S16384x128 .bf16) (V m c main_v15)
      (truncf .bf16 (Host.gather gather_S256x128_S16384x1_S16384x128_1_0_n_n_0_1_1128 (m ((c : Thread nD τ).loc main_arg7))
        (broadcastInDim S16384x1 ![0] bcast_S16384_S16384x1_0
          (select (cmpi .slt (m ((c : Thread nD τ).loc main_arg1)) (broadcastInDim S16384 ![] bcast_S_S16384 (constantI S_ 32 0#32)))
            (addi (m ((c : Thread nD τ).loc main_arg1)) (broadcastInDim S16384 ![] bcast_S_S16384 (constantI S_ 32 256#32)))
            (m ((c : Thread nD τ).loc main_arg1))))) bitsLt_bf16_f32) := by
    dsimp only [V, hostOps0]; after_results_simp
  refine (congrFun e (ix2 n l)).trans ?_
  -- the cast is the identity; the gather reads the table's row at the clamped row number
  refine (Cert.Lib.Rows.rowTake_apply (N := 256) (E := 16384) (C := 128) (by decide)
    gather_S256x128_S16384x1_S16384x128_1_0_n_n_0_1_1128_wf (m ((c : Thread nD τ).loc main_arg7)) _ n l).trans ?_
  refine congrArg (m ((c : Thread nD τ).loc main_arg7)) (congrArg (fun r => ix2 r l) (Fin.ext ?_))
  show min (_ : BitVec 32).toInt.toNat (256 - 1) = _
  rw [idx_row]
  rfl

set_option maxHeartbeats 4000000 in  -- the host list is some hundred operations long
/-- Masked neighbour message `k` of node `n`: the host gathers by the TRANSPOSED row numbers, so the array is message-major. -/
theorem host_hn (k : Fin 15) (n : Fin 16384) (h : Fin 512) :
    (V m c main_v29 : S15x16384x512.Idx → EReal) (ix3 k n h) = maskedRows (m ((c : Thread nD τ).loc main_arg2)) (m ((c : Thread nD τ).loc main_arg3)) (m ((c : Thread nD τ).loc main_arg6)) n k h := by
  -- the array as the host operations' term of the argument arrays
  have e : @Eq (FVec Ideal S15x16384x512 .bf16) (V m c main_v29)
      (truncf .bf16 (mulf
        (Host.gather gather_S65536x512_S15x16384x1_S15x16384x512_2_0_n_n_0_2_1512 (m ((c : Thread nD τ).loc main_arg6))
          (broadcastInDim S15x16384x1 ![0, 1] bcast_S15x16384_S15x16384x1_0_1
          (select (cmpi .slt (transpose S15x16384 [1, 0] (m ((c : Thread nD τ).loc main_arg2)) transposes_S16384x15_S15x16384_1_0) (broadcastInDim S15x16384 ![] bcast_S_S15x16384 (constantI S_ 32 0#32)))
            (addi (transpose S15x16384 [1, 0] (m ((c : Thread nD τ).loc main_arg2)) transposes_S16384x15_S15x16384_1_0) (broadcastInDim S15x16384 ![] bcast_S_S15x16384 (constantI S_ 32 65536#32)))
            (transpose S15x16384 [1, 0] (m ((c : Thread nD τ).loc main_arg2)) transposes_S16384x15_S15x16384_1_0))))
        (broadcastInDim S15x16384x512 ![0, 1, 2] bcast_S15x16384x1_S15x16384x512_0_1_2
          (broadcastInDim S15x16384x1 ![0, 1] bcast_S15x16384_S15x16384x1_0_1
            (sitofp .f32 (transpose S15x16384 [1, 0] (m ((c : Thread nD τ).loc main_arg3)) transposes_S16384x15_S15x16384_1_0))))) bitsLt_bf16_f32) := by
    dsimp only [V, hostOps0]; after_results_simp
  refine (congrFun e (ix3 k n h)).trans ?_
  -- the cast is the identity and the product is pointwise: the gathered row's entry times the mask factor
  rw [truncf_apply, mulf_apply, mask_msg]
  unfold maskedRows
  congr 1
  -- the gather reads the table's row at the clamped row number
  refine (Cert.Lib.Rows3.rowTake3_apply (N := 65536) (A := 15) (B := 16384) (C := 512) (by decide)
    gather_S65536x512_S15x16384x1_S15x16384x512_2_0_n_n_0_2_1512_wf (m ((c : Thread nD τ).loc main_arg6)) _ k n h).trans ?_
  refine congrArg (m ((c : Thread nD τ).loc main_arg6)) (congrArg (fun r => ix2 r h) (Fin.ext ?_))
  show min (_ : BitVec 32).toInt.toNat (65536 - 1) = _
  rw [idx_msg]
  rfl

set_option maxHeartbeats 4000000 in  -- the host list is some hundred operations long
/-- Masked child message `k` of node `n`. -/
theorem host_on (k : Fin 15) (n : Fin 16384) (h : Fin 512) :
    (V m c main_v43 : S15x16384x512.Idx → EReal) (ix3 k n h) = maskedRows (m ((c : Thread nD τ).loc main_arg4)) (m ((c : Thread nD τ).loc main_arg5)) (m ((c : Thread nD τ).loc main_arg6)) n k h := by
  -- the array as the host operations' term of the argument arrays
  have e : @Eq (FVec Ideal S15x16384x512 .bf16) (V m c main_v43)
      (truncf .bf16 (mulf
        (Host.gather gather_S65536x512_S15x16384x1_S15x16384x512_2_0_n_n_0_2_1512 (m ((c : Thread nD τ).loc main_arg6))
          (broadcastInDim S15x16384x1 ![0, 1] bcast_S15x16384_S15x16384x1_0_1
          (select (cmpi .slt (transpose S15x16384 [1, 0] (m ((c : Thread nD τ).loc main_arg4)) transposes_S16384x15_S15x16384_1_0) (broadcastInDim S15x16384 ![] bcast_S_S15x16384 (constantI S_ 32 0#32)))
            (addi (transpose S15x16384 [1, 0] (m ((c : Thread nD τ).loc main_arg4)) transposes_S16384x15_S15x16384_1_0) (broadcastInDim S15x16384 ![] bcast_S_S15x16384 (constantI S_ 32 65536#32)))
            (transpose S15x16384 [1, 0] (m ((c : Thread nD τ).loc main_arg4)) transposes_S16384x15_S15x16384_1_0))))
        (broadcastInDim S15x16384x512 ![0, 1, 2] bcast_S15x16384x1_S15x16384x512_0_1_2
          (broadcastInDim S15x16384x1 ![0, 1] bcast_S15x16384_S15x16384x1_0_1
            (sitofp .f32 (transpose S15x16384 [1, 0] (m ((c : Thread nD τ).loc main_arg5)) transposes_S16384x15_S15x16384_1_0))))) bitsLt_bf16_f32) := by
    dsimp only [V, hostOps0]; after_results_simp
  refine (congrFun e (ix3 k n h)).trans ?_
  -- the cast is the identity and the product is pointwise: the gathered row's entry times the mask factor
  rw [truncf_apply, mulf_apply, mask_msg]
  unfold maskedRows
  congr 1
  -- the gather reads the table's row at the clamped row number
  refine (Cert.Lib.Rows3.rowTake3_apply (N := 65536) (A := 15) (B := 16384) (C := 512) (by decide)
    gather_S65536x512_S15x16384x1_S15x16384x512_2_0_n_n_0_2_1512_wf (m ((c : Thread nD τ).loc main_arg6)) _ k n h).trans ?_
  refine congrArg (m ((c : Thread nD τ).loc main_arg6)) (congrArg (fun r => ix2 r h) (Fin.ext ?_))
  show min (_ : BitVec 32).toInt.toNat (65536 - 1) = _
  rw [idx_msg]
  rfl

end Cert.TreeGru.Host

end
-- ==== Proof.KFinal.lean ====
/-
  The kernel's result array after the run: every grid point writes back the 256 rows of its block, each row the row
  function of the node's gathered inputs (the point's input blocks are rows 256 t … 256 t + 255 of the arrays the
  host prepared, its weight blocks the whole weight arrays), the 64 blocks tile the [16384, 1025] array, so the array
  ends as the specification's result of the argument arrays.
-/
import proofs.«136730_j35158602285573_1_alg».proof.Proof.KernelIdealValue
import proofs.«136730_j35158602285573_1_alg».proof.Proof.KPieces
import proofs.«136730_j35158602285573_1_alg».proof.Proof.KBlocksRows
import proofs.«136730_j35158602285573_1_alg».proof.Proof.KBlocks
import proofs.«136730_j35158602285573_1_alg».proof.Proof.KHostRows

set_option maxRecDepth 16384

noncomputable section

namespace Cert.KernelIdeal.RowValue

open Cert.KernelIdeal Cert.KernelIdeal.Gen Cert.KernelIdeal.GenP Cert.KernelIdeal.Value
open Idealize.ShloMosaic Idealize.ShloMosaic.TcCoe Idealize.SL.Sem
open Idealize.ShloMosaic.Pipeline (Dat)
open Idealize.ShloMosaic.ValueIdx Cert.TreeGru Cert.TreeGru.KBody Cert.TreeGru.Host

variable (m : (ℓ : Loc nD τ sig) → Buf (Elt Ideal) ℓ) (ρ : Dev nD → PrngReg)

/-- The specification's result out of this memory's argument arrays, as an array. -/
def resultArr (c : Dev nD) : S16384x1025.Idx → EReal := fun i =>
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (i 0) (i 1)

/-! ## What a point writes back, and the whole array -/

/-- WHAT POINT `t` WRITES BACK is block `t` of the specification's result. -/
theorem flushed_eq (c : Dev nD) (t : Fin cfg0.N) :
    (dats m 0 c).flushed 26 t = ((cfg0.win 26).blk t).view.read (Elt Ideal) (resultArr m c) := by
  rw [flushed26_A]
  obtain ⟨-, -, -, -, -, -, -, -, -, -, e1, e0⟩ := idx_facts t
  funext j
  show out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) j = resultArr m c (((cfg0.win 26).blk t).view.emb j)
  refine (congrFun (out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) j).trans ?_
  have hn : (((cfg0.win 26).blk t).view.emb j 0).val = win0_26.index t (0 : Fin 2) * 256 + (j 0).val := by
    show win0_26.index t (0 : Fin 2) * 256 + 1 * (j 0).val = _; omega
  have hj : ((cfg0.win 26).blk t).view.emb j 1 = j 1 := by
    apply Fin.ext; show win0_26.index t (1 : Fin 2) * 1025 + 1 * (j 1).val = (j 1).val; omega
  show blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (j 0) (j 1) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (((cfg0.win 26).blk t).view.emb j 0) (((cfg0.win 26).blk t).view.emb j 1)
  rw [hj]
  generalize ((cfg0.win 26).blk t).view.emb j 0 = n at hn
  unfold blockRow result
  rw [blockWeights_eq m c t]
  have hx : (fun h => (iblk m c 0 t : S256x512.Idx → EReal) (ix2 (j 0) h)) = takeRow (by decide) (m ((c : Thread nD τ).loc main_arg0)) (m ((c : Thread nD τ).loc main_arg8)) n :=
    funext fun h => (blk0 m c t (j 0) h n hn).trans (host_x m c n h)
  have hc : (fun l => (iblk m c 3 t : S256x128.Idx → EReal) (ix2 (j 0) l)) = takeRow (by decide) (m ((c : Thread nD τ).loc main_arg1)) (m ((c : Thread nD τ).loc main_arg7)) n :=
    funext fun l => (blk3 m c t (j 0) l n hn).trans (host_ctx m c n l)
  have hh : (fun k h => (iblk m c 1 t : S15x256x512.Idx → EReal) (ix3 k (j 0) h)) = maskedRows (m ((c : Thread nD τ).loc main_arg2)) (m ((c : Thread nD τ).loc main_arg3)) (m ((c : Thread nD τ).loc main_arg6)) n :=
    funext fun k => funext fun h => (blk1 m c t k (j 0) h n hn).trans (host_hn m c k n h)
  have ho : (fun k h => (iblk m c 2 t : S15x256x512.Idx → EReal) (ix3 k (j 0) h)) = maskedRows (m ((c : Thread nD τ).loc main_arg4)) (m ((c : Thread nD τ).loc main_arg5)) (m ((c : Thread nD τ).loc main_arg6)) n :=
    funext fun k => funext fun h => (blk2 m c t k (j 0) h n hn).trans (host_on m c k n h)
  rw [hx, hc, hh, ho]

/-- An index of the array is in point `t`'s block iff each coordinate is in the block's range on its axis. -/
theorem mem_blk (t : Fin cfg0.N) (i : S16384x1025.Idx) :
    i ∈ ((cfg0.win 26).blk t).view.set ↔ ∀ a : Fin 2, win0_26.index t a * S256x1025.size a ≤ (i a).val ∧ (i a).val < win0_26.index t a * S256x1025.size a + S256x1025.size a := by
  show i ∈ ((View.whole main_v88).slice (win0_26.rect t)).set ↔ _
  rw [View.set_slice_whole, Rect.mem_set_unit]
  exact Iff.rfl

/-- Every index of the array is in some point's block: the 64 blocks of 256 rows tile the 16384 rows. -/
theorem covered (i : S16384x1025.Idx) :
    ∃ t : Fin cfg0.N, (cfg0.win 26).flush t = true ∧ i ∈ ((cfg0.win 26).blk t).view.set := by
  have hi0 : (i 0).val < 16384 := (i 0).isLt
  have hi1 : (i 1).val < 1025 := (i 1).isLt
  obtain ⟨t, ht⟩ := idx_onto ⟨(i 0).val / 256, by omega⟩
  have q0 : win0_26.index t (0 : Fin 2) = (i 0).val / 256 := congrFun ht 0
  have q1 : win0_26.index t (1 : Fin 2) = 0 := congrFun ht 1
  refine ⟨t, flush0_26 t, ?_⟩
  rw [mem_blk]
  intro a
  match a with
  | ⟨0, _⟩ => show win0_26.index t (0 : Fin 2) * 256 ≤ (i 0).val ∧ (i 0).val < win0_26.index t (0 : Fin 2) * 256 + 256; omega
  | ⟨1, _⟩ => show win0_26.index t (1 : Fin 2) * 1025 ≤ (i 1).val ∧ (i 1).val < win0_26.index t (1 : Fin 2) * 1025 + 1025; omega

/-- THE ARRAY after the run is the specification's result of the argument arrays. -/
theorem final (c : Dev nD) : (dats m 0 c).arrAt 26 cfg0.N = resultArr m c :=
  (dats m 0 c).arrAt_eq_of_cover 26 (resultArr m c) (fun t _ => flushed_eq m c t) (covered)

/-- The kernel's run: it terminates with its result at the specification's result and its arguments unchanged. -/
theorem run : θ_run defs (onTc (τ := τ) (main (F := Ideal))) ⟨m, fun _ => 0, ρ⟩ fun r => ∀ c : Dev nD,
      r.2.mem ((c : Thread nD τ).loc main_v88) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨(post26 m r h c).trans (final m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c⟩)
    (run_main m ρ)

end Cert.KernelIdeal.RowValue

end
-- ==== Proof.RefRows.lean ====
/-
  The reference's four gathered inputs, read at an index: the embedding row, the context row, the masked neighbour
  messages and the masked child messages of node `n` are the rows the specification takes out of the argument arrays.
-/
import proofs.«136730_j35158602285573_1_alg».proof.Proof.Gen.ReferenceIdeal.Read
import proofs.«136730_j35158602285573_1_alg».proof.Proof.Spec
import proofs.«136730_j35158602285573_1_alg».proof.Proof.LibRowTakeScatter
import proofs.«136730_j35158602285573_1_alg».proof.Proof.LibRowTake3

noncomputable section

open scoped BigOperators

namespace Cert.TreeGru.Ref

open Cert.ReferenceIdeal Cert.ReferenceIdeal.Read Idealize.ShloMosaic Idealize.ShloMosaic.ValueIdx Cert.TreeGru

variable (x0 x1 : (⟨S16384, .i32⟩ : BufTy).Contents (Elt Ideal)) (x2 x3 x4 x5 : (⟨S16384x15, .i32⟩ : BufTy).Contents (Elt Ideal))
  (x6 : (⟨S65536x512, .f32⟩ : BufTy).Contents (Elt Ideal)) (x7 : (⟨S256x128, .f32⟩ : BufTy).Contents (Elt Ideal)) (x8 : (⟨S1024x512, .f32⟩ : BufTy).Contents (Elt Ideal))
  (x9 : (⟨S512x1024, .f32⟩ : BufTy).Contents (Elt Ideal)) (x10 : (⟨S512, .f32⟩ : BufTy).Contents (Elt Ideal)) (x11 : (⟨S512x512, .f32⟩ : BufTy).Contents (Elt Ideal)) (x12 : (⟨S512, .f32⟩ : BufTy).Contents (Elt Ideal))
  (x13 : (⟨S512x512, .f32⟩ : BufTy).Contents (Elt Ideal)) (x14 : (⟨S512x1024, .f32⟩ : BufTy).Contents (Elt Ideal)) (x15 : (⟨S512, .f32⟩ : BufTy).Contents (Elt Ideal))
  (x16 : (⟨S512x640, .f32⟩ : BufTy).Contents (Elt Ideal)) (x17 : (⟨S512, .f32⟩ : BufTy).Contents (Elt Ideal)) (x18 : (⟨S1024x512, .f32⟩ : BufTy).Contents (Elt Ideal)) (x19 : (⟨S1024, .f32⟩ : BufTy).Contents (Elt Ideal))
  (x20 : (⟨S512x1024, .f32⟩ : BufTy).Contents (Elt Ideal)) (x21 : (⟨S512, .f32⟩ : BufTy).Contents (Elt Ideal)) (x22 : (⟨S512x640, .f32⟩ : BufTy).Contents (Elt Ideal)) (x23 : (⟨S512, .f32⟩ : BufTy).Contents (Elt Ideal))
  (x24 : (⟨S1x512, .f32⟩ : BufTy).Contents (Elt Ideal)) (x25 : (⟨S1, .f32⟩ : BufTy).Contents (Elt Ideal))

/-! ## The printed dimension numbers are the general row takes' -/

/-- The embedding gather's dimension numbers are a row take of a [1024, 512] table by 16384 row numbers. -/
theorem dims_x : gather_S1024x512_S16384x1_S16384x512_1_0_n_n_0_1_1512
    = Cert.Lib.Rows.rowTakeDims 1024 16384 512 Facts₀.gather_S1024x512_S16384x1_S16384x512_1_0_n_n_0_1_1512_wf := rfl

/-- The context gather's dimension numbers are a row take of a [256, 128] table by 16384 row numbers. -/
theorem dims_ctx : gather_S256x128_S16384x1_S16384x128_1_0_n_n_0_1_1128
    = Cert.Lib.Rows.rowTakeDims 256 16384 128 Facts₀.gather_S256x128_S16384x1_S16384x128_1_0_n_n_0_1_1128_wf := rfl

/-- The message gathers' dimension numbers are a row take of a [65536, 512] table by a [16384, 15] matrix of row
    numbers. -/
theorem dims_rows : gather_S65536x512_S16384x15x1_S16384x15x512_2_0_n_n_0_2_1512
    = Cert.Lib.Rows3.rowTake3Dims 65536 16384 15 512 Facts₀.gather_S65536x512_S16384x15x1_S16384x15x512_2_0_n_n_0_2_1512_wf := rfl

/-! ## The row numbers the gathers are given: a negative one counts from the table's end -/

/-- The embedding gather's start index of node `n`. -/
theorem word_x (n : Fin 16384) :
    val_main_v5 (F := Ideal) x0 (ix2 n (0 : Fin 1))
      = Scalar.select (IntOp.cmpi .slt (x0 (ix1 n)) 0#32) (IntOp.addi (x0 (ix1 n)) (BitVec.ofNat 32 1024)) (x0 (ix1 n)) := by
  rw [val_main_v5_apply]
  have hi : idx_main_v5 (ix2 n (0 : Fin 1)) = ix1 n := by
    funext a; match a with | ⟨0, _⟩ => rfl
  rw [hi, val_main_v4_apply, val_main_v1_apply, val_main_v3_apply, val_main_v0_apply, val_main_v2_apply,
    val_main_c_apply, val_main_c_0_apply]

/-- The context gather's start index of node `n`. -/
theorem word_ctx (n : Fin 16384) :
    val_main_v77 (F := Ideal) x1 (ix2 n (0 : Fin 1))
      = Scalar.select (IntOp.cmpi .slt (x1 (ix1 n)) 0#32) (IntOp.addi (x1 (ix1 n)) (BitVec.ofNat 32 256)) (x1 (ix1 n)) := by
  rw [val_main_v77_apply]
  have hi : idx_main_v77 (ix2 n (0 : Fin 1)) = ix1 n := by
    funext a; match a with | ⟨0, _⟩ => rfl
  rw [hi, val_main_v76_apply, val_main_v73_apply, val_main_v75_apply, val_main_v72_apply, val_main_v74_apply,
    val_main_c_12_apply, val_main_c_13_apply]

/-- The neighbour gather's start index of message `(n, k)`. -/
theorem word_hn (n : Fin 16384) (k : Fin 15) :
    val_main_v12 (F := Ideal) x2 (ix3 n k (0 : Fin 1))
      = Scalar.select (IntOp.cmpi .slt (x2 (ix2 n k)) 0#32) (IntOp.addi (x2 (ix2 n k)) (BitVec.ofNat 32 65536)) (x2 (ix2 n k)) := by
  rw [val_main_v12_apply]
  have hi : idx_main_v12 (ix3 n k (0 : Fin 1)) = ix2 n k := by
    funext a; match a with | ⟨0, _⟩ => rfl | ⟨1, _⟩ => rfl
  rw [hi, val_main_v11_apply, val_main_v8_apply, val_main_v10_apply, val_main_v7_apply, val_main_v9_apply,
    val_main_c_1_apply, val_main_c_2_apply]

/-- The child gather's start index of message `(n, k)`. -/
theorem word_on (n : Fin 16384) (k : Fin 15) :
    val_main_v23 (F := Ideal) x4 (ix3 n k (0 : Fin 1))
      = Scalar.select (IntOp.cmpi .slt (x4 (ix2 n k)) 0#32) (IntOp.addi (x4 (ix2 n k)) (BitVec.ofNat 32 65536)) (x4 (ix2 n k)) := by
  rw [val_main_v23_apply]
  have hi : idx_main_v23 (ix3 n k (0 : Fin 1)) = ix2 n k := by
    funext a; match a with | ⟨0, _⟩ => rfl | ⟨1, _⟩ => rfl
  rw [hi, val_main_v22_apply, val_main_v19_apply, val_main_v21_apply, val_main_v18_apply, val_main_v20_apply,
    val_main_c_3_apply, val_main_c_4_apply]

/-! ## The masks, read as numbers and spread along the row -/

/-- The neighbour mask at `(n, k, h)` is the mask entry `(n, k)` read signed. -/
theorem mask_hn (n : Fin 16384) (k : Fin 15) (h : Fin 512) :
    val_main_v16 (F := Ideal) x3 (ix3 n k h) = ((((x3 (ix2 n k) : BitVec 32)).toInt : ℝ) : EReal) := by
  rw [val_main_v16_apply, val_main_v15_apply, val_main_v14_apply]
  have hi : idx_main_v14 (idx_main_v16 (ix3 n k h)) = ix2 n k := by
    funext a; match a with | ⟨0, _⟩ => rfl | ⟨1, _⟩ => rfl
  rw [hi]
  rfl

/-- The child mask at `(n, k, h)` is the mask entry `(n, k)` read signed. -/
theorem mask_on (n : Fin 16384) (k : Fin 15) (h : Fin 512) :
    val_main_v27 (F := Ideal) x5 (ix3 n k h) = ((((x5 (ix2 n k) : BitVec 32)).toInt : ℝ) : EReal) := by
  rw [val_main_v27_apply, val_main_v26_apply, val_main_v25_apply]
  have hi : idx_main_v25 (idx_main_v27 (ix3 n k h)) = ix2 n k := by
    funext a; match a with | ⟨0, _⟩ => rfl | ⟨1, _⟩ => rfl
  rw [hi]
  rfl

/-! ## The gathered message rows -/

/-- The neighbour gather at `(n, k, h)`: the message table's row that `x2 (n, k)` names. -/
theorem rows_hn (n : Fin 16384) (k : Fin 15) (h : Fin 512) :
    val_main_v13 (F := Ideal) x2 x6 (ix3 n k h) = x6 (ix2 (rowOf 65536 (by decide) (x2 (ix2 n k))) h) := by
  unfold val_main_v13
  rw [dims_rows]
  refine (Cert.Lib.Rows3.rowTake3_apply (by decide) _ x6 (val_main_v12 (F := Ideal) x2) n k h).trans ?_
  refine congrArg (fun r : Fin 65536 => x6 (ix2 r h)) (Fin.ext ?_)
  show min (val_main_v12 (F := Ideal) x2 (ix3 n k (0 : Fin 1))).toInt.toNat (65536 - 1) = _
  rw [word_hn x2 n k]
  rfl

/-- The child gather at `(n, k, h)`: the message table's row that `x4 (n, k)` names. -/
theorem rows_on (n : Fin 16384) (k : Fin 15) (h : Fin 512) :
    val_main_v24 (F := Ideal) x4 x6 (ix3 n k h) = x6 (ix2 (rowOf 65536 (by decide) (x4 (ix2 n k))) h) := by
  unfold val_main_v24
  rw [dims_rows]
  refine (Cert.Lib.Rows3.rowTake3_apply (by decide) _ x6 (val_main_v23 (F := Ideal) x4) n k h).trans ?_
  refine congrArg (fun r : Fin 65536 => x6 (ix2 r h)) (Fin.ext ?_)
  show min (val_main_v23 (F := Ideal) x4 (ix3 n k (0 : Fin 1))).toInt.toNat (65536 - 1) = _
  rw [word_on x4 n k]
  rfl

/-! ## The four inputs -/

/-- The embedding row of node `n`. -/
theorem ref_x (n : Fin 16384) (h : Fin 512) :
    val_main_v6 (F := Ideal) x0 x8 (ix2 n h) = takeRow (by decide) x0 x8 n h := by
  unfold val_main_v6 takeRow
  rw [dims_x]
  refine (Cert.Lib.Rows.rowTake_apply (by decide) _ x8 (val_main_v5 (F := Ideal) x0) n h).trans ?_
  refine congrArg (fun r : Fin 1024 => x8 (ix2 r h)) (Fin.ext ?_)
  show min (val_main_v5 (F := Ideal) x0 (ix2 n (0 : Fin 1))).toInt.toNat (1024 - 1) = _
  rw [word_x x0 n]
  rfl

/-- The context row of node `n`. -/
theorem ref_ctx (n : Fin 16384) (l : Fin 128) :
    val_main_v78 (F := Ideal) x1 x7 (ix2 n l) = takeRow (by decide) x1 x7 n l := by
  unfold val_main_v78 takeRow
  rw [dims_ctx]
  refine (Cert.Lib.Rows.rowTake_apply (by decide) _ x7 (val_main_v77 (F := Ideal) x1) n l).trans ?_
  refine congrArg (fun r : Fin 256 => x7 (ix2 r l)) (Fin.ext ?_)
  show min (val_main_v77 (F := Ideal) x1 (ix2 n (0 : Fin 1))).toInt.toNat (256 - 1) = _
  rw [word_ctx x1 n]
  rfl

/-- The masked neighbour messages of node `n`. -/
theorem ref_hn (n : Fin 16384) (k : Fin 15) (h : Fin 512) :
    val_main_v17 (F := Ideal) x2 x3 x6 (ix3 n k h) = maskedRows x2 x3 x6 n k h := by
  unfold val_main_v17 maskedRows
  refine (mulf_apply (val_main_v13 (F := Ideal) x2 x6) (val_main_v16 (F := Ideal) x3) (ix3 n k h)).trans ?_
  rw [rows_hn x2 x6 n k h, mask_hn x3 n k h]

/-- The masked child messages of node `n`. -/
theorem ref_on (n : Fin 16384) (k : Fin 15) (h : Fin 512) :
    val_main_v28 (F := Ideal) x4 x5 x6 (ix3 n k h) = maskedRows x4 x5 x6 n k h := by
  unfold val_main_v28 maskedRows
  refine (mulf_apply (val_main_v24 (F := Ideal) x4 x6) (val_main_v27 (F := Ideal) x5) (ix3 n k h)).trans ?_
  rw [rows_on x4 x6 n k h, mask_on x5 n k h]

end Cert.TreeGru.Ref

end
-- ==== Proof.LibRowConcat.lean ====
/-
  Two arrays of rows laid side by side: the concatenation of x : [N, A] and y : [N, B] along the column axis, read at
  an index, and a sum over the A + B joined columns split into the sum over the first A and the sum over the last B.
  General in N, A, B.
-/
import Idealize.ShloMosaic.PureOps.Ideal
import Idealize.ShloMosaic.Lib.ValueIdx
import Idealize.ShloMosaic.Lib.Pipeline.Value

noncomputable section

open scoped BigOperators

namespace Cert.Lib.RowConcat

open Idealize.ShloMosaic Idealize.ShloMosaic.ValueIdx

/-- A column of the joined array below A is the first array's. -/
theorem rowConcat_left {α : Type} {N A B : Nat} (x : (⟨2, ![N, A]⟩ : Shape).Idx → α) (y : (⟨2, ![N, B]⟩ : Shape).Idx → α)
    (h : Shape.Concatenates [⟨2, ![N, A]⟩, ⟨2, ![N, B]⟩] ⟨2, ![N, A + B]⟩ 1) (n : Fin N) (j : Fin A) :
    concatenate (⟨2, ![N, A + B]⟩ : Shape) 1 [⟨⟨2, ![N, A]⟩, x⟩, ⟨⟨2, ![N, B]⟩, y⟩] h (ix2 n (⟨j.val, by omega⟩ : Fin (A + B)))
      = x (ix2 n j) := by
  -- off the joined axis the coordinates agree, and on it the joined column j is the first piece's column j
  exact concatenate_pair_apply_left (t := ⟨2, ![N, A + B]⟩) (s₁ := ⟨2, ![N, A]⟩) (s₂ := ⟨2, ![N, B]⟩) (1 : Fin 2) x y h _ rfl
    (ix2 n j) (by
      intro b
      match b with
      | ⟨0, _⟩ => rfl
      | ⟨1, _⟩ => rfl)

/-- A column of the joined array from A on is the second array's, A less. -/
theorem rowConcat_right {α : Type} {N A B : Nat} (x : (⟨2, ![N, A]⟩ : Shape).Idx → α) (y : (⟨2, ![N, B]⟩ : Shape).Idx → α)
    (h : Shape.Concatenates [⟨2, ![N, A]⟩, ⟨2, ![N, B]⟩] ⟨2, ![N, A + B]⟩ 1) (n : Fin N) (j : Fin B) :
    concatenate (⟨2, ![N, A + B]⟩ : Shape) 1 [⟨⟨2, ![N, A]⟩, x⟩, ⟨⟨2, ![N, B]⟩, y⟩] h (ix2 n (⟨A + j.val, by omega⟩ : Fin (A + B)))
      = y (ix2 n j) := by
  -- off the joined axis the coordinates agree, and on it the joined column A + j is the second piece's column j
  exact concatenate_pair_apply_right (t := ⟨2, ![N, A + B]⟩) (s₁ := ⟨2, ![N, A]⟩) (s₂ := ⟨2, ![N, B]⟩) (1 : Fin 2) x y h _ rfl rfl
    (ix2 n j) (by
      intro b hb
      match b with
      | ⟨0, _⟩ => rfl
      | ⟨1, _⟩ => exact absurd rfl hb)
    (by show j.val + A = A + j.val; omega)

/-- A sum over A + B columns is the sum over the first A plus the sum over the last B. -/
theorem sum_split {M : Type} [AddCommMonoid M] (A B : Nat) (f : Fin (A + B) → M) :
    ∑ j, f j = (∑ a : Fin A, f ⟨a.val, by omega⟩) + ∑ b : Fin B, f ⟨A + b.val, by omega⟩ := by
  rw [Fin.sum_univ_add]
  rfl

end Cert.Lib.RowConcat

end
-- ==== Proof.RefGru.lean ====
/-
  The reference's GRU stages read at an index of row `n`: the summed messages, the reset gates, the gated sum, the
  update gate, the candidate and the new message are the specification's row functions of node `n`'s gathered rows.
-/
import proofs.«136730_j35158602285573_1_alg».proof.Proof.Gen.ReferenceIdeal.Read
import proofs.«136730_j35158602285573_1_alg».proof.Proof.Spec
import proofs.«136730_j35158602285573_1_alg».proof.Proof.RefRows
import proofs.«136730_j35158602285573_1_alg».proof.Proof.LibRowConcat
import Idealize.ShloMosaic.Lib.IdealHost
import Idealize.ShloMosaic.PureOps.Ideal.Laws

noncomputable section

open scoped BigOperators

namespace Cert.TreeGru.Ref

open Cert.ReferenceIdeal Cert.ReferenceIdeal.Read Idealize.ShloMosaic Idealize.ShloMosaic.ValueIdx Cert.TreeGru

variable (x0 x1 : (⟨S16384, .i32⟩ : BufTy).Contents (Elt Ideal)) (x2 x3 x4 x5 : (⟨S16384x15, .i32⟩ : BufTy).Contents (Elt Ideal))
  (x6 : (⟨S65536x512, .f32⟩ : BufTy).Contents (Elt Ideal)) (x7 : (⟨S256x128, .f32⟩ : BufTy).Contents (Elt Ideal)) (x8 : (⟨S1024x512, .f32⟩ : BufTy).Contents (Elt Ideal))
  (x9 : (⟨S512x1024, .f32⟩ : BufTy).Contents (Elt Ideal)) (x10 : (⟨S512, .f32⟩ : BufTy).Contents (Elt Ideal)) (x11 : (⟨S512x512, .f32⟩ : BufTy).Contents (Elt Ideal)) (x12 : (⟨S512, .f32⟩ : BufTy).Contents (Elt Ideal))
  (x13 : (⟨S512x512, .f32⟩ : BufTy).Contents (Elt Ideal)) (x14 : (⟨S512x1024, .f32⟩ : BufTy).Contents (Elt Ideal)) (x15 : (⟨S512, .f32⟩ : BufTy).Contents (Elt Ideal))
  (x16 : (⟨S512x640, .f32⟩ : BufTy).Contents (Elt Ideal)) (x17 : (⟨S512, .f32⟩ : BufTy).Contents (Elt Ideal)) (x18 : (⟨S1024x512, .f32⟩ : BufTy).Contents (Elt Ideal)) (x19 : (⟨S1024, .f32⟩ : BufTy).Contents (Elt Ideal))
  (x20 : (⟨S512x1024, .f32⟩ : BufTy).Contents (Elt Ideal)) (x21 : (⟨S512, .f32⟩ : BufTy).Contents (Elt Ideal)) (x22 : (⟨S512x640, .f32⟩ : BufTy).Contents (Elt Ideal)) (x23 : (⟨S512, .f32⟩ : BufTy).Contents (Elt Ideal))
  (x24 : (⟨S1x512, .f32⟩ : BufTy).Contents (Elt Ideal)) (x25 : (⟨S1, .f32⟩ : BufTy).Contents (Elt Ideal))

/-- The weights the reference's argument arrays hold. -/
abbrev W : Weights := weightsOf x9 x10 x11 x12 x13 x14 x15 x16 x17 x18 x19 x20 x21 x22 x23 x24 x25

/-! ## Small facts the stages below use -/

theorem gru_add_congr {a b c d : EReal} (h₁ : a = c) (h₂ : b = d) : a + b = c + d := by rw [h₁, h₂]
theorem gru_mul_congr {a b c d : EReal} (h₁ : a = c) (h₂ : b = d) : a * b = c * d := by rw [h₁, h₂]

/-- `1 / (1 + e^(-y))`, spelt with the f32 pattern of 1.0 and the host's negate, exponential, add and divide, is
    the logistic function of `y`. -/
theorem gru_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
      = Ideal.logistic y := by
  simp only [Ideal.hostDivf_def, Ideal.ofBits_def, Ideal.addf_def, Ideal.hostUnary_exp_def, Ideal.hostNegf_def, Ideal.negf_def]
  rw [Ideal.ofBits_one_f32]
  rfl

/-- The +0.0 a float sum starts from is the number 0. -/
theorem gru_zero : FloatOps.ofBits (F := Ideal) .f32 0x00000000#32 = (0 : EReal) := by
  rw [Ideal.ofBits_def, Ideal.ofBits_zero_f32]

/-- A column below 512 of two 512-wide arrays laid side by side is the first array's. -/
theorem gru_concat_left (u v : (⟨S16384x512, .f32⟩ : BufTy).Contents (Elt Ideal)) (n : Fin 16384) (a : Fin 512) :
    concatenate S16384x1024 1 [⟨S16384x512, u⟩, ⟨S16384x512, v⟩] Gen.concatenates_S16384x512_S16384x512_S16384x1024_d1
        (ix2 n (⟨a.val, by omega⟩ : Fin 1024)) = u (ix2 n a) :=
  Cert.Lib.RowConcat.rowConcat_left (N := 16384) (A := 512) (B := 512) u v Gen.concatenates_S16384x512_S16384x512_S16384x1024_d1 n a

/-- A column from 512 on is the second array's, 512 less. -/
theorem gru_concat_right (u v : (⟨S16384x512, .f32⟩ : BufTy).Contents (Elt Ideal)) (n : Fin 16384) (b : Fin 512) :
    concatenate S16384x1024 1 [⟨S16384x512, u⟩, ⟨S16384x512, v⟩] Gen.concatenates_S16384x512_S16384x512_S16384x1024_d1
        (ix2 n (⟨512 + b.val, by omega⟩ : Fin 1024)) = v (ix2 n b) :=
  Cert.Lib.RowConcat.rowConcat_right (N := 16384) (A := 512) (B := 512) u v Gen.concatenates_S16384x512_S16384x512_S16384x1024_d1 n b

/-- A sum over 1024 columns is the sum over the first 512 plus the sum over the last 512. -/
theorem gru_split1024 (f : Fin 1024 → EReal) :
    ∑ j, f j = (∑ a : Fin 512, f ⟨a.val, by omega⟩) + ∑ b : Fin 512, f ⟨512 + b.val, by omega⟩ :=
  Cert.Lib.RowConcat.sum_split 512 512 f

/-! ## The weights' fields, entry by entry -/

theorem gru_W_zx (h g : Fin 512) : (W x9 x10 x11 x12 x13 x14 x15 x16 x17 x18 x19 x20 x21 x22 x23 x24 x25).zx h g = x9 (ix2 g (⟨h.val, by omega⟩ : Fin 1024)) := rfl
theorem gru_W_zh (h g : Fin 512) : (W x9 x10 x11 x12 x13 x14 x15 x16 x17 x18 x19 x20 x21 x22 x23 x24 x25).zh h g = x9 (ix2 g (⟨512 + h.val, by omega⟩ : Fin 1024)) := rfl
theorem gru_W_zb (g : Fin 512) : (W x9 x10 x11 x12 x13 x14 x15 x16 x17 x18 x19 x20 x21 x22 x23 x24 x25).zb g = x10 (ix1 g) := rfl
theorem gru_W_rx (h g : Fin 512) : (W x9 x10 x11 x12 x13 x14 x15 x16 x17 x18 x19 x20 x21 x22 x23 x24 x25).rx h g = x11 (ix2 g h) := rfl
theorem gru_W_rb (g : Fin 512) : (W x9 x10 x11 x12 x13 x14 x15 x16 x17 x18 x19 x20 x21 x22 x23 x24 x25).rb g = x12 (ix1 g) := rfl
theorem gru_W_ru (h g : Fin 512) : (W x9 x10 x11 x12 x13 x14 x15 x16 x17 x18 x19 x20 x21 x22 x23 x24 x25).ru h g = x13 (ix2 g h) := rfl
theorem gru_W_hx (h g : Fin 512) : (W x9 x10 x11 x12 x13 x14 x15 x16 x17 x18 x19 x20 x21 x22 x23 x24 x25).hx h g = x14 (ix2 g (⟨h.val, by omega⟩ : Fin 1024)) := rfl
theorem gru_W_hh (h g : Fin 512) : (W x9 x10 x11 x12 x13 x14 x15 x16 x17 x18 x19 x20 x21 x22 x23 x24 x25).hh h g = x14 (ix2 g (⟨512 + h.val, by omega⟩ : Fin 1024)) := rfl
theorem gru_W_hb (g : Fin 512) : (W x9 x10 x11 x12 x13 x14 x15 x16 x17 x18 x19 x20 x21 x22 x23 x24 x25).hb g = x15 (ix1 g) := rfl

/-! ## The two joined arrays read at a column -/

theorem gru_v30_left (n : Fin 16384) (a : Fin 512) :
    val_main_v30 (F := Ideal) x0 x2 x3 x6 x8 (ix2 n (⟨a.val, by omega⟩ : Fin 1024)) = val_main_v6 (F := Ideal) x0 x8 (ix2 n a) := by
  unfold val_main_v30
  exact gru_concat_left _ _ n a

theorem gru_v30_right (n : Fin 16384) (b : Fin 512) :
    val_main_v30 (F := Ideal) x0 x2 x3 x6 x8 (ix2 n (⟨512 + b.val, by omega⟩ : Fin 1024)) = val_main_v29 (F := Ideal) x2 x3 x6 (ix2 n b) := by
  unfold val_main_v30
  exact gru_concat_right _ _ n b

theorem gru_v59_left (n : Fin 16384) (a : Fin 512) :
    val_main_v59 (F := Ideal) x0 x2 x3 x6 x8 x11 x12 x13 (ix2 n (⟨a.val, by omega⟩ : Fin 1024)) = val_main_v6 (F := Ideal) x0 x8 (ix2 n a) := by
  unfold val_main_v59
  exact gru_concat_left _ _ n a

theorem gru_v59_right (n : Fin 16384) (b : Fin 512) :
    val_main_v59 (F := Ideal) x0 x2 x3 x6 x8 x11 x12 x13 (ix2 n (⟨512 + b.val, by omega⟩ : Fin 1024))
      = val_main_v58 (F := Ideal) x0 x2 x3 x6 x8 x11 x12 x13 (ix2 n b) := by
  unfold val_main_v59
  exact gru_concat_right _ _ n b

/-- The summed neighbour messages. -/
theorem ref_sumH (n : Fin 16384) (h : Fin 512) :
    val_main_v29 (F := Ideal) x2 x3 x6 (ix2 n h) = sumRows (maskedRows x2 x3 x6 n) h := by
  rw [val_main_v29_apply, val_main_cst_apply, gru_zero, zero_add]
  unfold sumRows
  refine Finset.sum_congr rfl fun k _ => ?_
  rw [show idx_main_v29 (ix2 n h) k = ix3 n k h from funext fun a => Fin.ext (by match a with | ⟨0, _⟩ => rfl | ⟨1, _⟩ => rfl | ⟨2, _⟩ => rfl)]
  exact ref_hn x2 x3 x6 n k h

/-- The summed child messages. -/
theorem ref_sumO (n : Fin 16384) (h : Fin 512) :
    val_main_v71 (F := Ideal) x4 x5 x6 (ix2 n h) = sumRows (maskedRows x4 x5 x6 n) h := by
  rw [val_main_v71_apply, val_main_cst_11_apply, gru_zero, zero_add]
  unfold sumRows
  refine Finset.sum_congr rfl fun k _ => ?_
  rw [show idx_main_v71 (ix2 n h) k = ix3 n k h from funext fun a => Fin.ext (by match a with | ⟨0, _⟩ => rfl | ⟨1, _⟩ => rfl | ⟨2, _⟩ => rfl)]
  exact ref_on x4 x5 x6 n k h

/-- The embedding's part of the reset gate. -/
theorem ref_resetX (n : Fin 16384) (g : Fin 512) :
    val_main_v46 (F := Ideal) x0 x8 x11 x12 (ix2 n g)
      = resetX (W x9 x10 x11 x12 x13 x14 x15 x16 x17 x18 x19 x20 x21 x22 x23 x24 x25) (takeRow (by decide) x0 x8 n) g := by
  rw [val_main_v46_apply, Ideal.addf_def, val_main_v43_apply, val_main_v45_apply, val_main_v44_apply]
  unfold resetX vecMat
  refine gru_add_congr (Finset.sum_congr rfl fun h _ => ?_) ?_
  · rw [val_main_v42_apply, gru_W_rx]
    refine gru_mul_congr ?_ (congrArg x11 (funext fun a => Fin.ext (by match a with | ⟨0, _⟩ => rfl | ⟨1, _⟩ => rfl)))
    rw [show lidx_main_v43 (ix2 n g) h = ix2 n h from funext fun a => Fin.ext (by match a with | ⟨0, _⟩ => rfl | ⟨1, _⟩ => rfl)]
    exact ref_x x0 x8 n h
  · rw [gru_W_rb]
    exact congrArg x12 (funext fun a => Fin.ext (by match a with | ⟨0, _⟩ => rfl))

/-- The reset gate of neighbour `k`. -/
theorem ref_gate (n : Fin 16384) (k : Fin 15) (g : Fin 512) :
    val_main_v56 (F := Ideal) x0 x2 x3 x6 x8 x11 x12 x13 (ix3 n k g)
      = gate (W x9 x10 x11 x12 x13 x14 x15 x16 x17 x18 x19 x20 x21 x22 x23 x24 x25) (takeRow (by decide) x0 x8 n) (maskedRows x2 x3 x6 n) k g := by
  rw [val_main_v56_apply, val_main_v55_apply, val_main_cst_8_apply, val_main_v54_apply, val_main_v53_apply,
    val_main_cst_7_apply, val_main_v52_apply, val_main_v51_apply, gru_logistic]
  unfold gate
  refine congrArg Ideal.logistic ?_
  rw [val_main_v50_apply, Ideal.addf_def, val_main_v49_apply, val_main_v47_apply, val_main_v48_apply]
  refine gru_add_congr ?_ ?_
  · rw [show idx_main_v47 (idx_main_v49 (ix3 n k g)) = ix2 n g from funext fun a => Fin.ext (by match a with | ⟨0, _⟩ => rfl | ⟨1, _⟩ => rfl)]
    exact ref_resetX x0 x8 x9 x10 x11 x12 x13 x14 x15 x16 x17 x18 x19 x20 x21 x22 x23 x24 x25 n g
  · unfold vecMat
    refine Finset.sum_congr rfl fun h _ => ?_
    rw [gru_W_ru]
    refine gru_mul_congr ?_ (congrArg x13 (funext fun a => Fin.ext (by match a with | ⟨0, _⟩ => rfl | ⟨1, _⟩ => rfl)))
    rw [show lidx_main_v48 (ix3 n k g) h = ix3 n k h from funext fun a => Fin.ext (by match a with | ⟨0, _⟩ => rfl | ⟨1, _⟩ => rfl | ⟨2, _⟩ => rfl)]
    exact ref_hn x2 x3 x6 n k h

/-- The gated sum. -/
theorem ref_sumGated (n : Fin 16384) (g : Fin 512) :
    val_main_v58 (F := Ideal) x0 x2 x3 x6 x8 x11 x12 x13 (ix2 n g)
      = sumGated (W x9 x10 x11 x12 x13 x14 x15 x16 x17 x18 x19 x20 x21 x22 x23 x24 x25) (takeRow (by decide) x0 x8 n) (maskedRows x2 x3 x6 n) g := by
  rw [val_main_v58_apply, val_main_cst_9_apply, gru_zero, zero_add]
  unfold sumGated
  refine Finset.sum_congr rfl fun k _ => ?_
  rw [show idx_main_v58 (ix2 n g) k = ix3 n k g from funext fun a => Fin.ext (by match a with | ⟨0, _⟩ => rfl | ⟨1, _⟩ => rfl | ⟨2, _⟩ => rfl), val_main_v57_apply, Ideal.mulf_def]
  exact gru_mul_congr (ref_gate x0 x2 x3 x6 x8 x9 x10 x11 x12 x13 x14 x15 x16 x17 x18 x19 x20 x21 x22 x23 x24 x25 n k g) (ref_hn x2 x3 x6 n k g)

/-- The update gate. -/
theorem ref_update (n : Fin 16384) (g : Fin 512) :
    val_main_v41 (F := Ideal) x0 x2 x3 x6 x8 x9 x10 (ix2 n g)
      = update (W x9 x10 x11 x12 x13 x14 x15 x16 x17 x18 x19 x20 x21 x22 x23 x24 x25) (takeRow (by decide) x0 x8 n) (maskedRows x2 x3 x6 n) g := by
  rw [val_main_v41_apply, val_main_v40_apply, val_main_cst_6_apply, val_main_v39_apply, val_main_v38_apply,
    val_main_cst_5_apply, val_main_v37_apply, val_main_v36_apply, gru_logistic]
  unfold update
  refine congrArg Ideal.logistic ?_
  rw [val_main_v35_apply, Ideal.addf_def, val_main_v34_apply, val_main_v33_apply, val_main_v32_apply]
  refine gru_add_congr ((gru_split1024 _).trans (gru_add_congr ?_ ?_)) ?_
  · unfold vecMat
    refine Finset.sum_congr rfl fun a _ => ?_
    rw [val_main_v31_apply, gru_W_zx]
    refine gru_mul_congr ?_ (congrArg x9 (funext fun a => Fin.ext (by match a with | ⟨0, _⟩ => rfl | ⟨1, _⟩ => rfl)))
    rw [show lidx_main_v32 (ix2 n g) (⟨a.val, by omega⟩ : Fin 1024) = ix2 n (⟨a.val, by omega⟩ : Fin 1024) from funext fun a => Fin.ext (by match a with | ⟨0, _⟩ => rfl | ⟨1, _⟩ => rfl),
      gru_v30_left]
    exact ref_x x0 x8 n a
  · unfold vecMat
    refine Finset.sum_congr rfl fun b _ => ?_
    rw [val_main_v31_apply, gru_W_zh]
    refine gru_mul_congr ?_ (congrArg x9 (funext fun a => Fin.ext (by match a with | ⟨0, _⟩ => rfl | ⟨1, _⟩ => rfl)))
    rw [show lidx_main_v32 (ix2 n g) (⟨512 + b.val, by omega⟩ : Fin 1024) = ix2 n (⟨512 + b.val, by omega⟩ : Fin 1024) from funext fun a => Fin.ext (by match a with | ⟨0, _⟩ => rfl | ⟨1, _⟩ => rfl),
      gru_v30_right]
    exact ref_sumH x2 x3 x6 n b
  · rw [gru_W_zb]
    exact congrArg x10 (funext fun a => Fin.ext (by match a with | ⟨0, _⟩ => rfl))

/-- The candidate. -/
theorem ref_cand (n : Fin 16384) (g : Fin 512) :
    val_main_v65 (F := Ideal) x0 x2 x3 x6 x8 x11 x12 x13 x14 x15 (ix2 n g)
      = cand (W x9 x10 x11 x12 x13 x14 x15 x16 x17 x18 x19 x20 x21 x22 x23 x24 x25) (takeRow (by decide) x0 x8 n) (maskedRows x2 x3 x6 n) g := by
  rw [val_main_v65_apply, Ideal.hostUnary_tanh_def]
  unfold cand
  refine congrArg Ideal.tanh ?_
  rw [val_main_v64_apply, Ideal.addf_def, val_main_v63_apply, val_main_v62_apply, val_main_v61_apply]
  refine gru_add_congr ((gru_split1024 _).trans (gru_add_congr ?_ ?_)) ?_
  · unfold vecMat
    refine Finset.sum_congr rfl fun a _ => ?_
    rw [val_main_v60_apply, gru_W_hx]
    refine gru_mul_congr ?_ (congrArg x14 (funext fun a => Fin.ext (by match a with | ⟨0, _⟩ => rfl | ⟨1, _⟩ => rfl)))
    rw [show lidx_main_v61 (ix2 n g) (⟨a.val, by omega⟩ : Fin 1024) = ix2 n (⟨a.val, by omega⟩ : Fin 1024) from funext fun a => Fin.ext (by match a with | ⟨0, _⟩ => rfl | ⟨1, _⟩ => rfl),
      gru_v59_left]
    exact ref_x x0 x8 n a
  · unfold vecMat
    refine Finset.sum_congr rfl fun b _ => ?_
    rw [val_main_v60_apply, gru_W_hh]
    refine gru_mul_congr ?_ (congrArg x14 (funext fun a => Fin.ext (by match a with | ⟨0, _⟩ => rfl | ⟨1, _⟩ => rfl)))
    rw [show lidx_main_v61 (ix2 n g) (⟨512 + b.val, by omega⟩ : Fin 1024) = ix2 n (⟨512 + b.val, by omega⟩ : Fin 1024) from funext fun a => Fin.ext (by match a with | ⟨0, _⟩ => rfl | ⟨1, _⟩ => rfl),
      gru_v59_right]
    exact ref_sumGated x0 x2 x3 x6 x8 x9 x10 x11 x12 x13 x14 x15 x16 x17 x18 x19 x20 x21 x22 x23 x24 x25 n b
  · rw [gru_W_hb]
    exact congrArg x15 (funext fun a => Fin.ext (by match a with | ⟨0, _⟩ => rfl))

/-- The new message. -/
theorem ref_newH (n : Fin 16384) (g : Fin 512) :
    val_main_v70 (F := Ideal) x0 x2 x3 x6 x8 x9 x10 x11 x12 x13 x14 x15 (ix2 n g)
      = newH (W x9 x10 x11 x12 x13 x14 x15 x16 x17 x18 x19 x20 x21 x22 x23 x24 x25) (takeRow (by decide) x0 x8 n) (maskedRows x2 x3 x6 n) g := by
  rw [val_main_v70_apply, Ideal.addf_def, val_main_v68_apply, Ideal.mulf_def, val_main_v67_apply, Ideal.subf_def,
    val_main_v66_apply, val_main_cst_10_apply, Ideal.ofBits_def, val_main_v69_apply, Ideal.mulf_def,
    ref_update x0 x2 x3 x6 x8 x9 x10 x11 x12 x13 x14 x15 x16 x17 x18 x19 x20 x21 x22 x23 x24 x25 n g, ref_sumH x2 x3 x6 n g, ref_cand x0 x2 x3 x6 x8 x9 x10 x11 x12 x13 x14 x15 x16 x17 x18 x19 x20 x21 x22 x23 x24 x25 n g]
  rfl

end Cert.TreeGru.Ref

end
-- ==== Proof.RefHeads.lean ====
/-
  The reference's two heads read at an index of row `n`: the word head's hidden layer and scores, the stop head's
  input layer, hidden layer and score, and the result row, are the specification's row functions.
-/
import proofs.«136730_j35158602285573_1_alg».proof.Proof.Gen.ReferenceIdeal.Read
import proofs.«136730_j35158602285573_1_alg».proof.Proof.Spec
import proofs.«136730_j35158602285573_1_alg».proof.Proof.RefRows
import proofs.«136730_j35158602285573_1_alg».proof.Proof.RefGru
import proofs.«136730_j35158602285573_1_alg».proof.Proof.LibRowConcat

noncomputable section

open scoped BigOperators

namespace Cert.TreeGru.Ref

open Cert.ReferenceIdeal Cert.ReferenceIdeal.Read Idealize.ShloMosaic Idealize.ShloMosaic.ValueIdx Cert.TreeGru

variable (x0 x1 : (⟨S16384, .i32⟩ : BufTy).Contents (Elt Ideal)) (x2 x3 x4 x5 : (⟨S16384x15, .i32⟩ : BufTy).Contents (Elt Ideal))
  (x6 : (⟨S65536x512, .f32⟩ : BufTy).Contents (Elt Ideal)) (x7 : (⟨S256x128, .f32⟩ : BufTy).Contents (Elt Ideal)) (x8 : (⟨S1024x512, .f32⟩ : BufTy).Contents (Elt Ideal))
  (x9 : (⟨S512x1024, .f32⟩ : BufTy).Contents (Elt Ideal)) (x10 : (⟨S512, .f32⟩ : BufTy).Contents (Elt Ideal)) (x11 : (⟨S512x512, .f32⟩ : BufTy).Contents (Elt Ideal)) (x12 : (⟨S512, .f32⟩ : BufTy).Contents (Elt Ideal))
  (x13 : (⟨S512x512, .f32⟩ : BufTy).Contents (Elt Ideal)) (x14 : (⟨S512x1024, .f32⟩ : BufTy).Contents (Elt Ideal)) (x15 : (⟨S512, .f32⟩ : BufTy).Contents (Elt Ideal))
  (x16 : (⟨S512x640, .f32⟩ : BufTy).Contents (Elt Ideal)) (x17 : (⟨S512, .f32⟩ : BufTy).Contents (Elt Ideal)) (x18 : (⟨S1024x512, .f32⟩ : BufTy).Contents (Elt Ideal)) (x19 : (⟨S1024, .f32⟩ : BufTy).Contents (Elt Ideal))
  (x20 : (⟨S512x1024, .f32⟩ : BufTy).Contents (Elt Ideal)) (x21 : (⟨S512, .f32⟩ : BufTy).Contents (Elt Ideal)) (x22 : (⟨S512x640, .f32⟩ : BufTy).Contents (Elt Ideal)) (x23 : (⟨S512, .f32⟩ : BufTy).Contents (Elt Ideal))
  (x24 : (⟨S1x512, .f32⟩ : BufTy).Contents (Elt Ideal)) (x25 : (⟨S1, .f32⟩ : BufTy).Contents (Elt Ideal))

/-! ## Sums over joined columns, split at the joint -/

/-- A sum over 640 = 512 + 128 columns. -/
theorem heads_split640 (f : Fin 640 → EReal) :
    ∑ k, f k = (∑ a : Fin 512, f ⟨a.val, by omega⟩) + ∑ l : Fin 128, f ⟨512 + l.val, by omega⟩ :=
  Cert.Lib.RowConcat.sum_split 512 128 f

/-- A sum over 1024 = 512 + 512 columns. -/
theorem heads_split1024 (f : Fin 1024 → EReal) :
    ∑ k, f k = (∑ a : Fin 512, f ⟨a.val, by omega⟩) + ∑ b : Fin 512, f ⟨512 + b.val, by omega⟩ :=
  Cert.Lib.RowConcat.sum_split 512 512 f

/-! ## The three zero rows of the rectifiers and the five broadcast biases, at an index -/

theorem heads_zero0 (i : S16384x512.Idx) : val_main_call0_v0 (F := Ideal) i = zero := by
  rw [val_main_call0_v0_apply, val_main_call0_cst_apply]; rfl

theorem heads_zero1 (i : S16384x512.Idx) : val_main_call1_v0 (F := Ideal) i = zero := by
  rw [val_main_call1_v0_apply, val_main_call1_cst_apply]; rfl

theorem heads_zero2 (i : S16384x512.Idx) : val_main_call2_v0 (F := Ideal) i = zero := by
  rw [val_main_call2_v0_apply, val_main_call2_cst_apply]; rfl

theorem heads_bias83 (n : Fin 16384) (g : Fin 512) : val_main_v83 (F := Ideal) x17 (ix2 n g) = x17 (ix1 g) := by
  rw [val_main_v83_apply, val_main_v82_apply]
  exact congrArg x17 (funext fun a => by match a with | ⟨0, _⟩ => rfl)

theorem heads_bias89 (n : Fin 16384) (v : Fin 1024) : val_main_v89 (F := Ideal) x19 (ix2 n v) = x19 (ix1 v) := by
  rw [val_main_v89_apply, val_main_v88_apply]
  exact congrArg x19 (funext fun a => by match a with | ⟨0, _⟩ => rfl)

theorem heads_bias95 (n : Fin 16384) (g : Fin 512) : val_main_v95 (F := Ideal) x21 (ix2 n g) = x21 (ix1 g) := by
  rw [val_main_v95_apply, val_main_v94_apply]
  exact congrArg x21 (funext fun a => by match a with | ⟨0, _⟩ => rfl)

theorem heads_bias102 (n : Fin 16384) (g : Fin 512) : val_main_v102 (F := Ideal) x23 (ix2 n g) = x23 (ix1 g) := by
  rw [val_main_v102_apply, val_main_v101_apply]
  exact congrArg x23 (funext fun a => by match a with | ⟨0, _⟩ => rfl)

theorem heads_bias108 (n : Fin 16384) : val_main_v108 (F := Ideal) x25 (ix2 n (0 : Fin 1)) = x25 (ix1 (0 : Fin 1)) := by
  rw [val_main_v108_apply, val_main_v107_apply]
  exact congrArg x25 (funext fun a => by match a with | ⟨0, _⟩ => rfl)

/-! ## The four joined arrays, read left and right of the joint -/

theorem heads_v79_left (n : Fin 16384) (a : Fin 512) :
    val_main_v79 (F := Ideal) x0 x1 x2 x3 x6 x7 x8 x9 x10 x11 x12 x13 x14 x15 (ix2 n (⟨a.val, by omega⟩ : Fin 640))
      = val_main_v70 (F := Ideal) x0 x2 x3 x6 x8 x9 x10 x11 x12 x13 x14 x15 (ix2 n a) := by
  unfold val_main_v79
  exact Cert.Lib.RowConcat.rowConcat_left (N := 16384) (A := 512) (B := 128) _ _ _ n a

theorem heads_v79_right (n : Fin 16384) (l : Fin 128) :
    val_main_v79 (F := Ideal) x0 x1 x2 x3 x6 x7 x8 x9 x10 x11 x12 x13 x14 x15 (ix2 n (⟨512 + l.val, by omega⟩ : Fin 640))
      = val_main_v78 (F := Ideal) x1 x7 (ix2 n l) := by
  unfold val_main_v79
  exact Cert.Lib.RowConcat.rowConcat_right (N := 16384) (A := 512) (B := 128) _ _ _ n l

theorem heads_v91_left (n : Fin 16384) (a : Fin 512) :
    val_main_v91 (F := Ideal) x0 x4 x5 x6 x8 (ix2 n (⟨a.val, by omega⟩ : Fin 1024))
      = val_main_v6 (F := Ideal) x0 x8 (ix2 n a) := by
  unfold val_main_v91
  exact Cert.Lib.RowConcat.rowConcat_left (N := 16384) (A := 512) (B := 512) _ _ _ n a

theorem heads_v91_right (n : Fin 16384) (b : Fin 512) :
    val_main_v91 (F := Ideal) x0 x4 x5 x6 x8 (ix2 n (⟨512 + b.val, by omega⟩ : Fin 1024))
      = val_main_v71 (F := Ideal) x4 x5 x6 (ix2 n b) := by
  unfold val_main_v91
  exact Cert.Lib.RowConcat.rowConcat_right (N := 16384) (A := 512) (B := 512) _ _ _ n b

theorem heads_v98_left (n : Fin 16384) (a : Fin 512) :
    val_main_v98 (F := Ideal) x0 x1 x4 x5 x6 x7 x8 x20 x21 (ix2 n (⟨a.val, by omega⟩ : Fin 640))
      = val_main_v97 (F := Ideal) x0 x4 x5 x6 x8 x20 x21 (ix2 n a) := by
  unfold val_main_v98
  exact Cert.Lib.RowConcat.rowConcat_left (N := 16384) (A := 512) (B := 128) _ _ _ n a

theorem heads_v98_right (n : Fin 16384) (l : Fin 128) :
    val_main_v98 (F := Ideal) x0 x1 x4 x5 x6 x7 x8 x20 x21 (ix2 n (⟨512 + l.val, by omega⟩ : Fin 640))
      = val_main_v78 (F := Ideal) x1 x7 (ix2 n l) := by
  unfold val_main_v98
  exact Cert.Lib.RowConcat.rowConcat_right (N := 16384) (A := 512) (B := 128) _ _ _ n l

theorem heads_v110_left (n : Fin 16384) (v : Fin 1024) :
    val_main_v110 (F := Ideal) x0 x1 x2 x3 x4 x5 x6 x7 x8 x9 x10 x11 x12 x13 x14 x15 x16 x17 x18 x19 x20 x21 x22 x23 x24 x25 (ix2 n (⟨v.val, by omega⟩ : Fin 1025))
      = val_main_v90 (F := Ideal) x0 x1 x2 x3 x6 x7 x8 x9 x10 x11 x12 x13 x14 x15 x16 x17 x18 x19 (ix2 n v) := by
  unfold val_main_v110
  exact Cert.Lib.RowConcat.rowConcat_left (N := 16384) (A := 1024) (B := 1) _ _ _ n v

theorem heads_v110_right (n : Fin 16384) :
    val_main_v110 (F := Ideal) x0 x1 x2 x3 x4 x5 x6 x7 x8 x9 x10 x11 x12 x13 x14 x15 x16 x17 x18 x19 x20 x21 x22 x23 x24 x25 (ix2 n (⟨1024 + (0 : Fin 1).val, by decide⟩ : Fin 1025))
      = val_main_v109 (F := Ideal) x0 x1 x4 x5 x6 x7 x8 x20 x21 x22 x23 x24 x25 (ix2 n (0 : Fin 1)) := by
  unfold val_main_v110
  exact Cert.Lib.RowConcat.rowConcat_right (N := 16384) (A := 1024) (B := 1) _ _ _ n (0 : Fin 1)

/-! ## The five products, as sums over the contracted column with the weights read output-major -/

theorem heads_v81 (n : Fin 16384) (g : Fin 512) :
    val_main_v81 (F := Ideal) x0 x1 x2 x3 x6 x7 x8 x9 x10 x11 x12 x13 x14 x15 x16 (ix2 n g)
      = ∑ k : Fin 640, val_main_v79 (F := Ideal) x0 x1 x2 x3 x6 x7 x8 x9 x10 x11 x12 x13 x14 x15 (ix2 n k) * x16 (ix2 g k) := by
  rw [val_main_v81_apply]
  refine Finset.sum_congr rfl fun k _ => ?_
  rw [val_main_v80_apply]
  have hl : lidx_main_v81 (ix2 n g) k = ix2 n k := funext fun a => by match a with | ⟨0, _⟩ => rfl | ⟨1, _⟩ => rfl
  have hr : idx_main_v80 (ridx_main_v81 (ix2 n g) k) = ix2 g k := funext fun a => by match a with | ⟨0, _⟩ => rfl | ⟨1, _⟩ => rfl
  rw [hl, hr]

theorem heads_v87 (n : Fin 16384) (v : Fin 1024) :
    val_main_v87 (F := Ideal) x0 x1 x2 x3 x6 x7 x8 x9 x10 x11 x12 x13 x14 x15 x16 x17 x18 (ix2 n v)
      = ∑ k : Fin 512, val_main_v85 (F := Ideal) x0 x1 x2 x3 x6 x7 x8 x9 x10 x11 x12 x13 x14 x15 x16 x17 (ix2 n k) * x18 (ix2 v k) := by
  rw [val_main_v87_apply]
  refine Finset.sum_congr rfl fun k _ => ?_
  rw [val_main_v86_apply]
  have hl : lidx_main_v87 (ix2 n v) k = ix2 n k := funext fun a => by match a with | ⟨0, _⟩ => rfl | ⟨1, _⟩ => rfl
  have hr : idx_main_v86 (ridx_main_v87 (ix2 n v) k) = ix2 v k := funext fun a => by match a with | ⟨0, _⟩ => rfl | ⟨1, _⟩ => rfl
  rw [hl, hr]

theorem heads_v93 (n : Fin 16384) (g : Fin 512) :
    val_main_v93 (F := Ideal) x0 x4 x5 x6 x8 x20 (ix2 n g)
      = ∑ k : Fin 1024, val_main_v91 (F := Ideal) x0 x4 x5 x6 x8 (ix2 n k) * x20 (ix2 g k) := by
  rw [val_main_v93_apply]
  refine Finset.sum_congr rfl fun k _ => ?_
  rw [val_main_v92_apply]
  have hl : lidx_main_v93 (ix2 n g) k = ix2 n k := funext fun a => by match a with | ⟨0, _⟩ => rfl | ⟨1, _⟩ => rfl
  have hr : idx_main_v92 (ridx_main_v93 (ix2 n g) k) = ix2 g k := funext fun a => by match a with | ⟨0, _⟩ => rfl | ⟨1, _⟩ => rfl
  rw [hl, hr]

theorem heads_v100 (n : Fin 16384) (g : Fin 512) :
    val_main_v100 (F := Ideal) x0 x1 x4 x5 x6 x7 x8 x20 x21 x22 (ix2 n g)
      = ∑ k : Fin 640, val_main_v98 (F := Ideal) x0 x1 x4 x5 x6 x7 x8 x20 x21 (ix2 n k) * x22 (ix2 g k) := by
  rw [val_main_v100_apply]
  refine Finset.sum_congr rfl fun k _ => ?_
  rw [val_main_v99_apply]
  have hl : lidx_main_v100 (ix2 n g) k = ix2 n k := funext fun a => by match a with | ⟨0, _⟩ => rfl | ⟨1, _⟩ => rfl
  have hr : idx_main_v99 (ridx_main_v100 (ix2 n g) k) = ix2 g k := funext fun a => by match a with | ⟨0, _⟩ => rfl | ⟨1, _⟩ => rfl
  rw [hl, hr]

theorem heads_v106 (n : Fin 16384) :
    val_main_v106 (F := Ideal) x0 x1 x4 x5 x6 x7 x8 x20 x21 x22 x23 x24 (ix2 n (0 : Fin 1))
      = ∑ k : Fin 512, val_main_v104 (F := Ideal) x0 x1 x4 x5 x6 x7 x8 x20 x21 x22 x23 (ix2 n k) * x24 (ix2 (0 : Fin 1) k) := by
  rw [val_main_v106_apply]
  refine Finset.sum_congr rfl fun k _ => ?_
  rw [val_main_v105_apply]
  have hl : lidx_main_v106 (ix2 n (0 : Fin 1)) k = ix2 n k := funext fun a => by match a with | ⟨0, _⟩ => rfl | ⟨1, _⟩ => rfl
  have hr : idx_main_v105 (ridx_main_v106 (ix2 n (0 : Fin 1)) k) = ix2 (0 : Fin 1) k := funext fun a => by match a with | ⟨0, _⟩ => rfl | ⟨1, _⟩ => rfl
  rw [hl, hr]

/-! ## The heads -/

/-- The word head's hidden layer. -/
theorem ref_wordHid (n : Fin 16384) (g : Fin 512) :
    val_main_v85 (F := Ideal) x0 x1 x2 x3 x6 x7 x8 x9 x10 x11 x12 x13 x14 x15 x16 x17 (ix2 n g)
      = wordHid (W x9 x10 x11 x12 x13 x14 x15 x16 x17 x18 x19 x20 x21 x22 x23 x24 x25) (takeRow (by decide) x0 x8 n) (takeRow (by decide) x1 x7 n) (maskedRows x2 x3 x6 n) g := by
  have hsum : (∑ k : Fin 640, val_main_v79 (F := Ideal) x0 x1 x2 x3 x6 x7 x8 x9 x10 x11 x12 x13 x14 x15 (ix2 n k) * x16 (ix2 g k))
      = (∑ h : Fin 512, newH (W x9 x10 x11 x12 x13 x14 x15 x16 x17 x18 x19 x20 x21 x22 x23 x24 x25) (takeRow (by decide) x0 x8 n) (maskedRows x2 x3 x6 n) h * (W x9 x10 x11 x12 x13 x14 x15 x16 x17 x18 x19 x20 x21 x22 x23 x24 x25).wh h g) + ∑ l : Fin 128, takeRow (by decide) x1 x7 n l * (W x9 x10 x11 x12 x13 x14 x15 x16 x17 x18 x19 x20 x21 x22 x23 x24 x25).wl l g := by
    refine (heads_split640 _).trans ?_
    refine congrArg₂ (· + ·) (Finset.sum_congr rfl fun a _ => ?_) (Finset.sum_congr rfl fun l _ => ?_)
    · rw [heads_v79_left, ref_newH x0 x2 x3 x6 x8 x9 x10 x11 x12 x13 x14 x15 x16 x17 x18 x19 x20 x21 x22 x23 x24 x25]; rfl
    · rw [heads_v79_right, ref_ctx]; rfl
  rw [val_main_v85_apply, val_main_v84_apply, heads_zero0, heads_bias83, heads_v81, hsum,
    Ideal.maximumf_def, Ideal.addf_def]
  rfl

/-- The word scores. -/
theorem ref_word (n : Fin 16384) (v : Fin 1024) :
    val_main_v90 (F := Ideal) x0 x1 x2 x3 x6 x7 x8 x9 x10 x11 x12 x13 x14 x15 x16 x17 x18 x19 (ix2 n v)
      = word (W x9 x10 x11 x12 x13 x14 x15 x16 x17 x18 x19 x20 x21 x22 x23 x24 x25) (takeRow (by decide) x0 x8 n) (takeRow (by decide) x1 x7 n) (maskedRows x2 x3 x6 n) v := by
  have hsum : (∑ k : Fin 512, val_main_v85 (F := Ideal) x0 x1 x2 x3 x6 x7 x8 x9 x10 x11 x12 x13 x14 x15 x16 x17 (ix2 n k) * x18 (ix2 v k))
      = ∑ k : Fin 512, wordHid (W x9 x10 x11 x12 x13 x14 x15 x16 x17 x18 x19 x20 x21 x22 x23 x24 x25) (takeRow (by decide) x0 x8 n) (takeRow (by decide) x1 x7 n) (maskedRows x2 x3 x6 n) k * (W x9 x10 x11 x12 x13 x14 x15 x16 x17 x18 x19 x20 x21 x22 x23 x24 x25).ow k v := by
    refine Finset.sum_congr rfl fun k _ => ?_
    rw [ref_wordHid x0 x1 x2 x3 x6 x7 x8 x9 x10 x11 x12 x13 x14 x15 x16 x17 x18 x19 x20 x21 x22 x23 x24 x25]; rfl
  rw [val_main_v90_apply, heads_v87, heads_bias89, hsum, Ideal.addf_def]
  rfl

/-- The stop head's input layer. -/
theorem ref_stopIn (n : Fin 16384) (g : Fin 512) :
    val_main_v97 (F := Ideal) x0 x4 x5 x6 x8 x20 x21 (ix2 n g)
      = stopIn (W x9 x10 x11 x12 x13 x14 x15 x16 x17 x18 x19 x20 x21 x22 x23 x24 x25) (takeRow (by decide) x0 x8 n) (maskedRows x4 x5 x6 n) g := by
  have hsum : (∑ k : Fin 1024, val_main_v91 (F := Ideal) x0 x4 x5 x6 x8 (ix2 n k) * x20 (ix2 g k))
      = (∑ h : Fin 512, takeRow (by decide) x0 x8 n h * (W x9 x10 x11 x12 x13 x14 x15 x16 x17 x18 x19 x20 x21 x22 x23 x24 x25).ix h g) + ∑ h : Fin 512, sumRows (maskedRows x4 x5 x6 n) h * (W x9 x10 x11 x12 x13 x14 x15 x16 x17 x18 x19 x20 x21 x22 x23 x24 x25).io h g := by
    refine (heads_split1024 _).trans ?_
    refine congrArg₂ (· + ·) (Finset.sum_congr rfl fun a _ => ?_) (Finset.sum_congr rfl fun b _ => ?_)
    · rw [heads_v91_left, ref_x]; rfl
    · rw [heads_v91_right, ref_sumO]; rfl
  rw [val_main_v97_apply, val_main_v96_apply, heads_zero1, heads_bias95, heads_v93, hsum,
    Ideal.maximumf_def, Ideal.addf_def]
  rfl

/-- The stop head's hidden layer. -/
theorem ref_stopHid (n : Fin 16384) (g : Fin 512) :
    val_main_v104 (F := Ideal) x0 x1 x4 x5 x6 x7 x8 x20 x21 x22 x23 (ix2 n g)
      = stopHid (W x9 x10 x11 x12 x13 x14 x15 x16 x17 x18 x19 x20 x21 x22 x23 x24 x25) (takeRow (by decide) x0 x8 n) (takeRow (by decide) x1 x7 n) (maskedRows x4 x5 x6 n) g := by
  have hsum : (∑ k : Fin 640, val_main_v98 (F := Ideal) x0 x1 x4 x5 x6 x7 x8 x20 x21 (ix2 n k) * x22 (ix2 g k))
      = (∑ h : Fin 512, stopIn (W x9 x10 x11 x12 x13 x14 x15 x16 x17 x18 x19 x20 x21 x22 x23 x24 x25) (takeRow (by decide) x0 x8 n) (maskedRows x4 x5 x6 n) h * (W x9 x10 x11 x12 x13 x14 x15 x16 x17 x18 x19 x20 x21 x22 x23 x24 x25).uh h g) + ∑ l : Fin 128, takeRow (by decide) x1 x7 n l * (W x9 x10 x11 x12 x13 x14 x15 x16 x17 x18 x19 x20 x21 x22 x23 x24 x25).ul l g := by
    refine (heads_split640 _).trans ?_
    refine congrArg₂ (· + ·) (Finset.sum_congr rfl fun a _ => ?_) (Finset.sum_congr rfl fun l _ => ?_)
    · rw [heads_v98_left, ref_stopIn x0 x4 x5 x6 x8 x9 x10 x11 x12 x13 x14 x15 x16 x17 x18 x19 x20 x21 x22 x23 x24 x25]; rfl
    · rw [heads_v98_right, ref_ctx]; rfl
  rw [val_main_v104_apply, val_main_v103_apply, heads_zero2, heads_bias102, heads_v100, hsum,
    Ideal.maximumf_def, Ideal.addf_def]
  rfl

/-- The stop score. -/
theorem ref_stop (n : Fin 16384) :
    val_main_v109 (F := Ideal) x0 x1 x4 x5 x6 x7 x8 x20 x21 x22 x23 x24 x25 (ix2 n (0 : Fin 1))
      = stop (W x9 x10 x11 x12 x13 x14 x15 x16 x17 x18 x19 x20 x21 x22 x23 x24 x25) (takeRow (by decide) x0 x8 n) (takeRow (by decide) x1 x7 n) (maskedRows x4 x5 x6 n) := by
  have hsum : (∑ k : Fin 512, val_main_v104 (F := Ideal) x0 x1 x4 x5 x6 x7 x8 x20 x21 x22 x23 (ix2 n k) * x24 (ix2 (0 : Fin 1) k))
      = ∑ g, stopHid (W x9 x10 x11 x12 x13 x14 x15 x16 x17 x18 x19 x20 x21 x22 x23 x24 x25) (takeRow (by decide) x0 x8 n) (takeRow (by decide) x1 x7 n) (maskedRows x4 x5 x6 n) g * (W x9 x10 x11 x12 x13 x14 x15 x16 x17 x18 x19 x20 x21 x22 x23 x24 x25).so g := by
    refine Finset.sum_congr rfl fun k _ => ?_
    rw [ref_stopHid x0 x1 x4 x5 x6 x7 x8 x9 x10 x11 x12 x13 x14 x15 x16 x17 x18 x19 x20 x21 x22 x23 x24 x25]; rfl
  rw [val_main_v109_apply, heads_v106, heads_bias108, hsum, Ideal.addf_def]
  rfl

/-- The reference's result is the specification's, row by row. -/
theorem ref_result (n : Fin 16384) (j : Fin 1025) :
    val_main_v110 (F := Ideal) x0 x1 x2 x3 x4 x5 x6 x7 x8 x9 x10 x11 x12 x13 x14 x15 x16 x17 x18 x19 x20 x21 x22 x23 x24 x25 (ix2 n j)
      = result x0 x1 x2 x3 x4 x5 x6 x7 x8 x9 x10 x11 x12 x13 x14 x15 x16 x17 x18 x19 x20 x21 x22 x23 x24 x25 n j := by
  unfold result rowOut
  split
  · rename_i h
    exact (heads_v110_left x0 x1 x2 x3 x4 x5 x6 x7 x8 x9 x10 x11 x12 x13 x14 x15 x16 x17 x18 x19 x20 x21 x22 x23 x24 x25 n ⟨j.val, h⟩).trans (ref_word x0 x1 x2 x3 x6 x7 x8 x9 x10 x11 x12 x13 x14 x15 x16 x17 x18 x19 x20 x21 x22 x23 x24 x25 n ⟨j.val, h⟩)
  · rename_i h
    have hj : j = (⟨1024 + (0 : Fin 1).val, by decide⟩ : Fin 1025) :=
      Fin.ext (by have := j.isLt; show j.val = 1024 + 0; omega)
    subst hj
    exact (heads_v110_right x0 x1 x2 x3 x4 x5 x6 x7 x8 x9 x10 x11 x12 x13 x14 x15 x16 x17 x18 x19 x20 x21 x22 x23 x24 x25 n).trans (ref_stop x0 x1 x4 x5 x6 x7 x8 x9 x10 x11 x12 x13 x14 x15 x16 x17 x18 x19 x20 x21 x22 x23 x24 x25 n)

end Cert.TreeGru.Ref

end
-- ==== Proof.lean ====
/-
  The certificate: a tree-GRU message update with a word head and a stop head, as a Pallas kernel over blocks of 256
  nodes against its jnp reference. On the extended reals both programs compute, row by row, ONE function of the node's
  gathered inputs (Proof/Spec.lean): the kernel stores it block by block (Proof/KFinal.lean), the reference's chain of
  host operations reads as it index by index (Proof/RefHeads.lean). The kernel splits every product with a
  concatenated input into the two products of its parts and unrolls the sums over the fifteen messages; sums on the
  extended reals commute and associate, so no finiteness of the inputs is used. The three frames are the generated
  frame runs; the kernel's idealization rewrote nothing, so `preserves` is trivial.
-/
import proofs.«136730_j35158602285573_1_alg».proof.Defs
import proofs.«136730_j35158602285573_1_alg».proof.Proof.Gen.Kernel
import proofs.«136730_j35158602285573_1_alg».proof.Proof.KernelFrame
import proofs.«136730_j35158602285573_1_alg».proof.Proof.Gen.KernelIdeal
import proofs.«136730_j35158602285573_1_alg».proof.Proof.KernelIdealFrame
import proofs.«136730_j35158602285573_1_alg».proof.Proof.Gen.ReferenceIdeal
import proofs.«136730_j35158602285573_1_alg».proof.Proof.Gen.Pre_finite_inputs
import proofs.«136730_j35158602285573_1_alg».proof.Proof.Gen.ReferenceIdeal.Run
import proofs.«136730_j35158602285573_1_alg».proof.Proof.Gen.ReferenceIdeal.Read
import proofs.«136730_j35158602285573_1_alg».proof.Proof.KFinal
import proofs.«136730_j35158602285573_1_alg».proof.Proof.RefHeads
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs, faults nowhere and leaves its arguments as they were. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At `Ideal` the kernel's result array ends at the specification's result of its arguments, and the reference's
    at the same function of arguments that agree. -/
theorem algebraic : Cert.algebraic_KernelIdeal_ReferenceIdeal := by
  intro m ρ m' ρ' _ hagree
  refine ⟨fun c => Cert.KernelIdeal.RowValue.resultArr m c, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v110_eq]
  obtain ⟨h0, h1, h2, h3, h4, h5, h6, h7, h8, h9, h10, h11, h12, h13, h14, h15, h16, h17, h18, h19, h20, h21, h22, h23, h24, h25⟩ := hagree c
  rw [h0, h1, h2, h3, h4, h5, h6, h7, h8, h9, h10, h11, h12, h13, h14, h15, h16, h17, h18, h19, h20, h21, h22, h23, h24, h25]
  funext i
  obtain ⟨n, j, rfl⟩ : ∃ (n : Fin 16384) (j : Fin 1025), i = ix2 n j := ⟨i 0, i 1, eq_ix2 i⟩
  exact Cert.TreeGru.Ref.ref_result _ _ _ _ _ _ _ _ _ _ _ _ _ _ _ _ _ _ _ _ _ _ _ _ _ _ n j

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
